-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1 : Shape := ⟨2, ![4096, 1]⟩
abbrev S4096x20 : Shape := ⟨2, ![4096, 20]⟩
abbrev S100000x64 : Shape := ⟨2, ![100000, 64]⟩
abbrev S100001x64 : Shape := ⟨2, ![100001, 64]⟩
abbrev S20 : Shape := ⟨1, ![20]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100001x64 : S_.BroadcastsInDim S100001x64 (![] : Fin 0 → Fin S100001x64.rank)
  reducesTo_S100001x64_S_d0_1 : S100001x64.ReducesTo [0, 1] S_
  bcast_S_S20 : S_.BroadcastsInDim S20 (![] : Fin 0 → Fin S20.rank)
  reducesTo_S20_S_d0 : S20.ReducesTo [0] S_
  bcast_S_S4096x1 : S_.BroadcastsInDim S4096x1 (![] : Fin 0 → Fin S4096x1.rank)
  reducesTo_S4096x1_S_d0_1 : S4096x1.ReducesTo [0, 1] S_
  bcast_S_S4096x20 : S_.BroadcastsInDim S4096x20 (![] : Fin 0 → Fin S4096x20.rank)
  reducesTo_S4096x20_S_d0_1 : S4096x20.ReducesTo [0, 1] S_

variable [Facts]

def fn_part1 {F : FTy → Type} [FloatOps F] (main_arg0 : IVec S4096x1 32) (main_arg1 : IVec S4096x20 32) (main_v13 : IVec S_ 1) (main_v15 : IVec S4096x1 1) (main_c_5 : IVec S_ 32) : IVec S_ 1 :=
  let main_v16 : IVec S4096x1 32 := broadcastInDim S4096x1 ![] bcast_S_S4096x1 main_c_5
  let main_v17 : IVec S4096x1 1 := cmpi .slt main_arg0 main_v16
  let main_v18 : IVec S4096x1 1 := andi main_v15 main_v17
  let main_c_6 : IVec S_ 1 := constantI S_ 1 1#1
  let main_v19 : IVec S_ 1 := (fun x v => Host.reduce IntOp.andi x v reducesTo_S4096x1_S_d0_1 h_S_) main_v18 main_c_6
  let main_v20 : IVec S_ 1 := andi main_v13 main_v19
  let main_c_7 : IVec S_ 32 := constantI S_ 32 0#32
  let main_v21 : IVec S4096x20 32 := broadcastInDim S4096x20 ![] bcast_S_S4096x20 main_c_7
  let main_v22 : IVec S4096x20 1 := cmpi .sge main_arg1 main_v21
  let main_c_8 : IVec S_ 32 := constantI S_ 32 100001#32
  let main_v23 : IVec S4096x20 32 := broadcastInDim S4096x20 ![] bcast_S_S4096x20 main_c_8
  let main_v24 : IVec S4096x20 1 := cmpi .slt main_arg1 main_v23
  let main_v25 : IVec S4096x20 1 := andi main_v22 main_v24
  let main_c_9 : IVec S_ 1 := constantI S_ 1 1#1
  let main_v26 : IVec S_ 1 := (fun x v => Host.reduce IntOp.andi x v reducesTo_S4096x20_S_d0_1 h_S_) main_v25 main_c_9
  let main_v27 : IVec S_ 1 := andi main_v20 main_v26
  main_v27

def fn {F : FTy → Type} [FloatOps F] (main_arg0 : IVec S4096x1 32) (main_arg1 : IVec S4096x20 32) (main_arg2 : FVec F S100000x64 .f32) (main_arg3 : FVec F S100001x64 .f32) (main_arg4 : FVec F S20 .f32) : IVec S_ 1 :=
  let main_v0 : FVec F S100000x64 .f32 := Host.absf main_arg2
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100001x64 .f32 := Host.absf main_arg3
  let main_cst_0 : FVec F S_ .f32 := constant S_ .f32 0x7F800000#32
  let main_v5 : FVec F S100001x64 .f32 := broadcastInDim S100001x64 ![] bcast_S_S100001x64 main_cst_0
  let main_v6 : IVec S100001x64 1 := cmpf .olt main_v4 main_v5
  let main_c_1 : IVec S_ 1 := constantI S_ 1 1#1
  let main_v7 : IVec S_ 1 := (fun x v => Host.reduce IntOp.andi x v reducesTo_S100001x64_S_d0_1 h_S_) main_v6 main_c_1
  let main_v8 : IVec S_ 1 := andi main_v3 main_v7
  let main_v9 : FVec F S20 .f32 := Host.absf main_arg4
  let main_cst_2 : FVec F S_ .f32 := constant S_ .f32 0x7F800000#32
  let main_v10 : FVec F S20 .f32 := broadcastInDim S20 ![] bcast_S_S20 main_cst_2
  let main_v11 : IVec S20 1 := cmpf .olt main_v9 main_v10
  let main_c_3 : IVec S_ 1 := constantI S_ 1 1#1
  let main_v12 : IVec S_ 1 := (fun x v => Host.reduce IntOp.andi x v reducesTo_S20_S_d0 h_S_) main_v11 main_c_3
  let main_v13 : IVec S_ 1 := andi main_v8 main_v12
  let main_c_4 : IVec S_ 32 := constantI S_ 32 0#32
  let main_v14 : IVec S4096x1 32 := broadcastInDim S4096x1 ![] bcast_S_S4096x1 main_c_4
  let main_v15 : IVec S4096x1 1 := cmpi .sge main_arg0 main_v14
  let main_c_5 : IVec S_ 32 := constantI S_ 32 100000#32
  fn_part1 (F := F) main_arg0 main_arg1 main_v13 main_v15 main_c_5
-- ==== Kernel.lean ====
abbrev S4096x1 : Shape := ⟨2, ![4096, 1]⟩
abbrev S4096x20 : Shape := ⟨2, ![4096, 20]⟩
abbrev S100000x64 : Shape := ⟨2, ![100000, 64]⟩
abbrev S100001x64 : Shape := ⟨2, ![100001, 64]⟩
abbrev S20 : Shape := ⟨1, ![20]⟩
abbrev S4096 : Shape := ⟨1, ![4096]⟩
abbrev S81920 : Shape := ⟨1, ![81920]⟩
abbrev S20x1 : Shape := ⟨2, ![20, 1]⟩
abbrev S4096x210x64 : Shape := ⟨3, ![4096, 210, 64]⟩
abbrev S1x210x64 : Shape := ⟨3, ![1, 210, 64]⟩
abbrev S21x64 : Shape := ⟨2, ![21, 64]⟩
abbrev S21 : Shape := ⟨1, ![21]⟩
abbrev S1 : Shape := ⟨1, ![1]⟩
abbrev S_ : Shape := ⟨0, ![]⟩
abbrev S1x64 : Shape := ⟨2, ![1, 64]⟩
abbrev S20x64 : Shape := ⟨2, ![20, 64]⟩
abbrev S190x64 : Shape := ⟨2, ![190, 64]⟩
abbrev S210x64 : Shape := ⟨2, ![210, 64]⟩
abbrev S4096x13440 : Shape := ⟨2, ![4096, 13440]⟩

abbrev nBuf : Space → Nat
  | .hbm => 8
  | .vmem => 4
  | .smem => 2
  | _ => 0

abbrev bufTy : (tb : Table) → Fin (tcTables nBuf tb) → BufTy
  | .hbm, ⟨0, _⟩ => ⟨S4096x1, .i32⟩
  | .hbm, ⟨1, _⟩ => ⟨S4096x20, .i32⟩
  | .hbm, ⟨2, _⟩ => ⟨S100000x64, .f32⟩
  | .hbm, ⟨3, _⟩ => ⟨S100001x64, .f32⟩
  | .hbm, ⟨4, _⟩ => ⟨S20, .f32⟩
  | .hbm, ⟨5, _⟩ => ⟨S20x1, .f32⟩
  | .hbm, ⟨6, _⟩ => ⟨S4096x210x64, .f32⟩
  | .hbm, ⟨7, _⟩ => ⟨S4096x13440, .f32⟩
  | .local _ .vmem, ⟨0, _⟩ => ⟨S20x1, .f32⟩
  | .local _ .vmem, ⟨1, _⟩ => ⟨S1x210x64, .f32⟩
  | .local _ .vmem, ⟨2, _⟩ => ⟨S1x210x64, .f32⟩
  | .local _ .vmem, ⟨3, _⟩ => ⟨S21x64, .f32⟩
  | .local _ .smem, ⟨0, _⟩ => ⟨S4096, .i32⟩
  | .local _ .smem, ⟨1, _⟩ => ⟨S81920, .i32⟩
  | _, _ => ⟨S4096x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v0 : Ref sig .tc := ⟨.smem, 0, rfl⟩
abbrev main_v1 : Ref sig .tc := ⟨.smem, 1, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨1, ![4096], ![false]⟩

abbrev pre0 : Pipeline.Prefetch sig := ⟨2, ![main_v0.idx, main_v1.idx], fun | 0 => main_v0.names | 1 => main_v1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c20_i32 : BitVec 32 := 20#32
  let v2 : BitVec 32 := Scalar.muli arg0 c20_i32
  let c0_i32 : BitVec 32 := 0#32
  let v3 : BitVec 32 := Scalar.addi v2 c0_i32
  let v4 : Index := Scalar.indexCast v3
  ![v4.toNat]
def k0_off3 (v5 : BitVec 32) : Fin 2 → Nat :=
  let c0_i32_3 : BitVec 32 := 0#32
  ![v5.toNat, 0]

def k0_off4 (i : grid0.Coords) : Fin 1 → Nat :=
  let arg0 : BitVec 32 := BitVec.ofNat 32 (i 0).val
  let c20_i32_4 : BitVec 32 := 20#32
  let v10 : BitVec 32 := Scalar.muli arg0 c20_i32_4
  let c1_i32 : BitVec 32 := 1#32
  let v11 : BitVec 32 := Scalar.addi v10 c1_i32
  let v12 : Index := Scalar.indexCast v11
  ![v12.toNat]
def k0_off5 (v13 : BitVec 32) : Fin 2 → Nat :=
  let c0_i32_8 : BitVec 32 := 0#32
  ![v13.toNat, 0]

def k0_off6 (i : grid0.Coords) : Fin 1 → Nat :=
  let arg0 : BitVec 32 := BitVec.ofNat 32 (i 0).val
  let c20_i32_9 : BitVec 32 := 20#32
  let v18 : BitVec 32 := Scalar.muli arg0 c20_i32_9
  let c2_i32 : BitVec 32 := 2#32
  let v19 : BitVec 32 := Scalar.addi v18 c2_i32
  let v20 : Index := Scalar.indexCast v19
  ![v20.toNat]
def k0_off7 (v21 : BitVec 32) : Fin 2 → Nat :=
  let c0_i32_13 : BitVec 32 := 0#32
  ![v21.toNat, 0]

def k0_off8 (i : grid0.Coords) : Fin 1 → Nat :=
  let arg0 : BitVec 32 := BitVec.ofNat 32 (i 0).val
  let c20_i32_14 : BitVec 32 := 20#32
  let v26 : BitVec 32 := Scalar.muli arg0 c20_i32_14
  let c3_i32 : BitVec 32 := 3#32
  let v27 : BitVec 32 := Scalar.addi v26 c3_i32
  let v28 : Index := Scalar.indexCast v27
  ![v28.toNat]
def k0_off9 (v29 : BitVec 32) : Fin 2 → Nat :=
  let c0_i32_18 : BitVec 32 := 0#32
  ![v29.toNat, 0]

def k0_off10 (i : grid0.Coords) : Fin 1 → Nat :=
  let arg0 : BitVec 32 := BitVec.ofNat 32 (i 0).val
  let c20_i32_19 : BitVec 32 := 20#32
  let v34 : BitVec 32 := Scalar.muli arg0 c20_i32_19
  let c4_i32 : BitVec 32 := 4#32
  let v35 : BitVec 32 := Scalar.addi v34 c4_i32
  let v36 : Index := Scalar.indexCast v35
  ![v36.toNat]
def k0_off11 (v37 : BitVec 32) : Fin 2 → Nat :=
  let c0_i32_23 : BitVec 32 := 0#32
  ![v37.toNat, 0]

def k0_off12 (i : grid0.Coords) : Fin 1 → Nat :=
  let arg0 : BitVec 32 := BitVec.ofNat 32 (i 0).val
  let c20_i32_24 : BitVec 32 := 20#32
  let v42 : BitVec 32 := Scalar.muli arg0 c20_i32_24
  let c5_i32 : BitVec 32 := 5#32
  let v43 : BitVec 32 := Scalar.addi v42 c5_i32
  let v44 : Index := Scalar.indexCast v43
  ![v44.toNat]
def k0_off13 (v45 : BitVec 32) : Fin 2 → Nat :=
  let c0_i32_28 : BitVec 32 := 0#32
  ![v45.toNat, 0]

def k0_off14 (i : grid0.Coords) : Fin 1 → Nat :=
  let arg0 : BitVec 32 := BitVec.ofNat 32 (i 0).val
  let c20_i32_29 : BitVec 32 := 20#32
  let v50 : BitVec 32 := Scalar.muli arg0 c20_i32_29
  let c6_i32 : BitVec 32 := 6#32
  let v51 : BitVec 32 := Scalar.addi v50 c6_i32
  let v52 : Index := Scalar.indexCast v51
  ![v52.toNat]
def k0_off15 (v53 : BitVec 32) : Fin 2 → Nat :=
  let c0_i32_33 : BitVec 32 := 0#32
  ![v53.toNat, 0]

def k0_off16 (i : grid0.Coords) : Fin 1 → Nat :=
  let arg0 : BitVec 32 := BitVec.ofNat 32 (i 0).val
  let c20_i32_34 : BitVec 32 := 20#32
  let v58 : BitVec 32 := Scalar.muli arg0 c20_i32_34
  let c7_i32 : BitVec 32 := 7#32
  let v59 : BitVec 32 := Scalar.addi v58 c7_i32
  let v60 : Index := Scalar.indexCast v59
  ![v60.toNat]
def k0_off17 (v61 : BitVec 32) : Fin 2 → Nat :=
  let c0_i32_38 : BitVec 32 := 0#32
  ![v61.toNat, 0]

def k0_off18 (i : grid0.Coords) : Fin 1 → Nat :=
  let arg0 : BitVec 32 := BitVec.ofNat 32 (i 0).val
  let c20_i32_39 : BitVec 32 := 20#32
  let v66 : BitVec 32 := Scalar.muli arg0 c20_i32_39
  let c8_i32 : BitVec 32 := 8#32
  let v67 : BitVec 32 := Scalar.addi v66 c8_i32
  let v68 : Index := Scalar.indexCast v67
  ![v68.toNat]
def k0_off19 (v69 : BitVec 32) : Fin 2 → Nat :=
  let c0_i32_43 : BitVec 32 := 0#32
  ![v69.toNat, 0]

def k0_off20 (i : grid0.Coords) : Fin 1 → Nat :=
  let arg0 : BitVec 32 := BitVec.ofNat 32 (i 0).val
  let c20_i32_44 : BitVec 32 := 20#32
  let v74 : BitVec 32 := Scalar.muli arg0 c20_i32_44
  let c9_i32 : BitVec 32 := 9#32
  let v75 : BitVec 32 := Scalar.addi v74 c9_i32
  let v76 : Index := Scalar.indexCast v75
  ![v76.toNat]
def k0_off21 (v77 : BitVec 32) : Fin 2 → Nat :=
  let c0_i32_48 : BitVec 32 := 0#32
  ![v77.toNat, 0]

def k0_off22 (i : grid0.Coords) : Fin 1 → Nat :=
  let arg0 : BitVec 32 := BitVec.ofNat 32 (i 0).val
  let c20_i32_49 : BitVec 32 := 20#32
  let v82 : BitVec 32 := Scalar.muli arg0 c20_i32_49
  let c10_i32 : BitVec 32 := 10#32
  let v83 : BitVec 32 := Scalar.addi v82 c10_i32
  let v84 : Index := Scalar.indexCast v83
  ![v84.toNat]
def k0_off23 (v85 : BitVec 32) : Fin 2 → Nat :=
  let c0_i32_53 : BitVec 32 := 0#32
  ![v85.toNat, 0]

def k0_off24 (i : grid0.Coords) : Fin 1 → Nat :=
  let arg0 : BitVec 32 := BitVec.ofNat 32 (i 0).val
  let c20_i32_54 : BitVec 32 := 20#32
  let v90 : BitVec 32 := Scalar.muli arg0 c20_i32_54
  let c11_i32 : BitVec 32 := 11#32
  let v91 : BitVec 32 := Scalar.addi v90 c11_i32
  let v92 : Index := Scalar.indexCast v91
  ![v92.toNat]
def k0_off25 (v93 : BitVec 32) : Fin 2 → Nat :=
  let c0_i32_58 : BitVec 32 := 0#32
  ![v93.toNat, 0]

def k0_off26 (i : grid0.Coords) : Fin 1 → Nat :=
  let arg0 : BitVec 32 := BitVec.ofNat 32 (i 0).val
  let c20_i32_59 : BitVec 32 := 20#32
  let v98 : BitVec 32 := Scalar.muli arg0 c20_i32_59
  let c12_i32 : BitVec 32 := 12#32
  let v99 : BitVec 32 := Scalar.addi v98 c12_i32
  let v100 : Index := Scalar.indexCast v99
  ![v100.toNat]
def k0_off27 (v101 : BitVec 32) : Fin 2 → Nat :=
  let c0_i32_63 : BitVec 32 := 0#32
  ![v101.toNat, 0]

def k0_off28 (i : grid0.Coords) : Fin 1 → Nat :=
  let arg0 : BitVec 32 := BitVec.ofNat 32 (i 0).val
  let c20_i32_64 : BitVec 32 := 20#32
  let v106 : BitVec 32 := Scalar.muli arg0 c20_i32_64
  let c13_i32 : BitVec 32 := 13#32
  let v107 : BitVec 32 := Scalar.addi v106 c13_i32
  let v108 : Index := Scalar.indexCast v107
  ![v108.toNat]
def k0_off29 (v109 : BitVec 32) : Fin 2 → Nat :=
  let c0_i32_68 : BitVec 32 := 0#32
  ![v109.toNat, 0]

def k0_off30 (i : grid0.Coords) : Fin 1 → Nat :=
  let arg0 : BitVec 32 := BitVec.ofNat 32 (i 0).val
  let c20_i32_69 : BitVec 32 := 20#32
  let v114 : BitVec 32 := Scalar.muli arg0 c20_i32_69
  let c14_i32 : BitVec 32 := 14#32
  let v115 : BitVec 32 := Scalar.addi v114 c14_i32
  let v116 : Index := Scalar.indexCast v115
  ![v116.toNat]
def k0_off31 (v117 : BitVec 32) : Fin 2 → Nat :=
  let c0_i32_73 : BitVec 32 := 0#32
  ![v117.toNat, 0]

def k0_off32 (i : grid0.Coords) : Fin 1 → Nat :=
  let arg0 : BitVec 32 := BitVec.ofNat 32 (i 0).val
  let c20_i32_74 : BitVec 32 := 20#32
  let v122 : BitVec 32 := Scalar.muli arg0 c20_i32_74
  let c15_i32 : BitVec 32 := 15#32
  let v123 : BitVec 32 := Scalar.addi v122 c15_i32
  let v124 : Index := Scalar.indexCast v123
  ![v124.toNat]
def k0_off33 (v125 : BitVec 32) : Fin 2 → Nat :=
  let c0_i32_78 : BitVec 32 := 0#32
  ![v125.toNat, 0]

def k0_off34 (i : grid0.Coords) : Fin 1 → Nat :=
  let arg0 : BitVec 32 := BitVec.ofNat 32 (i 0).val
  let c20_i32_79 : BitVec 32 := 20#32
  let v130 : BitVec 32 := Scalar.muli arg0 c20_i32_79
  let c16_i32 : BitVec 32 := 16#32
  let v131 : BitVec 32 := Scalar.addi v130 c16_i32
  let v132 : Index := Scalar.indexCast v131
  ![v132.toNat]
def k0_off35 (v133 : BitVec 32) : Fin 2 → Nat :=
  let c0_i32_83 : BitVec 32 := 0#32
  ![v133.toNat, 0]

def k0_off36 (i : grid0.Coords) : Fin 1 → Nat :=
  let arg0 : BitVec 32 := BitVec.ofNat 32 (i 0).val
  let c20_i32_84 : BitVec 32 := 20#32
  let v138 : BitVec 32 := Scalar.muli arg0 c20_i32_84
  let c17_i32 : BitVec 32 := 17#32
  let v139 : BitVec 32 := Scalar.addi v138 c17_i32
  let v140 : Index := Scalar.indexCast v139
  ![v140.toNat]
def k0_off37 (v141 : BitVec 32) : Fin 2 → Nat :=
  let c0_i32_88 : BitVec 32 := 0#32
  ![v141.toNat, 0]

def k0_off38 (i : grid0.Coords) : Fin 1 → Nat :=
  let arg0 : BitVec 32 := BitVec.ofNat 32 (i 0).val
  let c20_i32_89 : BitVec 32 := 20#32
  let v146 : BitVec 32 := Scalar.muli arg0 c20_i32_89
  let c18_i32 : BitVec 32 := 18#32
  let v147 : BitVec 32 := Scalar.addi v146 c18_i32
  let v148 : Index := Scalar.indexCast v147
  ![v148.toNat]
def k0_off39 (v149 : BitVec 32) : Fin 2 → Nat :=
  let c0_i32_93 : BitVec 32 := 0#32
  ![v149.toNat, 0]

def k0_off40 (i : grid0.Coords) : Fin 1 → Nat :=
  let arg0 : BitVec 32 := BitVec.ofNat 32 (i 0).val
  let c20_i32_94 : BitVec 32 := 20#32
  let v154 : BitVec 32 := Scalar.muli arg0 c20_i32_94
  let c19_i32 : BitVec 32 := 19#32
  let v155 : BitVec 32 := Scalar.addi v154 c19_i32
  let v156 : Index := Scalar.indexCast v155
  ![v156.toNat]
def k0_off41 (v157 : BitVec 32) : Fin 2 → Nat :=
  let c0_i32_98 : BitVec 32 := 0#32
  ![v157.toNat, 0]

def k0_off42 (v1 : BitVec 32) : Fin 2 → Nat :=
  let c0_i32_102 : BitVec 32 := 0#32
  ![v1.toNat, 0]

def k0_chk21 (v1 : BitVec 32) : Prop :=
  (∀ a, (k0_off42 v1) a + S1x64.size a ≤ S100000x64.size a)
instance k0_chk21.dec : ∀ (v1 : BitVec 32), Decidable (k0_chk21 v1) := fun v1 => decidable_of_iff' _ (Iff.of_eq (k0_chk21.eq_1 v1))
theorem k0_off42_inb : ∀ (v1 : BitVec 32) (k0_hw21 : k0_chk21 v1), ∀ a, (k0_off42 v1) a + S1x64.size a ≤ S100000x64.size a := fun v1 k0_hw21 => k0_hw21

def k0_off43 (v5 : BitVec 32) : Fin 2 → Nat :=
  let c0_i32_106 : BitVec 32 := 0#32
  ![v5.toNat, 0]

def k0_chk1 (v5 : BitVec 32) : Prop :=
  (∀ a, (k0_off3 v5) a + S1x64.size a ≤ S100001x64.size a) ∧
  (∀ a, (k0_off43 v5) a + S1x64.size a ≤ S100001x64.size a)
instance k0_chk1.dec : ∀ (v5 : BitVec 32), Decidable (k0_chk1 v5) := fun v5 => decidable_of_iff' _ (Iff.of_eq (k0_chk1.eq_1 v5))
theorem k0_off3_inb : ∀ (v5 : BitVec 32) (k0_hw1 : k0_chk1 v5), ∀ a, (k0_off3 v5) a + S1x64.size a ≤ S100001x64.size a := fun v5 k0_hw1 => k0_hw1.1
theorem k0_off43_inb : ∀ (v5 : BitVec 32) (k0_hw1 : k0_chk1 v5), ∀ a, (k0_off43 v5) a + S1x64.size a ≤ S100001x64.size a := fun v5 k0_hw1 => k0_hw1.2

def k0_off44 (v13 : BitVec 32) : Fin 2 → Nat :=
  let c0_i32_110 : BitVec 32 := 0#32
  ![v13.toNat, 0]

def k0_chk2 (v13 : BitVec 32) : Prop :=
  (∀ a, (k0_off5 v13) a + S1x64.size a ≤ S100001x64.size a) ∧
  (∀ a, (k0_off44 v13) a + S1x64.size a ≤ S100001x64.size a)
instance k0_chk2.dec : ∀ (v13 : BitVec 32), Decidable (k0_chk2 v13) := fun v13 => decidable_of_iff' _ (Iff.of_eq (k0_chk2.eq_1 v13))
theorem k0_off5_inb : ∀ (v13 : BitVec 32) (k0_hw2 : k0_chk2 v13), ∀ a, (k0_off5 v13) a + S1x64.size a ≤ S100001x64.size a := fun v13 k0_hw2 => k0_hw2.1
theorem k0_off44_inb : ∀ (v13 : BitVec 32) (k0_hw2 : k0_chk2 v13), ∀ a, (k0_off44 v13) a + S1x64.size a ≤ S100001x64.size a := fun v13 k0_hw2 => k0_hw2.2

def k0_off45 (v21 : BitVec 32) : Fin 2 → Nat :=
  let c0_i32_114 : BitVec 32 := 0#32
  ![v21.toNat, 0]

def k0_chk3 (v21 : BitVec 32) : Prop :=
  (∀ a, (k0_off7 v21) a + S1x64.size a ≤ S100001x64.size a) ∧
  (∀ a, (k0_off45 v21) a + S1x64.size a ≤ S100001x64.size a)
instance k0_chk3.dec : ∀ (v21 : BitVec 32), Decidable (k0_chk3 v21) := fun v21 => decidable_of_iff' _ (Iff.of_eq (k0_chk3.eq_1 v21))
theorem k0_off7_inb : ∀ (v21 : BitVec 32) (k0_hw3 : k0_chk3 v21), ∀ a, (k0_off7 v21) a + S1x64.size a ≤ S100001x64.size a := fun v21 k0_hw3 => k0_hw3.1
theorem k0_off45_inb : ∀ (v21 : BitVec 32) (k0_hw3 : k0_chk3 v21), ∀ a, (k0_off45 v21) a + S1x64.size a ≤ S100001x64.size a := fun v21 k0_hw3 => k0_hw3.2

def k0_off46 (v29 : BitVec 32) : Fin 2 → Nat :=
  let c0_i32_118 : BitVec 32 := 0#32
  ![v29.toNat, 0]

def k0_chk4 (v29 : BitVec 32) : Prop :=
  (∀ a, (k0_off9 v29) a + S1x64.size a ≤ S100001x64.size a) ∧
  (∀ a, (k0_off46 v29) a + S1x64.size a ≤ S100001x64.size a)
instance k0_chk4.dec : ∀ (v29 : BitVec 32), Decidable (k0_chk4 v29) := fun v29 => decidable_of_iff' _ (Iff.of_eq (k0_chk4.eq_1 v29))
theorem k0_off9_inb : ∀ (v29 : BitVec 32) (k0_hw4 : k0_chk4 v29), ∀ a, (k0_off9 v29) a + S1x64.size a ≤ S100001x64.size a := fun v29 k0_hw4 => k0_hw4.1
theorem k0_off46_inb : ∀ (v29 : BitVec 32) (k0_hw4 : k0_chk4 v29), ∀ a, (k0_off46 v29) a + S1x64.size a ≤ S100001x64.size a := fun v29 k0_hw4 => k0_hw4.2

def k0_off47 (v37 : BitVec 32) : Fin 2 → Nat :=
  let c0_i32_122 : BitVec 32 := 0#32
  ![v37.toNat, 0]

def k0_chk5 (v37 : BitVec 32) : Prop :=
  (∀ a, (k0_off11 v37) a + S1x64.size a ≤ S100001x64.size a) ∧
  (∀ a, (k0_off47 v37) a + S1x64.size a ≤ S100001x64.size a)
instance k0_chk5.dec : ∀ (v37 : BitVec 32), Decidable (k0_chk5 v37) := fun v37 => decidable_of_iff' _ (Iff.of_eq (k0_chk5.eq_1 v37))
theorem k0_off11_inb : ∀ (v37 : BitVec 32) (k0_hw5 : k0_chk5 v37), ∀ a, (k0_off11 v37) a + S1x64.size a ≤ S100001x64.size a := fun v37 k0_hw5 => k0_hw5.1
theorem k0_off47_inb : ∀ (v37 : BitVec 32) (k0_hw5 : k0_chk5 v37), ∀ a, (k0_off47 v37) a + S1x64.size a ≤ S100001x64.size a := fun v37 k0_hw5 => k0_hw5.2

def k0_off48 (v45 : BitVec 32) : Fin 2 → Nat :=
  let c0_i32_126 : BitVec 32 := 0#32
  ![v45.toNat, 0]

def k0_chk6 (v45 : BitVec 32) : Prop :=
  (∀ a, (k0_off13 v45) a + S1x64.size a ≤ S100001x64.size a) ∧
  (∀ a, (k0_off48 v45) a + S1x64.size a ≤ S100001x64.size a)
instance k0_chk6.dec : ∀ (v45 : BitVec 32), Decidable (k0_chk6 v45) := fun v45 => decidable_of_iff' _ (Iff.of_eq (k0_chk6.eq_1 v45))
theorem k0_off13_inb : ∀ (v45 : BitVec 32) (k0_hw6 : k0_chk6 v45), ∀ a, (k0_off13 v45) a + S1x64.size a ≤ S100001x64.size a := fun v45 k0_hw6 => k0_hw6.1
theorem k0_off48_inb : ∀ (v45 : BitVec 32) (k0_hw6 : k0_chk6 v45), ∀ a, (k0_off48 v45) a + S1x64.size a ≤ S100001x64.size a := fun v45 k0_hw6 => k0_hw6.2

def k0_off49 (v53 : BitVec 32) : Fin 2 → Nat :=
  let c0_i32_130 : BitVec 32 := 0#32
  ![v53.toNat, 0]

def k0_chk7 (v53 : BitVec 32) : Prop :=
  (∀ a, (k0_off15 v53) a + S1x64.size a ≤ S100001x64.size a) ∧
  (∀ a, (k0_off49 v53) a + S1x64.size a ≤ S100001x64.size a)
instance k0_chk7.dec : ∀ (v53 : BitVec 32), Decidable (k0_chk7 v53) := fun v53 => decidable_of_iff' _ (Iff.of_eq (k0_chk7.eq_1 v53))
theorem k0_off15_inb : ∀ (v53 : BitVec 32) (k0_hw7 : k0_chk7 v53), ∀ a, (k0_off15 v53) a + S1x64.size a ≤ S100001x64.size a := fun v53 k0_hw7 => k0_hw7.1
theorem k0_off49_inb : ∀ (v53 : BitVec 32) (k0_hw7 : k0_chk7 v53), ∀ a, (k0_off49 v53) a + S1x64.size a ≤ S100001x64.size a := fun v53 k0_hw7 => k0_hw7.2

def k0_off50 (v61 : BitVec 32) : Fin 2 → Nat :=
  let c0_i32_134 : BitVec 32 := 0#32
  ![v61.toNat, 0]

def k0_chk8 (v61 : BitVec 32) : Prop :=
  (∀ a, (k0_off17 v61) a + S1x64.size a ≤ S100001x64.size a) ∧
  (∀ a, (k0_off50 v61) a + S1x64.size a ≤ S100001x64.size a)
instance k0_chk8.dec : ∀ (v61 : BitVec 32), Decidable (k0_chk8 v61) := fun v61 => decidable_of_iff' _ (Iff.of_eq (k0_chk8.eq_1 v61))
theorem k0_off17_inb : ∀ (v61 : BitVec 32) (k0_hw8 : k0_chk8 v61), ∀ a, (k0_off17 v61) a + S1x64.size a ≤ S100001x64.size a := fun v61 k0_hw8 => k0_hw8.1
theorem k0_off50_inb : ∀ (v61 : BitVec 32) (k0_hw8 : k0_chk8 v61), ∀ a, (k0_off50 v61) a + S1x64.size a ≤ S100001x64.size a := fun v61 k0_hw8 => k0_hw8.2

def k0_off51 (v69 : BitVec 32) : Fin 2 → Nat :=
  let c0_i32_138 : BitVec 32 := 0#32
  ![v69.toNat, 0]

def k0_chk9 (v69 : BitVec 32) : Prop :=
  (∀ a, (k0_off19 v69) a + S1x64.size a ≤ S100001x64.size a) ∧
  (∀ a, (k0_off51 v69) a + S1x64.size a ≤ S100001x64.size a)
instance k0_chk9.dec : ∀ (v69 : BitVec 32), Decidable (k0_chk9 v69) := fun v69 => decidable_of_iff' _ (Iff.of_eq (k0_chk9.eq_1 v69))
theorem k0_off19_inb : ∀ (v69 : BitVec 32) (k0_hw9 : k0_chk9 v69), ∀ a, (k0_off19 v69) a + S1x64.size a ≤ S100001x64.size a := fun v69 k0_hw9 => k0_hw9.1
theorem k0_off51_inb : ∀ (v69 : BitVec 32) (k0_hw9 : k0_chk9 v69), ∀ a, (k0_off51 v69) a + S1x64.size a ≤ S100001x64.size a := fun v69 k0_hw9 => k0_hw9.2

def k0_off52 (v77 : BitVec 32) : Fin 2 → Nat :=
  let c0_i32_142 : BitVec 32 := 0#32
  ![v77.toNat, 0]

def k0_chk10 (v77 : BitVec 32) : Prop :=
  (∀ a, (k0_off21 v77) a + S1x64.size a ≤ S100001x64.size a) ∧
  (∀ a, (k0_off52 v77) a + S1x64.size a ≤ S100001x64.size a)
instance k0_chk10.dec : ∀ (v77 : BitVec 32), Decidable (k0_chk10 v77) := fun v77 => decidable_of_iff' _ (Iff.of_eq (k0_chk10.eq_1 v77))
theorem k0_off21_inb : ∀ (v77 : BitVec 32) (k0_hw10 : k0_chk10 v77), ∀ a, (k0_off21 v77) a + S1x64.size a ≤ S100001x64.size a := fun v77 k0_hw10 => k0_hw10.1
theorem k0_off52_inb : ∀ (v77 : BitVec 32) (k0_hw10 : k0_chk10 v77), ∀ a, (k0_off52 v77) a + S1x64.size a ≤ S100001x64.size a := fun v77 k0_hw10 => k0_hw10.2

def k0_off53 (v85 : BitVec 32) : Fin 2 → Nat :=
  let c0_i32_146 : BitVec 32 := 0#32
  ![v85.toNat, 0]

def k0_chk11 (v85 : BitVec 32) : Prop :=
  (∀ a, (k0_off23 v85) a + S1x64.size a ≤ S100001x64.size a) ∧
  (∀ a, (k0_off53 v85) a + S1x64.size a ≤ S100001x64.size a)
instance k0_chk11.dec : ∀ (v85 : BitVec 32), Decidable (k0_chk11 v85) := fun v85 => decidable_of_iff' _ (Iff.of_eq (k0_chk11.eq_1 v85))
theorem k0_off23_inb : ∀ (v85 : BitVec 32) (k0_hw11 : k0_chk11 v85), ∀ a, (k0_off23 v85) a + S1x64.size a ≤ S100001x64.size a := fun v85 k0_hw11 => k0_hw11.1
theorem k0_off53_inb : ∀ (v85 : BitVec 32) (k0_hw11 : k0_chk11 v85), ∀ a, (k0_off53 v85) a + S1x64.size a ≤ S100001x64.size a := fun v85 k0_hw11 => k0_hw11.2

def k0_off54 (v93 : BitVec 32) : Fin 2 → Nat :=
  let c0_i32_150 : BitVec 32 := 0#32
  ![v93.toNat, 0]

def k0_chk12 (v93 : BitVec 32) : Prop :=
  (∀ a, (k0_off25 v93) a + S1x64.size a ≤ S100001x64.size a) ∧
  (∀ a, (k0_off54 v93) a + S1x64.size a ≤ S100001x64.size a)
instance k0_chk12.dec : ∀ (v93 : BitVec 32), Decidable (k0_chk12 v93) := fun v93 => decidable_of_iff' _ (Iff.of_eq (k0_chk12.eq_1 v93))
theorem k0_off25_inb : ∀ (v93 : BitVec 32) (k0_hw12 : k0_chk12 v93), ∀ a, (k0_off25 v93) a + S1x64.size a ≤ S100001x64.size a := fun v93 k0_hw12 => k0_hw12.1
theorem k0_off54_inb : ∀ (v93 : BitVec 32) (k0_hw12 : k0_chk12 v93), ∀ a, (k0_off54 v93) a + S1x64.size a ≤ S100001x64.size a := fun v93 k0_hw12 => k0_hw12.2

def k0_off55 (v101 : BitVec 32) : Fin 2 → Nat :=
  let c0_i32_154 : BitVec 32 := 0#32
  ![v101.toNat, 0]

def k0_chk13 (v101 : BitVec 32) : Prop :=
  (∀ a, (k0_off27 v101) a + S1x64.size a ≤ S100001x64.size a) ∧
  (∀ a, (k0_off55 v101) a + S1x64.size a ≤ S100001x64.size a)
instance k0_chk13.dec : ∀ (v101 : BitVec 32), Decidable (k0_chk13 v101) := fun v101 => decidable_of_iff' _ (Iff.of_eq (k0_chk13.eq_1 v101))
theorem k0_off27_inb : ∀ (v101 : BitVec 32) (k0_hw13 : k0_chk13 v101), ∀ a, (k0_off27 v101) a + S1x64.size a ≤ S100001x64.size a := fun v101 k0_hw13 => k0_hw13.1
theorem k0_off55_inb : ∀ (v101 : BitVec 32) (k0_hw13 : k0_chk13 v101), ∀ a, (k0_off55 v101) a + S1x64.size a ≤ S100001x64.size a := fun v101 k0_hw13 => k0_hw13.2

def k0_off56 (v109 : BitVec 32) : Fin 2 → Nat :=
  let c0_i32_158 : BitVec 32 := 0#32
  ![v109.toNat, 0]

def k0_chk14 (v109 : BitVec 32) : Prop :=
  (∀ a, (k0_off29 v109) a + S1x64.size a ≤ S100001x64.size a) ∧
  (∀ a, (k0_off56 v109) a + S1x64.size a ≤ S100001x64.size a)
instance k0_chk14.dec : ∀ (v109 : BitVec 32), Decidable (k0_chk14 v109) := fun v109 => decidable_of_iff' _ (Iff.of_eq (k0_chk14.eq_1 v109))
theorem k0_off29_inb : ∀ (v109 : BitVec 32) (k0_hw14 : k0_chk14 v109), ∀ a, (k0_off29 v109) a + S1x64.size a ≤ S100001x64.size a := fun v109 k0_hw14 => k0_hw14.1
theorem k0_off56_inb : ∀ (v109 : BitVec 32) (k0_hw14 : k0_chk14 v109), ∀ a, (k0_off56 v109) a + S1x64.size a ≤ S100001x64.size a := fun v109 k0_hw14 => k0_hw14.2

def k0_off57 (v117 : BitVec 32) : Fin 2 → Nat :=
  let c0_i32_162 : BitVec 32 := 0#32
  ![v117.toNat, 0]

def k0_chk15 (v117 : BitVec 32) : Prop :=
  (∀ a, (k0_off31 v117) a + S1x64.size a ≤ S100001x64.size a) ∧
  (∀ a, (k0_off57 v117) a + S1x64.size a ≤ S100001x64.size a)
instance k0_chk15.dec : ∀ (v117 : BitVec 32), Decidable (k0_chk15 v117) := fun v117 => decidable_of_iff' _ (Iff.of_eq (k0_chk15.eq_1 v117))
theorem k0_off31_inb : ∀ (v117 : BitVec 32) (k0_hw15 : k0_chk15 v117), ∀ a, (k0_off31 v117) a + S1x64.size a ≤ S100001x64.size a := fun v117 k0_hw15 => k0_hw15.1
theorem k0_off57_inb : ∀ (v117 : BitVec 32) (k0_hw15 : k0_chk15 v117), ∀ a, (k0_off57 v117) a + S1x64.size a ≤ S100001x64.size a := fun v117 k0_hw15 => k0_hw15.2

def k0_off58 (v125 : BitVec 32) : Fin 2 → Nat :=
  let c0_i32_166 : BitVec 32 := 0#32
  ![v125.toNat, 0]

def k0_chk16 (v125 : BitVec 32) : Prop :=
  (∀ a, (k0_off33 v125) a + S1x64.size a ≤ S100001x64.size a) ∧
  (∀ a, (k0_off58 v125) a + S1x64.size a ≤ S100001x64.size a)
instance k0_chk16.dec : ∀ (v125 : BitVec 32), Decidable (k0_chk16 v125) := fun v125 => decidable_of_iff' _ (Iff.of_eq (k0_chk16.eq_1 v125))
theorem k0_off33_inb : ∀ (v125 : BitVec 32) (k0_hw16 : k0_chk16 v125), ∀ a, (k0_off33 v125) a + S1x64.size a ≤ S100001x64.size a := fun v125 k0_hw16 => k0_hw16.1
theorem k0_off58_inb : ∀ (v125 : BitVec 32) (k0_hw16 : k0_chk16 v125), ∀ a, (k0_off58 v125) a + S1x64.size a ≤ S100001x64.size a := fun v125 k0_hw16 => k0_hw16.2

def k0_off59 (v133 : BitVec 32) : Fin 2 → Nat :=
  let c0_i32_170 : BitVec 32 := 0#32
  ![v133.toNat, 0]

def k0_chk17 (v133 : BitVec 32) : Prop :=
  (∀ a, (k0_off35 v133) a + S1x64.size a ≤ S100001x64.size a) ∧
  (∀ a, (k0_off59 v133) a + S1x64.size a ≤ S100001x64.size a)
instance k0_chk17.dec : ∀ (v133 : BitVec 32), Decidable (k0_chk17 v133) := fun v133 => decidable_of_iff' _ (Iff.of_eq (k0_chk17.eq_1 v133))
theorem k0_off35_inb : ∀ (v133 : BitVec 32) (k0_hw17 : k0_chk17 v133), ∀ a, (k0_off35 v133) a + S1x64.size a ≤ S100001x64.size a := fun v133 k0_hw17 => k0_hw17.1
theorem k0_off59_inb : ∀ (v133 : BitVec 32) (k0_hw17 : k0_chk17 v133), ∀ a, (k0_off59 v133) a + S1x64.size a ≤ S100001x64.size a := fun v133 k0_hw17 => k0_hw17.2

def k0_off60 (v141 : BitVec 32) : Fin 2 → Nat :=
  let c0_i32_174 : BitVec 32 := 0#32
  ![v141.toNat, 0]

def k0_chk18 (v141 : BitVec 32) : Prop :=
  (∀ a, (k0_off37 v141) a + S1x64.size a ≤ S100001x64.size a) ∧
  (∀ a, (k0_off60 v141) a + S1x64.size a ≤ S100001x64.size a)
instance k0_chk18.dec : ∀ (v141 : BitVec 32), Decidable (k0_chk18 v141) := fun v141 => decidable_of_iff' _ (Iff.of_eq (k0_chk18.eq_1 v141))
theorem k0_off37_inb : ∀ (v141 : BitVec 32) (k0_hw18 : k0_chk18 v141), ∀ a, (k0_off37 v141) a + S1x64.size a ≤ S100001x64.size a := fun v141 k0_hw18 => k0_hw18.1
theorem k0_off60_inb : ∀ (v141 : BitVec 32) (k0_hw18 : k0_chk18 v141), ∀ a, (k0_off60 v141) a + S1x64.size a ≤ S100001x64.size a := fun v141 k0_hw18 => k0_hw18.2

def k0_off61 (v149 : BitVec 32) : Fin 2 → Nat :=
  let c0_i32_178 : BitVec 32 := 0#32
  ![v149.toNat, 0]

def k0_chk19 (v149 : BitVec 32) : Prop :=
  (∀ a, (k0_off39 v149) a + S1x64.size a ≤ S100001x64.size a) ∧
  (∀ a, (k0_off61 v149) a + S1x64.size a ≤ S100001x64.size a)
instance k0_chk19.dec : ∀ (v149 : BitVec 32), Decidable (k0_chk19 v149) := fun v149 => decidable_of_iff' _ (Iff.of_eq (k0_chk19.eq_1 v149))
theorem k0_off39_inb : ∀ (v149 : BitVec 32) (k0_hw19 : k0_chk19 v149), ∀ a, (k0_off39 v149) a + S1x64.size a ≤ S100001x64.size a := fun v149 k0_hw19 => k0_hw19.1
theorem k0_off61_inb : ∀ (v149 : BitVec 32) (k0_hw19 : k0_chk19 v149), ∀ a, (k0_off61 v149) a + S1x64.size a ≤ S100001x64.size a := fun v149 k0_hw19 => k0_hw19.2

def k0_off62 (v157 : BitVec 32) : Fin 2 → Nat :=
  let c0_i32_182 : BitVec 32 := 0#32
  ![v157.toNat, 0]

def k0_chk20 (v157 : BitVec 32) : Prop :=
  (∀ a, (k0_off41 v157) a + S1x64.size a ≤ S100001x64.size a) ∧
  (∀ a, (k0_off62 v157) a + S1x64.size a ≤ S100001x64.size a)
instance k0_chk20.dec : ∀ (v157 : BitVec 32), Decidable (k0_chk20 v157) := fun v157 => decidable_of_iff' _ (Iff.of_eq (k0_chk20.eq_1 v157))
theorem k0_off41_inb : ∀ (v157 : BitVec 32) (k0_hw20 : k0_chk20 v157), ∀ a, (k0_off41 v157) a + S1x64.size a ≤ S100001x64.size a := fun v157 k0_hw20 => k0_hw20.1
theorem k0_off62_inb : ∀ (v157 : BitVec 32) (k0_hw20 : k0_chk20 v157), ∀ a, (k0_off62 v157) a + S1x64.size a ≤ S100001x64.size a := fun v157 k0_hw20 => k0_hw20.2

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S20x1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x210x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S4096x1_S4096 : S4096x1.ShapeCasts S4096
  shapeCasts_S4096x20_S81920 : S4096x20.ShapeCasts S81920
  shapeCasts_S20_S20x1 : S20.ShapeCasts S20x1
  numel1_S1 : S1.numel = 1
  inb_S21_S1_0 : ∀ a, (![0] : Fin 1 → Nat) a + S1.size a ≤ S21.size a
  squeezes_S1_S_ : S1.Squeezes S_
  inb_S21x64_S1x64_0_0 : ∀ a, (![0, 0] : Fin 2 → Nat) a + S1x64.size a ≤ S21x64.size a
  inb_S21_S1_1 : ∀ a, (![1] : Fin 1 → Nat) a + S1.size a ≤ S21.size a
  inb_S21x64_S1x64_1_0 : ∀ a, (![1, 0] : Fin 2 → Nat) a + S1x64.size a ≤ S21x64.size a
  inb_S21_S1_2 : ∀ a, (![2] : Fin 1 → Nat) a + S1.size a ≤ S21.size a
  inb_S21x64_S1x64_2_0 : ∀ a, (![2, 0] : Fin 2 → Nat) a + S1x64.size a ≤ S21x64.size a
  inb_S21_S1_3 : ∀ a, (![3] : Fin 1 → Nat) a + S1.size a ≤ S21.size a
  inb_S21x64_S1x64_3_0 : ∀ a, (![3, 0] : Fin 2 → Nat) a + S1x64.size a ≤ S21x64.size a
  inb_S21_S1_4 : ∀ a, (![4] : Fin 1 → Nat) a + S1.size a ≤ S21.size a
  inb_S21x64_S1x64_4_0 : ∀ a, (![4, 0] : Fin 2 → Nat) a + S1x64.size a ≤ S21x64.size a
  inb_S21_S1_5 : ∀ a, (![5] : Fin 1 → Nat) a + S1.size a ≤ S21.size a
  inb_S21x64_S1x64_5_0 : ∀ a, (![5, 0] : Fin 2 → Nat) a + S1x64.size a ≤ S21x64.size a
  inb_S21_S1_6 : ∀ a, (![6] : Fin 1 → Nat) a + S1.size a ≤ S21.size a
  inb_S21x64_S1x64_6_0 : ∀ a, (![6, 0] : Fin 2 → Nat) a + S1x64.size a ≤ S21x64.size a
  inb_S21_S1_7 : ∀ a, (![7] : Fin 1 → Nat) a + S1.size a ≤ S21.size a
  inb_S21x64_S1x64_7_0 : ∀ a, (![7, 0] : Fin 2 → Nat) a + S1x64.size a ≤ S21x64.size a
  inb_S21_S1_8 : ∀ a, (![8] : Fin 1 → Nat) a + S1.size a ≤ S21.size a
  inb_S21x64_S1x64_8_0 : ∀ a, (![8, 0] : Fin 2 → Nat) a + S1x64.size a ≤ S21x64.size a
  inb_S21_S1_9 : ∀ a, (![9] : Fin 1 → Nat) a + S1.size a ≤ S21.size a
  inb_S21x64_S1x64_9_0 : ∀ a, (![9, 0] : Fin 2 → Nat) a + S1x64.size a ≤ S21x64.size a
  inb_S21_S1_10 : ∀ a, (![10] : Fin 1 → Nat) a + S1.size a ≤ S21.size a
  inb_S21x64_S1x64_10_0 : ∀ a, (![10, 0] : Fin 2 → Nat) a + S1x64.size a ≤ S21x64.size a
  inb_S21_S1_11 : ∀ a, (![11] : Fin 1 → Nat) a + S1.size a ≤ S21.size a
  inb_S21x64_S1x64_11_0 : ∀ a, (![11, 0] : Fin 2 → Nat) a + S1x64.size a ≤ S21x64.size a
  inb_S21_S1_12 : ∀ a, (![12] : Fin 1 → Nat) a + S1.size a ≤ S21.size a
  inb_S21x64_S1x64_12_0 : ∀ a, (![12, 0] : Fin 2 → Nat) a + S1x64.size a ≤ S21x64.size a
  inb_S21_S1_13 : ∀ a, (![13] : Fin 1 → Nat) a + S1.size a ≤ S21.size a
  inb_S21x64_S1x64_13_0 : ∀ a, (![13, 0] : Fin 2 → Nat) a + S1x64.size a ≤ S21x64.size a
  inb_S21_S1_14 : ∀ a, (![14] : Fin 1 → Nat) a + S1.size a ≤ S21.size a
  inb_S21x64_S1x64_14_0 : ∀ a, (![14, 0] : Fin 2 → Nat) a + S1x64.size a ≤ S21x64.size a
  inb_S21_S1_15 : ∀ a, (![15] : Fin 1 → Nat) a + S1.size a ≤ S21.size a
  inb_S21x64_S1x64_15_0 : ∀ a, (![15, 0] : Fin 2 → Nat) a + S1x64.size a ≤ S21x64.size a
  inb_S21_S1_16 : ∀ a, (![16] : Fin 1 → Nat) a + S1.size a ≤ S21.size a
  inb_S21x64_S1x64_16_0 : ∀ a, (![16, 0] : Fin 2 → Nat) a + S1x64.size a ≤ S21x64.size a
  inb_S21_S1_17 : ∀ a, (![17] : Fin 1 → Nat) a + S1.size a ≤ S21.size a
  inb_S21x64_S1x64_17_0 : ∀ a, (![17, 0] : Fin 2 → Nat) a + S1x64.size a ≤ S21x64.size a
  inb_S21_S1_18 : ∀ a, (![18] : Fin 1 → Nat) a + S1.size a ≤ S21.size a
  inb_S21x64_S1x64_18_0 : ∀ a, (![18, 0] : Fin 2 → Nat) a + S1x64.size a ≤ S21x64.size a
  inb_S21_S1_19 : ∀ a, (![19] : Fin 1 → Nat) a + S1.size a ≤ S21.size a
  inb_S21x64_S1x64_19_0 : ∀ a, (![19, 0] : Fin 2 → Nat) a + S1x64.size a ≤ S21x64.size a
  inb_S21_S1_20 : ∀ a, (![20] : Fin 1 → Nat) a + S1.size a ≤ S21.size a
  inb_S21x64_S1x64_20_0 : ∀ a, (![20, 0] : Fin 2 → Nat) a + S1x64.size a ≤ S21x64.size a
  inb_S21x64_S20x64_0_0 : ∀ a, (![0, 0] : Fin 2 → Nat) a + S20x64.size a ≤ S21x64.size a
  h_S20x64 : 0 < S20x64.numel
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x64 : S20x1.Broadcasts S20x64
  h_S1x64 : 0 < S1x64.numel
  broadcasts_S1x64_S20x64 : S1x64.Broadcasts S20x64
  slices_S20x64_o0_0_S1x64 : S20x64.Slices ![0, 0] S1x64
  slices_S20x64_o1_0_S1x64 : S20x64.Slices ![1, 0] S1x64
  slices_S20x64_o2_0_S1x64 : S20x64.Slices ![2, 0] S1x64
  slices_S20x64_o3_0_S1x64 : S20x64.Slices ![3, 0] S1x64
  slices_S20x64_o4_0_S1x64 : S20x64.Slices ![4, 0] S1x64
  slices_S20x64_o5_0_S1x64 : S20x64.Slices ![5, 0] S1x64
  slices_S20x64_o6_0_S1x64 : S20x64.Slices ![6, 0] S1x64
  slices_S20x64_o7_0_S1x64 : S20x64.Slices ![7, 0] S1x64
  slices_S20x64_o8_0_S1x64 : S20x64.Slices ![8, 0] S1x64
  slices_S20x64_o9_0_S1x64 : S20x64.Slices ![9, 0] S1x64
  slices_S20x64_o10_0_S1x64 : S20x64.Slices ![10, 0] S1x64
  slices_S20x64_o11_0_S1x64 : S20x64.Slices ![11, 0] S1x64
  slices_S20x64_o12_0_S1x64 : S20x64.Slices ![12, 0] S1x64
  slices_S20x64_o13_0_S1x64 : S20x64.Slices ![13, 0] S1x64
  slices_S20x64_o14_0_S1x64 : S20x64.Slices ![14, 0] S1x64
  slices_S20x64_o15_0_S1x64 : S20x64.Slices ![15, 0] S1x64
  slices_S20x64_o16_0_S1x64 : S20x64.Slices ![16, 0] S1x64
  slices_S20x64_o17_0_S1x64 : S20x64.Slices ![17, 0] S1x64
  slices_S20x64_o18_0_S1x64 : S20x64.Slices ![18, 0] S1x64
  slices_S20x64_o19_0_S1x64 : S20x64.Slices ![19, 0] S1x64
  concatenates_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S1x64_S190x64_d0 : Shape.Concatenates (S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: S1x64 :: []) S190x64 0
  concatenates_S20x64_S190x64_S210x64_d0 : Shape.Concatenates [S20x64, S190x64] S210x64 0
  shapeCasts_S210x64_S1x210x64 : S210x64.ShapeCasts S1x210x64
  inb_S1x210x64_S1x210x64_0_0_0 : ∀ a, (![0, 0, 0] : Fin 3 → Nat) a + S1x210x64.size a ≤ S1x210x64.size a
  h_S1x210x64 : 0 < S1x210x64.numel
  shapeCasts_S4096x210x64_S4096x13440 : S4096x210x64.ShapeCasts S4096x13440
  hcc0_scratch1 : 3 + S21.numel ≤ 24
  hrank0 : 0 < grid0.rank
  k0_off1_inb : ∀ i : grid0.Coords, ∀ a, (k0_off1 i) a + S1.size a ≤ S4096.size a
  k0_off2_inb : ∀ i : grid0.Coords, ∀ a, (k0_off2 i) a + S1.size a ≤ S81920.size a
  k0_off4_inb : ∀ i : grid0.Coords, ∀ a, (k0_off4 i) a + S1.size a ≤ S81920.size a
  k0_off6_inb : ∀ i : grid0.Coords, ∀ a, (k0_off6 i) a + S1.size a ≤ S81920.size a
  k0_off8_inb : ∀ i : grid0.Coords, ∀ a, (k0_off8 i) a + S1.size a ≤ S81920.size a
  k0_off10_inb : ∀ i : grid0.Coords, ∀ a, (k0_off10 i) a + S1.size a ≤ S81920.size a
  k0_off12_inb : ∀ i : grid0.Coords, ∀ a, (k0_off12 i) a + S1.size a ≤ S81920.size a
  k0_off14_inb : ∀ i : grid0.Coords, ∀ a, (k0_off14 i) a + S1.size a ≤ S81920.size a
  k0_off16_inb : ∀ i : grid0.Coords, ∀ a, (k0_off16 i) a + S1.size a ≤ S81920.size a
  k0_off18_inb : ∀ i : grid0.Coords, ∀ a, (k0_off18 i) a + S1.size a ≤ S81920.size a
  k0_off20_inb : ∀ i : grid0.Coords, ∀ a, (k0_off20 i) a + S1.size a ≤ S81920.size a
  k0_off22_inb : ∀ i : grid0.Coords, ∀ a, (k0_off22 i) a + S1.size a ≤ S81920.size a
  k0_off24_inb : ∀ i : grid0.Coords, ∀ a, (k0_off24 i) a + S1.size a ≤ S81920.size a
  k0_off26_inb : ∀ i : grid0.Coords, ∀ a, (k0_off26 i) a + S1.size a ≤ S81920.size a
  k0_off28_inb : ∀ i : grid0.Coords, ∀ a, (k0_off28 i) a + S1.size a ≤ S81920.size a
  k0_off30_inb : ∀ i : grid0.Coords, ∀ a, (k0_off30 i) a + S1.size a ≤ S81920.size a
  k0_off32_inb : ∀ i : grid0.Coords, ∀ a, (k0_off32 i) a + S1.size a ≤ S81920.size a
  k0_off34_inb : ∀ i : grid0.Coords, ∀ a, (k0_off34 i) a + S1.size a ≤ S81920.size a
  k0_off36_inb : ∀ i : grid0.Coords, ∀ a, (k0_off36 i) a + S1.size a ≤ S81920.size a
  k0_off38_inb : ∀ i : grid0.Coords, ∀ a, (k0_off38 i) a + S1.size a ≤ S81920.size a
  k0_off40_inb : ∀ i : grid0.Coords, ∀ a, (k0_off40 i) a + S1.size a ≤ S81920.size a
  hstage0_0 : ∀ j, (stage0_0 j).IsWhole
  nbuf0_0 : grid0.bufCount reads0_0 true = 1
  hreads0_0 : ∀ i i' : grid0.Coords, (∀ a, reads0_0 a = true → i a = i' a) → cc0_transform_2 i = cc0_transform_2 i'
  hinb0_0 : ∀ (i : grid0.Coords) a, (cc0_transform_2 i a + 1) * S20x1.size a ≤ S20x1.size a
  hwx0_0 : ∀ i : grid0.Coords, EltTy.bits .f32 = 32 ∨ (Rect.block (s := S20x1) S20x1.size (cc0_transform_2 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_3 i = cc0_transform_3 i'
  hinb0_1 : ∀ (i : grid0.Coords) a, (cc0_transform_3 i a + 1) * S1x210x64.size a ≤ S4096x210x64.size a
  hwx0_1 : ∀ i : grid0.Coords, EltTy.bits .f32 = 32 ∨ (Rect.block (s := S4096x210x64) S1x210x64.size (cc0_transform_3 i) (hinb0_1 i)).WholeWords (EltTy.packing .f32)

variable [Facts₀]

abbrev cc0_scratch1 : DmaSems sig S21 := SemArray.consecutive 3 S21 hcc0_scratch1

abbrev spec0_0 : Pipeline.WinSpec sig grid0.rank :=
  Pipeline.WinSpec.ofSpec (Memref.whole main_v2) S20x1.size reads0_0 false true 1 stage0_0 sem0_0 nbuf0_0 hstage0_0

abbrev spec0_1 : Pipeline.WinSpec sig grid0.rank :=
  Pipeline.WinSpec.ofSpec (Memref.whole main_v3) S1x210x64.size reads0_1 true false 2 stage0_1 sem0_1 nbuf0_1 hstage0_1

abbrev spec0 : Fin 2 → Pipeline.WinSpec sig grid0.rank := fun | 0 => spec0_0 | 1 => spec0_1 | ⟨_ + 2, h⟩ => absurd h (Nat.not_lt.2 (Nat.le_add_left _ _))
theorem hcount0 : ∀ w, grid0.bufCount (spec0 w).reads (spec0 w).sync = (spec0 w).nbuf := fun | 0 => nbuf0_0 | 1 => nbuf0_1 | ⟨_ + 2, h⟩ => absurd h (Nat.not_lt.2 (Nat.le_add_left _ _))
abbrev ix0 (pf : pre0.Contents (Elt F)) : (w : Fin 2) → grid0.Coords → Fin (spec0 w).shape.rank → Nat := fun | 0 => cc0_transform_2 | 1 => cc0_transform_3 | ⟨_ + 2, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | ⟨_ + 2, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | ⟨_ + 2, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | ⟨_ + 2, h⟩ => absurd h (Nat.not_lt.2 (Nat.le_add_left _ _))

class Facts : Prop extends Facts₀ where
  harr0 : ∀ w, (spec0 w).arr.IsWhole

variable [Facts]
-- ==== ReferenceIdeal.lean ====
abbrev S4096x1 : Shape := ⟨2, ![4096, 1]⟩
abbrev S4096x20 : Shape := ⟨2, ![4096, 20]⟩
abbrev S100000x64 : Shape := ⟨2, ![100000, 64]⟩
abbrev S100001x64 : Shape := ⟨2, ![100001, 64]⟩
abbrev S20 : Shape := ⟨1, ![20]⟩
abbrev S4096 : Shape := ⟨1, ![4096]⟩
abbrev S_ : Shape := ⟨0, ![]⟩
abbrev S4096x64 : Shape := ⟨2, ![4096, 64]⟩
abbrev S4096x20x1 : Shape := ⟨3, ![4096, 20, 1]⟩
abbrev S4096x20x64 : Shape := ⟨3, ![4096, 20, 64]⟩
abbrev S1x20x1 : Shape := ⟨3, ![1, 20, 1]⟩
abbrev S4096x1x64 : Shape := ⟨3, ![4096, 1, 64]⟩
abbrev S20x20 : Shape := ⟨2, ![20, 20]⟩
abbrev S400 : Shape := ⟨1, ![400]⟩
abbrev S190 : Shape := ⟨1, ![190]⟩
abbrev S400x1 : Shape := ⟨2, ![400, 1]⟩
abbrev S190x1 : Shape := ⟨2, ![190, 1]⟩
abbrev S4096x190x64 : Shape := ⟨3, ![4096, 190, 64]⟩
abbrev S4096x210x64 : Shape := ⟨3, ![4096, 210, 64]⟩
abbrev S4096x13440 : Shape := ⟨2, ![4096, 13440]⟩

abbrev nBuf : Space → Nat
  | .hbm => 168
  | .vmem => 0
  | .smem => 0
  | _ => 0

abbrev hbmTy0_0 (i : Nat) : BufTy := match i % 128 with
  | 0 => ⟨S4096x1, .i32⟩
  | 1 => ⟨S4096x20, .i32⟩
  | 2 => ⟨S100000x64, .f32⟩
  | 3 => ⟨S100001x64, .f32⟩
  | 4 => ⟨S20, .f32⟩
  | 5 => ⟨S4096, .i32⟩
  | 6 => ⟨S_, .i32⟩
  | 7 => ⟨S4096, .i32⟩
  | 8 => ⟨S4096, .i1⟩
  | 9 => ⟨S_, .i32⟩
  | 10 => ⟨S4096, .i32⟩
  | 11 => ⟨S4096, .i32⟩
  | 12 => ⟨S4096, .i32⟩
  | 13 => ⟨S4096x1, .i32⟩
  | 14 => ⟨S4096x64, .f32⟩
  | 15 => ⟨S_, .i32⟩
  | 16 => ⟨S4096x20, .i32⟩
  | 17 => ⟨S4096x20, .i1⟩
  | 18 => ⟨S_, .i32⟩
  | 19 => ⟨S4096x20, .i32⟩
  | 20 => ⟨S4096x20, .i32⟩
  | 21 => ⟨S4096x20, .i32⟩
  | 22 => ⟨S4096x20x1, .i32⟩
  | 23 => ⟨S4096x20x64, .f32⟩
  | 24 => ⟨S1x20x1, .f32⟩
  | 25 => ⟨S4096x20x64, .f32⟩
  | 26 => ⟨S4096x20x64, .f32⟩
  | 27 => ⟨S4096x1x64, .f32⟩
  | 28 => ⟨S4096x20x64, .f32⟩
  | 29 => ⟨S4096x20x64, .f32⟩
  | 30 => ⟨S_, .f32⟩
  | 31 => ⟨S20x20, .f32⟩
  | 32 => ⟨S20x20, .i32⟩
  | 33 => ⟨S_, .i32⟩
  | 34 => ⟨S20x20, .i32⟩
  | 35 => ⟨S20x20, .i32⟩
  | 36 => ⟨S20x20, .i32⟩
  | 37 => ⟨S20x20, .i1⟩
  | 38 => ⟨S_, .f32⟩
  | 39 => ⟨S20x20, .f32⟩
  | 40 => ⟨S20x20, .f32⟩
  | 41 => ⟨S_, .f32⟩
  | 42 => ⟨S20x20, .f32⟩
  | 43 => ⟨S20x20, .i1⟩
  | 44 => ⟨S400, .i1⟩
  | 45 => ⟨S400, .i32⟩
  | 46 => ⟨S_, .i32⟩
  | 47 => ⟨S_, .i32⟩
  | 48 => ⟨S400, .i32⟩
  | 49 => ⟨S_, .i32⟩
  | 50 => ⟨S190, .i32⟩
  | 51 => ⟨S_, .i32⟩
  | 52 => ⟨S_, .i32⟩
  | 53 => ⟨S400, .i32⟩
  | 54 => ⟨S400, .i32⟩
  | 55 => ⟨S_, .i32⟩
  | 56 => ⟨S400, .i32⟩
  | 57 => ⟨S400, .i1⟩
  | 58 => ⟨S_, .i32⟩
  | 59 => ⟨S400, .i32⟩
  | 60 => ⟨S400, .i32⟩
  | 61 => ⟨S400, .i32⟩
  | 62 => ⟨S400x1, .i32⟩
  | 63 => ⟨S_, .i32⟩
  | 64 => ⟨S400, .i32⟩
  | 65 => ⟨S190, .i32⟩
  | 66 => ⟨S_, .i32⟩
  | 67 => ⟨S_, .i32⟩
  | 68 => ⟨S190, .i32⟩
  | 69 => ⟨S_, .i32⟩
  | 70 => ⟨S190, .i32⟩
  | 71 => ⟨S190, .i32⟩
  | 72 => ⟨S190, .i32⟩
  | 73 => ⟨S_, .i32⟩
  | 74 => ⟨S190, .i32⟩
  | 75 => ⟨S190, .i1⟩
  | 76 => ⟨S190, .i32⟩
  | 77 => ⟨S190, .i32⟩
  | 78 => ⟨S_, .i32⟩
  | 79 => ⟨S190, .i32⟩
  | 80 => ⟨S190, .i1⟩
  | 81 => ⟨S190, .i1⟩
  | 82 => ⟨S_, .i32⟩
  | 83 => ⟨S190, .i32⟩
  | 84 => ⟨S190, .i32⟩
  | 85 => ⟨S190, .i32⟩
  | 86 => ⟨S_, .i32⟩
  | 87 => ⟨S_, .i32⟩
  | 88 => ⟨S_, .i32⟩
  | 89 => ⟨S_, .i1⟩
  | 90 => ⟨S_, .i32⟩
  | 91 => ⟨S_, .i32⟩
  | 92 => ⟨S190, .i32⟩
  | 93 => ⟨S190, .i32⟩
  | 94 => ⟨S_, .i32⟩
  | 95 => ⟨S190, .i32⟩
  | 96 => ⟨S190, .i1⟩
  | 97 => ⟨S_, .i32⟩
  | 98 => ⟨S190, .i32⟩
  | 99 => ⟨S190, .i1⟩
  | 100 => ⟨S_, .i32⟩
  | 101 => ⟨S_, .i1⟩
  | 102 => ⟨S190, .i1⟩
  | 103 => ⟨S190, .i1⟩
  | 104 => ⟨S190, .i1⟩
  | 105 => ⟨S190, .i32⟩
  | 106 => ⟨S190, .i32⟩
  | 107 => ⟨S190, .i32⟩
  | 108 => ⟨S_, .i32⟩
  | 109 => ⟨S190, .i32⟩
  | 110 => ⟨S190, .i32⟩
  | 111 => ⟨S190, .i32⟩
  | 112 => ⟨S_, .i32⟩
  | 113 => ⟨S190, .i32⟩
  | 114 => ⟨S190, .i1⟩
  | 115 => ⟨S190, .i32⟩
  | 116 => ⟨S190, .i32⟩
  | 117 => ⟨S_, .i32⟩
  | 118 => ⟨S190, .i32⟩
  | 119 => ⟨S190, .i1⟩
  | 120 => ⟨S190, .i1⟩
  | 121 => ⟨S_, .i32⟩
  | 122 => ⟨S190, .i32⟩
  | 123 => ⟨S190, .i32⟩
  | 124 => ⟨S190, .i32⟩
  | 125 => ⟨S_, .i32⟩
  | 126 => ⟨S_, .i32⟩
  | 127 => ⟨S_, .i32⟩
  | _ => ⟨S4096x1, .i32⟩

abbrev hbmTy0_1 (i : Nat) : BufTy := match i % 128 with
  | 0 => ⟨S_, .i1⟩
  | 1 => ⟨S_, .i32⟩
  | 2 => ⟨S_, .i32⟩
  | 3 => ⟨S190, .i32⟩
  | 4 => ⟨S190, .i32⟩
  | 5 => ⟨S_, .i32⟩
  | 6 => ⟨S190, .i32⟩
  | 7 => ⟨S190, .i1⟩
  | 8 => ⟨S_, .i32⟩
  | 9 => ⟨S190, .i32⟩
  | 10 => ⟨S190, .i1⟩
  | 11 => ⟨S_, .i32⟩
  | 12 => ⟨S_, .i1⟩
  | 13 => ⟨S190, .i1⟩
  | 14 => ⟨S190, .i1⟩
  | 15 => ⟨S190, .i1⟩
  | 16 => ⟨S190, .i32⟩
  | 17 => ⟨S190, .i32⟩
  | 18 => ⟨S190, .i32⟩
  | 19 => ⟨S_, .i32⟩
  | 20 => ⟨S190, .i32⟩
  | 21 => ⟨S190, .i1⟩
  | 22 => ⟨S_, .i32⟩
  | 23 => ⟨S190, .i32⟩
  | 24 => ⟨S190, .i32⟩
  | 25 => ⟨S190, .i32⟩
  | 26 => ⟨S190x1, .i32⟩
  | 27 => ⟨S4096x190x64, .f32⟩
  | 28 => ⟨S_, .i32⟩
  | 29 => ⟨S190, .i32⟩
  | 30 => ⟨S190, .i1⟩
  | 31 => ⟨S_, .i32⟩
  | 32 => ⟨S190, .i32⟩
  | 33 => ⟨S190, .i32⟩
  | 34 => ⟨S190, .i32⟩
  | 35 => ⟨S190x1, .i32⟩
  | 36 => ⟨S4096x190x64, .f32⟩
  | 37 => ⟨S4096x190x64, .f32⟩
  | 38 => ⟨S4096x210x64, .f32⟩
  | 39 => ⟨S4096x13440, .f32⟩
  | _ => ⟨S4096x1, .i32⟩

abbrev hbmTy (i : Nat) : BufTy := match i / 128 with
  | 0 => hbmTy0_0 i
  | 1 => hbmTy0_1 i
  | _ => ⟨S4096x1, .i32⟩

abbrev bufTy : (tb : Table) → Fin (tcTables nBuf tb) → BufTy
  | .hbm, ⟨i, _⟩ => hbmTy i
  | _, _ => ⟨S4096x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst : Ref sig .tc := ⟨.hbm, 30, rfl⟩
abbrev main_v21 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_call1_v0 : Ref sig .tc := ⟨.hbm, 44, rfl⟩
abbrev main_call1_v1 : Ref sig .tc := ⟨.hbm, 45, rfl⟩
abbrev main_call1_call0_c : Ref sig .tc := ⟨.hbm, 46, rfl⟩
abbrev main_call1_call0_v0 : Ref sig .tc := ⟨.hbm, 47, rfl⟩
abbrev main_v25 : Ref sig .tc := ⟨.hbm, 48, rfl⟩
abbrev main_c_4 : Ref sig .tc := ⟨.hbm, 49, rfl⟩
abbrev main_v26 : Ref sig .tc := ⟨.hbm, 50, rfl⟩
abbrev main_c_5 : Ref sig .tc := ⟨.hbm, 51, rfl⟩
abbrev main_call2_v0 : Ref sig .tc := ⟨.hbm, 52, rfl⟩
abbrev main_call2_v1 : Ref sig .tc := ⟨.hbm, 53, rfl⟩
abbrev main_v27 : Ref sig .tc := ⟨.hbm, 54, rfl⟩
abbrev main_c_6 : Ref sig .tc := ⟨.hbm, 55, rfl⟩
abbrev main_v28 : Ref sig .tc := ⟨.hbm, 56, rfl⟩
abbrev main_v29 : Ref sig .tc := ⟨.hbm, 57, rfl⟩
abbrev main_c_7 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_c_8 : Ref sig .tc := ⟨.hbm, 63, rfl⟩
abbrev main_v34 : Ref sig .tc := ⟨.hbm, 64, rfl⟩
abbrev main_v35 : Ref sig .tc := ⟨.hbm, 65, rfl⟩
abbrev main_call3_call0_c : Ref sig .tc := ⟨.hbm, 66, rfl⟩
abbrev main_call3_call0_v0 : Ref sig .tc := ⟨.hbm, 67, rfl⟩
abbrev main_v36 : Ref sig .tc := ⟨.hbm, 68, rfl⟩
abbrev main_c_9 : Ref sig .tc := ⟨.hbm, 69, rfl⟩
abbrev main_call4_v0 : Ref sig .tc := ⟨.hbm, 70, rfl⟩
abbrev main_call4_v1 : Ref sig .tc := ⟨.hbm, 71, rfl⟩
abbrev main_call4_v2 : Ref sig .tc := ⟨.hbm, 72, rfl⟩
abbrev main_call4_v3 : Ref sig .tc := ⟨.hbm, 73, rfl⟩
abbrev main_call4_v4 : Ref sig .tc := ⟨.hbm, 74, rfl⟩
abbrev main_call4_v5 : Ref sig .tc := ⟨.hbm, 75, rfl⟩
abbrev main_call4_v6 : Ref sig .tc := ⟨.hbm, 76, rfl⟩
abbrev main_call4_v7 : Ref sig .tc := ⟨.hbm, 77, rfl⟩
abbrev main_call4_c : Ref sig .tc := ⟨.hbm, 78, rfl⟩
abbrev main_call4_v8 : Ref sig .tc := ⟨.hbm, 79, rfl⟩
abbrev main_call4_v9 : Ref sig .tc := ⟨.hbm, 80, rfl⟩
abbrev main_call4_v10 : Ref sig .tc := ⟨.hbm, 81, rfl⟩
abbrev main_call4_c_0 : Ref sig .tc := ⟨.hbm, 82, rfl⟩
abbrev main_call4_v11 : Ref sig .tc := ⟨.hbm, 83, rfl⟩
abbrev main_call4_v12 : Ref sig .tc := ⟨.hbm, 84, rfl⟩
abbrev main_v37 : Ref sig .tc := ⟨.hbm, 85, rfl⟩
abbrev main_c_10 : Ref sig .tc := ⟨.hbm, 86, rfl⟩
abbrev main_call5_v0 : Ref sig .tc := ⟨.hbm, 87, rfl⟩
abbrev main_call5_c : Ref sig .tc := ⟨.hbm, 88, rfl⟩
abbrev main_call5_v1 : Ref sig .tc := ⟨.hbm, 89, rfl⟩
abbrev main_call5_c_0 : Ref sig .tc := ⟨.hbm, 90, rfl⟩
abbrev main_call5_v2 : Ref sig .tc := ⟨.hbm, 91, rfl⟩
abbrev main_call5_v3 : Ref sig .tc := ⟨.hbm, 92, rfl⟩
abbrev main_call5_v4 : Ref sig .tc := ⟨.hbm, 93, rfl⟩
abbrev main_call5_c_1 : Ref sig .tc := ⟨.hbm, 94, rfl⟩
abbrev main_call5_v5 : Ref sig .tc := ⟨.hbm, 95, rfl⟩
abbrev main_call5_v6 : Ref sig .tc := ⟨.hbm, 96, rfl⟩
abbrev main_call5_c_2 : Ref sig .tc := ⟨.hbm, 97, rfl⟩
abbrev main_call5_v7 : Ref sig .tc := ⟨.hbm, 98, rfl⟩
abbrev main_call5_v8 : Ref sig .tc := ⟨.hbm, 99, rfl⟩
abbrev main_call5_c_3 : Ref sig .tc := ⟨.hbm, 100, rfl⟩
abbrev main_call5_v9 : Ref sig .tc := ⟨.hbm, 101, rfl⟩
abbrev main_call5_v10 : Ref sig .tc := ⟨.hbm, 102, rfl⟩
abbrev main_call5_v11 : Ref sig .tc := ⟨.hbm, 103, rfl⟩
abbrev main_call5_v12 : Ref sig .tc := ⟨.hbm, 104, rfl⟩
abbrev main_call5_v13 : Ref sig .tc := ⟨.hbm, 105, rfl⟩
abbrev main_call5_v14 : Ref sig .tc := ⟨.hbm, 106, rfl⟩
abbrev main_v38 : Ref sig .tc := ⟨.hbm, 107, rfl⟩
abbrev main_c_11 : Ref sig .tc := ⟨.hbm, 108, rfl⟩
abbrev main_call6_v0 : Ref sig .tc := ⟨.hbm, 109, rfl⟩
abbrev main_call6_v1 : Ref sig .tc := ⟨.hbm, 110, rfl⟩
abbrev main_call6_v2 : Ref sig .tc := ⟨.hbm, 111, rfl⟩
abbrev main_call6_v3 : Ref sig .tc := ⟨.hbm, 112, rfl⟩
abbrev main_call6_v4 : Ref sig .tc := ⟨.hbm, 113, rfl⟩
abbrev main_call6_v5 : Ref sig .tc := ⟨.hbm, 114, rfl⟩
abbrev main_call6_v6 : Ref sig .tc := ⟨.hbm, 115, rfl⟩
abbrev main_call6_v7 : Ref sig .tc := ⟨.hbm, 116, rfl⟩
abbrev main_call6_c : Ref sig .tc := ⟨.hbm, 117, rfl⟩
abbrev main_call6_v8 : Ref sig .tc := ⟨.hbm, 118, rfl⟩
abbrev main_call6_v9 : Ref sig .tc := ⟨.hbm, 119, rfl⟩
abbrev main_call6_v10 : Ref sig .tc := ⟨.hbm, 120, rfl⟩
abbrev main_call6_c_0 : Ref sig .tc := ⟨.hbm, 121, rfl⟩
abbrev main_call6_v11 : Ref sig .tc := ⟨.hbm, 122, rfl⟩
abbrev main_call6_v12 : Ref sig .tc := ⟨.hbm, 123, rfl⟩
abbrev main_v39 : Ref sig .tc := ⟨.hbm, 124, rfl⟩
abbrev main_c_12 : Ref sig .tc := ⟨.hbm, 125, rfl⟩
abbrev main_call7_v0 : Ref sig .tc := ⟨.hbm, 126, rfl⟩
abbrev main_call7_c : Ref sig .tc := ⟨.hbm, 127, rfl⟩
abbrev main_call7_v1 : Ref sig .tc := ⟨.hbm, 128, rfl⟩
abbrev main_call7_c_0 : Ref sig .tc := ⟨.hbm, 129, rfl⟩
abbrev main_call7_v2 : Ref sig .tc := ⟨.hbm, 130, rfl⟩
abbrev main_call7_v3 : Ref sig .tc := ⟨.hbm, 131, rfl⟩
abbrev main_call7_v4 : Ref sig .tc := ⟨.hbm, 132, rfl⟩
abbrev main_call7_c_1 : Ref sig .tc := ⟨.hbm, 133, rfl⟩
abbrev main_call7_v5 : Ref sig .tc := ⟨.hbm, 134, rfl⟩
abbrev main_call7_v6 : Ref sig .tc := ⟨.hbm, 135, rfl⟩
abbrev main_call7_c_2 : Ref sig .tc := ⟨.hbm, 136, rfl⟩
abbrev main_call7_v7 : Ref sig .tc := ⟨.hbm, 137, rfl⟩
abbrev main_call7_v8 : Ref sig .tc := ⟨.hbm, 138, rfl⟩
abbrev main_call7_c_3 : Ref sig .tc := ⟨.hbm, 139, rfl⟩
abbrev main_call7_v9 : Ref sig .tc := ⟨.hbm, 140, rfl⟩
abbrev main_call7_v10 : Ref sig .tc := ⟨.hbm, 141, rfl⟩
abbrev main_call7_v11 : Ref sig .tc := ⟨.hbm, 142, rfl⟩
abbrev main_call7_v12 : Ref sig .tc := ⟨.hbm, 143, rfl⟩
abbrev main_call7_v13 : Ref sig .tc := ⟨.hbm, 144, rfl⟩
abbrev main_call7_v14 : Ref sig .tc := ⟨.hbm, 145, rfl⟩
abbrev main_v40 : Ref sig .tc := ⟨.hbm, 146, rfl⟩
abbrev main_c_13 : Ref sig .tc := ⟨.hbm, 147, rfl⟩
abbrev main_v41 : Ref sig .tc := ⟨.hbm, 148, rfl⟩
abbrev main_v42 : Ref sig .tc := ⟨.hbm, 149, rfl⟩
abbrev main_c_14 : Ref sig .tc := ⟨.hbm, 150, rfl⟩
abbrev main_v43 : Ref sig .tc := ⟨.hbm, 151, rfl⟩
abbrev main_v44 : Ref sig .tc := ⟨.hbm, 152, rfl⟩
abbrev main_v45 : Ref sig .tc := ⟨.hbm, 153, rfl⟩
abbrev main_v46 : Ref sig .tc := ⟨.hbm, 154, rfl⟩
abbrev main_v47 : Ref sig .tc := ⟨.hbm, 155, rfl⟩
abbrev main_c_15 : Ref sig .tc := ⟨.hbm, 156, rfl⟩
abbrev main_v48 : Ref sig .tc := ⟨.hbm, 157, rfl⟩
abbrev main_v49 : Ref sig .tc := ⟨.hbm, 158, rfl⟩
abbrev main_c_16 : Ref sig .tc := ⟨.hbm, 159, rfl⟩
abbrev main_v50 : Ref sig .tc := ⟨.hbm, 160, rfl⟩
abbrev main_v51 : Ref sig .tc := ⟨.hbm, 161, rfl⟩
abbrev main_v52 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_v56 : Ref sig .tc := ⟨.hbm, 166, rfl⟩
abbrev main_v57 : Ref sig .tc := ⟨.hbm, 167, rfl⟩

abbrev nD : Nat := 1
abbrev τ : Topo := Topo.v7x

variable {F : FTy → Type} [FloatOps F]

class Facts₀ : Prop where
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x20 : S_.BroadcastsInDim S4096x20 (![] : Fin 0 → Fin S4096x20.rank)
  bcast_S4096x20_S4096x20x1_0_1 : S4096x20.BroadcastsInDim S4096x20x1 (![0, 1] : Fin 2 → Fin S4096x20x1.rank)
  bcast_S20_S1x20x1_1 : S20.BroadcastsInDim S1x20x1 (![1] : Fin 1 → Fin S1x20x1.rank)
  bcast_S1x20x1_S4096x20x64_0_1_2 : S1x20x1.BroadcastsInDim S4096x20x64 (![0, 1, 2] : Fin 3 → Fin S4096x20x64.rank)
  bcast_S4096x64_S4096x1x64_0_2 : S4096x64.BroadcastsInDim S4096x1x64 (![0, 2] : Fin 2 → Fin S4096x1x64.rank)
  bcast_S4096x1x64_S4096x20x64_0_1_2 : S4096x1x64.BroadcastsInDim S4096x20x64 (![0, 1, 2] : Fin 3 → Fin S4096x20x64.rank)
  bcast_S_S20x20 : S_.BroadcastsInDim S20x20 (![] : Fin 0 → Fin S20x20.rank)
  shapeCasts_S20x20_S400 : S20x20.ShapeCasts S400
  natLt_1_32 : 1 < 32
  bcast_S_S_ : S_.BroadcastsInDim S_ (![] : Fin 0 → Fin S_.rank)
  reduceWindows_S400_S400_w400s1p399_0 : S400.ReduceWindows (![400] : Fin 1 → Nat) ![1] ![399] ![0] S400
  h_S_ : 0 < S_.numel
  bcast_S_S190 : S_.BroadcastsInDim S190 (![] : Fin 0 → Fin S190.rank)
  bcast_S_S400 : S_.BroadcastsInDim S400 (![] : Fin 0 → Fin S400.rank)
  bcast_S400_S400x1_0 : S400.BroadcastsInDim S400x1 (![0] : Fin 1 → Fin S400x1.rank)
  reduceWindows_S190_S190_w190s1p189_0 : S190.ReduceWindows (![190] : Fin 1 → Nat) ![1] ![189] ![0] S190
  bcast_S190_S190x1_0 : S190.BroadcastsInDim S190x1 (![0] : Fin 1 → Fin S190x1.rank)
  concatenates_S4096x20x64_S4096x190x64_S4096x210x64_d1 : Shape.Concatenates [S4096x20x64, S4096x190x64] S4096x210x64 1
  shapeCasts_S4096x210x64_S4096x13440 : S4096x210x64.ShapeCasts S4096x13440
  gather_S100000x64_S4096x1_S4096x64_1_0_n_n_0_1_164_wf : GatherDims.WF S100000x64 S4096x1 S4096x64 [1] [0] [] [0] [] 1 ![1, 64]
  gather_S100001x64_S4096x20x1_S4096x20x64_2_0_n_n_0_2_164_wf : GatherDims.WF S100001x64 S4096x20x1 S4096x20x64 [2] [0] [] [0] [] 2 ![1, 64]
  scatter_S190_S400x1_S400_n_0_0_1_wf : ScatterDims.WF S190 S400x1 S400 [] [0] [0] 1
  gather_S4096x20x64_S190x1_S4096x190x64_02_1_n_n_1_1_4096164_wf : GatherDims.WF S4096x20x64 S190x1 S4096x190x64 [0, 2] [1] [] [1] [] 1 ![4096, 1, 64]

variable [Facts₀]

def gather_S100000x64_S4096x1_S4096x64_1_0_n_n_0_1_164 : GatherDims S100000x64 S4096x1 S4096x64 where
  offsetDims := [1]
  collapsedSliceDims := [0]
  operandBatchingDims := []
  startIndicesBatchingDims := []
  startIndexMap := [0]
  indexVectorDim := 1
  sliceSizes := ![1, 64]
  wf := gather_S100000x64_S4096x1_S4096x64_1_0_n_n_0_1_164_wf
def gather_S100001x64_S4096x20x1_S4096x20x64_2_0_n_n_0_2_164 : GatherDims S100001x64 S4096x20x1 S4096x20x64 where
  offsetDims := [2]
  collapsedSliceDims := [0]
  operandBatchingDims := []
  startIndicesBatchingDims := []
  startIndexMap := [0]
  indexVectorDim := 2
  sliceSizes := ![1, 64]
  wf := gather_S100001x64_S4096x20x1_S4096x20x64_2_0_n_n_0_2_164_wf
def scatter_S190_S400x1_S400_n_0_0_1 : ScatterDims S190 S400x1 S400 where
  updateWindowDims := []
  insertedWindowDims := [0]
  scatterDimsToOperandDims := [0]
  indexVectorDim := 1
  wf := scatter_S190_S400x1_S400_n_0_0_1_wf
def gather_S4096x20x64_S190x1_S4096x190x64_02_1_n_n_1_1_4096164 : GatherDims S4096x20x64 S190x1 S4096x190x64 where
  offsetDims := [0, 2]
  collapsedSliceDims := [1]
  operandBatchingDims := []
  startIndicesBatchingDims := []
  startIndexMap := [1]
  indexVectorDim := 1
  sliceSizes := ![4096, 1, 64]
  wf := gather_S4096x20x64_S190x1_S4096x190x64_02_1_n_n_1_1_4096164_wf

class Facts : Prop extends Facts₀ where

variable [Facts]
-- ==== Proof.PreDecode.lean ====
/-
  The precondition's two integer conjuncts, read back as index ranges. The printed predicate is a conjunction of five
  all-quantified tests reduced to one bit; its last two say, signed, 0 ≤ user < 100000 and 0 ≤ item < 100001 at every
  position. A conjunction of one-bit words is 1 only if each is; an and-reduction over every axis that is 1 met a 1 at
  every position; and a 32-bit word that is nonnegative and below n as a signed integer (n < 2^31) is below n unsigned.
  The three float conjuncts (finiteness of the tables and of the weights) are projected away.
-/
import proofs.«429411_j5592047419689_3_alg».proof.Pre_finite_inputs
import proofs.«429411_j5592047419689_3_alg».proof.Proof.Gen.Pre_finite_inputs
import Idealize.ShloMosaic.Lib.ReduceAll

namespace Cert.Proof.PreDecode
open Idealize.ShloMosaic Cert.Pre_finite_inputs

/-- A rank-0 shape has exactly one index: the empty tuple. -/
instance : Subsingleton S_.Idx := ⟨fun a b => funext fun d => d.elim0⟩

/-- A 32-bit word w with 0 ≤ w and w < n as signed integers, n below 2^31, has unsigned value below n: nonnegativity
    puts w in the lower half of the range, where the signed and unsigned readings agree. -/
theorem toNat_lt_of_signed (w : BitVec 32) (n : Nat) (hn : n < 2 ^ 31)
    (h0 : IntOp.cmpi .sge w 0#32 = 1#1) (h1 : IntOp.cmpi .slt w (BitVec.ofNat 32 n) = 1#1) : w.toNat < n := by
  rw [IntOp.cmpi_sge] at h0
  rw [IntOp.cmpi_slt] at h1
  have hz : (0#32 : BitVec 32).toInt = 0 := by decide
  have hw := w.isLt
  have hnn : (BitVec.ofNat 32 n).toNat = n := by
    rw [BitVec.toNat_ofNat]; exact Nat.mod_eq_of_lt (by omega)
  rw [hz] at h0
  unfold BitVec.toInt at h0 h1
  rw [hnn] at h1
  split at h0 <;> split at h1 <;> omega

/-- Under the precondition every user index is a row of the user table and every item index a row of the item table. -/
theorem ranges {F : FTy → Type} [FloatOps F] [Cert.Pre_finite_inputs.Facts]
    (a0 : IVec S4096x1 32) (a1 : IVec S4096x20 32) (a2 : FVec F S100000x64 .f32) (a3 : FVec F S100001x64 .f32) (a4 : FVec F S20 .f32)
    (h : Cert.Pre_finite_inputs.fn (F := F) a0 a1 a2 a3 a4 = fun _ => 1#1) :
    (∀ i, (a0 i).toNat < 100000) ∧ (∀ i, (a1 i).toNat < 100001) := by
  -- the predicate's one bit, at the one index of a rank-0 result
  have e := congrFun h (fun d => d.elim0)
  dsimp only [fn, fn_part1, andi] at e
  -- ((finite tables ∧ finite weights) ∧ all users in range) ∧ all items in range
  obtain ⟨e1, eItem⟩ := IntOp.andi_eq_one.1 e
  obtain ⟨-, eUser⟩ := IntOp.andi_eq_one.1 e1
  refine ⟨fun i => ?_, fun i => ?_⟩
  · have hi := Host.reduce_andi_all _ _ _ _ _ eUser i
    dsimp only [andi, cmpi, broadcastInDim, constantI] at hi
    obtain ⟨hge, hlt⟩ := IntOp.andi_eq_one.1 hi
    exact toNat_lt_of_signed _ 100000 (by decide) hge hlt
  · have hi := Host.reduce_andi_all _ _ _ _ _ eItem i
    dsimp only [andi, cmpi, broadcastInDim, constantI] at hi
    obtain ⟨hge, hlt⟩ := IntOp.andi_eq_one.1 hi
    exact toNat_lt_of_signed _ 100001 (by decide) hge hlt

end Cert.Proof.PreDecode
-- ==== Proof.K.Rows.lean ====
/-
  Rows of a buffer filled one by one, held apart, and joined back into the whole buffer.

  A 21×64 scratch receives twenty-one row copies, row `k` through the rectangle "row `k`, all 64 columns". While
  the copies are in flight the rows written first (rows 0…4) are held APART from the rest of the buffer, each at
  the contents the buffer had when its own copy was issued: the prior contents `fs` with the pieces of rows
  `k, k-1, …, 0` written over them. The rest of the buffer is held at the contents after all twenty-one pieces.

  Two facts join them back. (1) A write through a rectangle changes only the elements under that rectangle, so at
  an element of row `k` the pieces of the rows `j ≠ k` written later change nothing: on row `k`, "pieces `k…0`
  written" and "pieces `20…0` written" are the same contents, and a points-to only looks at its own elements.
  (2) Distinct rows are disjoint (they differ in the first coordinate) and each lies inside the buffer, so row `k`
  lies inside the buffer minus the rows carved out before it, and a subset carved out of a set of elements joins
  back into it when both are held at one valuation. The rows go back in the reverse of the order they were
  carved in: row 4 first, row 0 last.
-/
import proofs.«429411_j5592047419689_3_alg».proof.Proof.Gen.Kernel.Launch
import Idealize.ShloMosaic.Lib.Tactic
import Idealize.ShloMosaic.Lib.Pipeline.FrameBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Writes through rectangles apart from a rectangle leave it alone -/

section General
variable {nD' : Nat} {τ' : Topo} {sig' : RefSig} {Ix : Type} [DecidableEq Ix]
variable {Val : EltTy → Type} {Name : Type} [DecidableEq Name]
variable {U : Type} [URA U] {Lvl : Type}

/-- At an element under the rectangle `r`, writes through rectangles disjoint from `r` change nothing: the
    contents after the writes `L' ++ L` (those of `L'` the later ones) are the contents after `L`. By induction
    on `L'`: its head piece writes only under its own rectangle, and a view places distinct indices at distinct
    elements, so the element is not one the head writes. -/
theorem writes_append_apply_of_disjoint {κ : Kind} {sp : Space} {s : Shape} {e : EltTy}
    (v : View sig' κ sp s e) (f : v.ty.Contents Val) (r : Rect s) (L : List (View.Piece Val s e)) :
    ∀ L' : List (View.Piece Val s e), (∀ p ∈ L', Disjoint p.1.set r.set) →
      ∀ i ∈ (v.slice r).set, v.writes Val f (L' ++ L) i = v.writes Val f L i
  | [], _, _, _ => rfl
  | p :: L', h, i, hi => by
    rw [List.cons_append, View.writes_cons, View.write_of_not_mem _ _ _ ?_,
      writes_append_apply_of_disjoint v f r L L' (fun p' hp' => h p' (List.mem_cons_of_mem _ hp')) i hi]
    rw [View.setOn_univ, View.set_slice]
    rw [View.set_slice] at hi
    intro hm
    obtain ⟨y, hy, rfl⟩ := Finset.mem_map.mp hi
    obtain ⟨y', hy', e'⟩ := Finset.mem_map.mp hm
    obtain rfl := v.emb.injective e'
    exact Finset.disjoint_left.mp (h p List.mem_cons_self) hy' hy

/-- So the elements under `r`, held at the contents after `L`, are held at the contents after `L' ++ L`. -/
theorem pointsTo_slice_writes_append (c : Thread nD' τ') {sp : Space} {s : Shape} {e : EltTy}
    (v : View sig' c.2.kind sp s e) (q : PosShare TreeShare) (f : Buf Val (v.loc c)) (r : Rect s)
    (L' L : List (View.Piece Val s e)) (h : ∀ p ∈ L', Disjoint p.1.set r.set) :
    (v.loc c ↦[(v.slice r).set]{q} v.writes Val f L : sProp (MT nD' τ' sig' Ix Val Name U Lvl))
      = v.loc c ↦[(v.slice r).set]{q} v.writes Val f (L' ++ L) :=
  pointsTo_congr fun i hi => (writes_append_apply_of_disjoint v f r L L' h i hi).symm

/-- Disjoint rectangles of a view's shape lie over disjoint elements of its buffer. -/
theorem slice_set_disjoint {κ : Kind} {sp : Space} {s : Shape} {e : EltTy} (v : View sig' κ sp s e) {r r' : Rect s}
    (h : Disjoint r.set r'.set) : Disjoint (v.slice r).set (v.slice r').set := by
  rw [View.set_slice, View.set_slice]
  exact (Finset.disjoint_map _).mpr h

/-- Five element sets carved one after the other out of `S`, and what is left, all at one valuation, are `S` at
    it: the last carved goes back first. -/
theorem pointsTo_join5 {ℓ : Loc nD' τ' sig'} {S r0 r1 r2 r3 r4 : Finset (Idx ℓ)} {q : PosShare TreeShare} {f : Buf Val ℓ}
    (h0 : r0 ⊆ S) (h1 : r1 ⊆ S \ r0) (h2 : r2 ⊆ (S \ r0) \ r1) (h3 : r3 ⊆ ((S \ r0) \ r1) \ r2)
    (h4 : r4 ⊆ (((S \ r0) \ r1) \ r2) \ r3) :
    iprop((ℓ ↦[r0]{q} f) ∗ (ℓ ↦[r1]{q} f) ∗ (ℓ ↦[r2]{q} f) ∗ (ℓ ↦[r3]{q} f) ∗ (ℓ ↦[r4]{q} f)
        ∗ (ℓ ↦[((((S \ r0) \ r1) \ r2) \ r3) \ r4]{q} f))
      ⊢ (ℓ ↦[S]{q} f : sProp (MT nD' τ' sig' Ix Val Name U Lvl)) := by
  iintro ⟨H0, H1, H2, H3, H4, HS⟩
  ihave HS := (pointsTo_split_subset (q := q) (f := f) h4).2 $$ [H4 HS]
  · isplitl [H4]; · iexact H4
    iexact HS
  ihave HS := (pointsTo_split_subset (q := q) (f := f) h3).2 $$ [H3 HS]
  · isplitl [H3]; · iexact H3
    iexact HS
  ihave HS := (pointsTo_split_subset (q := q) (f := f) h2).2 $$ [H2 HS]
  · isplitl [H2]; · iexact H2
    iexact HS
  ihave HS := (pointsTo_split_subset (q := q) (f := f) h1).2 $$ [H1 HS]
  · isplitl [H1]; · iexact H1
    iexact HS
  ihave HS := (pointsTo_split_subset (q := q) (f := f) h0).2 $$ [H0 HS]
  · isplitl [H0]; · iexact H0
    iexact HS
  iexact HS

end General

section General5
variable {nD' : Nat} {τ' : Topo} {sig' : RefSig} {Ix : Type} [DecidableEq Ix]
variable {Val : EltTy → Type} {Name : Type} [DecidableEq Name]
variable {U : Type} [URA U] {Lvl : Type}

/-- Five pairwise disjoint rectangles of a view, each held apart at the contents after the writes made up to
    its own (`Lk`), and the view's other elements held at the contents after all the writes (`Lf`), where the
    writes after `Lk` (`Lk'`, so that `Lk' ++ Lk = Lf`) go through rectangles disjoint from the `k`-th: the whole
    view is held at the contents after all the writes. Each rectangle is first restated at `Lf` (the later writes
    do not touch it), then put back into the set it was carved from — the last carved first —, which it lies in
    because it lies in the view and is disjoint from the rectangles carved before it. -/
theorem pointsTo_join_rows5 (c : Thread nD' τ') {sp : Space} {s : Shape} {e : EltTy}
    (v : View sig' c.2.kind sp s e) (q : PosShare TreeShare) (f : Buf Val (v.loc c))
    (r0 r1 r2 r3 r4 : Rect s) (L0 L1 L2 L3 L4 L0' L1' L2' L3' L4' Lf : List (View.Piece Val s e))
    (e0 : L0' ++ L0 = Lf) (e1 : L1' ++ L1 = Lf) (e2 : L2' ++ L2 = Lf) (e3 : L3' ++ L3 = Lf) (e4 : L4' ++ L4 = Lf)
    (a0 : ∀ p ∈ L0', Disjoint p.1.set r0.set) (a1 : ∀ p ∈ L1', Disjoint p.1.set r1.set)
    (a2 : ∀ p ∈ L2', Disjoint p.1.set r2.set) (a3 : ∀ p ∈ L3', Disjoint p.1.set r3.set)
    (a4 : ∀ p ∈ L4', Disjoint p.1.set r4.set)
    (d10 : Disjoint r1.set r0.set)
    (d20 : Disjoint r2.set r0.set) (d21 : Disjoint r2.set r1.set)
    (d30 : Disjoint r3.set r0.set) (d31 : Disjoint r3.set r1.set) (d32 : Disjoint r3.set r2.set)
    (d40 : Disjoint r4.set r0.set) (d41 : Disjoint r4.set r1.set) (d42 : Disjoint r4.set r2.set)
    (d43 : Disjoint r4.set r3.set) :
    iprop((v.loc c ↦[(v.slice r0).set]{q} v.writes Val f L0)
        ∗ (v.loc c ↦[(v.slice r1).set]{q} v.writes Val f L1)
        ∗ (v.loc c ↦[(v.slice r2).set]{q} v.writes Val f L2)
        ∗ (v.loc c ↦[(v.slice r3).set]{q} v.writes Val f L3)
        ∗ (v.loc c ↦[(v.slice r4).set]{q} v.writes Val f L4)
        ∗ (v.loc c ↦[((((v.set \ (v.slice r0).set) \ (v.slice r1).set) \ (v.slice r2).set) \ (v.slice r3).set)
              \ (v.slice r4).set]{q} v.writes Val f Lf))
      ⊢ (v.loc c ↦[v.set]{q} v.writes Val f Lf : sProp (MT nD' τ' sig' Ix Val Name U Lvl)) := by
  rw [pointsTo_slice_writes_append c v q f r0 L0' L0 a0, e0, pointsTo_slice_writes_append c v q f r1 L1' L1 a1, e1,
    pointsTo_slice_writes_append c v q f r2 L2' L2 a2, e2, pointsTo_slice_writes_append c v q f r3 L3' L3 a3, e3,
    pointsTo_slice_writes_append c v q f r4 L4' L4 a4, e4]
  have s0 := v.set_slice_subset r0
  have s1 := v.set_slice_subset r1
  have s2 := v.set_slice_subset r2
  have s3 := v.set_slice_subset r3
  have s4 := v.set_slice_subset r4
  exact pointsTo_join5 s0
    (Finset.subset_sdiff.mpr ⟨s1, slice_set_disjoint v d10⟩)
    (Finset.subset_sdiff.mpr ⟨Finset.subset_sdiff.mpr ⟨s2, slice_set_disjoint v d20⟩, slice_set_disjoint v d21⟩)
    (Finset.subset_sdiff.mpr ⟨Finset.subset_sdiff.mpr ⟨Finset.subset_sdiff.mpr ⟨s3, slice_set_disjoint v d30⟩,
      slice_set_disjoint v d31⟩, slice_set_disjoint v d32⟩)
    (Finset.subset_sdiff.mpr ⟨Finset.subset_sdiff.mpr ⟨Finset.subset_sdiff.mpr ⟨Finset.subset_sdiff.mpr
      ⟨s4, slice_set_disjoint v d40⟩, slice_set_disjoint v d41⟩, slice_set_disjoint v d42⟩, slice_set_disjoint v d43⟩)

end General5

/-! ## The 21-row scratch -/

/-- The scratch, as the body is handed it. -/
abbrev scrM : Memref sig .tc .vmem S21x64 .f32 := Memref.whole cc0_scratch0

open Lean in
/-- Row `k` of the scratch as a rectangle: one row, all 64 columns. -/
local macro "row%" k:num : term =>
  `(Rect.unit (s := S21x64) ![$k, 0] S1x64.size
      $(mkIdent (Name.mkStr `Cert.Kernel.Gen s!"inb_S21x64_S1x64_{k.getNat}_0")))

/-- The scratch's elements under row `k`. -/
local macro "rset%" k:num : term => `((scrM.slice (row% $k) (fun _ => rfl)).view.set)

/-- A piece's rectangle is disjoint from `r'` when the rectangle it was built from is. -/
theorem piece_apart {Val : EltTy → Type} {s : Shape} {e : EltTy} (r r' : Rect s) (w : r.shape.Idx → Val e)
    (h : Disjoint r.set r'.set) : Disjoint (Sigma.fst (⟨r, w⟩ : View.Piece Val s e)).set r'.set := h

/-- Each listed piece is a row other than the one named: the two rows differ in their first coordinate. -/
local macro "rows_apart" : tactic =>
  `(tactic| ((repeat (refine List.forall_mem_cons.mpr ⟨piece_apart _ _ _ (Rect.unit_disjoint (0 : Fin 2) (by decide)), ?_⟩));
             exact fun _ h => absurd h List.not_mem_nil))

/-- The scratch after its twenty-one row copies: rows 0…4 held apart, row `k` at the contents after the pieces of
    rows `k…0`, and the other elements at the contents after all twenty-one pieces (row 20's written last), are
    the whole scratch at the contents after all twenty-one. The payloads `p0 … p20` are arbitrary. -/
theorem join_rows (c : Dev nD) (fs : Buf (Elt F) (scrM.view.loc (c : Thread nD τ)))
    (p0 p1 p2 p3 p4 p5 p6 p7 p8 p9 p10 p11 p12 p13 p14 p15 p16 p17 p18 p19 p20 : S1x64.Idx → Elt F .f32) :
    iprop((scrM.view.loc (c : Thread nD τ) ↦[rset% 0]{fullShare} scrM.view.writes (Elt F) fs [⟨row% 0, p0⟩])
        ∗ (scrM.view.loc (c : Thread nD τ) ↦[rset% 1]{fullShare} scrM.view.writes (Elt F) fs [⟨row% 1, p1⟩, ⟨row% 0, p0⟩])
        ∗ (scrM.view.loc (c : Thread nD τ) ↦[rset% 2]{fullShare}
            scrM.view.writes (Elt F) fs [⟨row% 2, p2⟩, ⟨row% 1, p1⟩, ⟨row% 0, p0⟩])
        ∗ (scrM.view.loc (c : Thread nD τ) ↦[rset% 3]{fullShare}
            scrM.view.writes (Elt F) fs [⟨row% 3, p3⟩, ⟨row% 2, p2⟩, ⟨row% 1, p1⟩, ⟨row% 0, p0⟩])
        ∗ (scrM.view.loc (c : Thread nD τ) ↦[rset% 4]{fullShare}
            scrM.view.writes (Elt F) fs [⟨row% 4, p4⟩, ⟨row% 3, p3⟩, ⟨row% 2, p2⟩, ⟨row% 1, p1⟩, ⟨row% 0, p0⟩])
        ∗ (scrM.view.loc (c : Thread nD τ) ↦[((((scrM.view.set \ rset% 0) \ rset% 1) \ rset% 2) \ rset% 3) \ rset% 4]{fullShare}
            scrM.view.writes (Elt F) fs
              [⟨row% 20, p20⟩, ⟨row% 19, p19⟩, ⟨row% 18, p18⟩, ⟨row% 17, p17⟩, ⟨row% 16, p16⟩, ⟨row% 15, p15⟩,
               ⟨row% 14, p14⟩, ⟨row% 13, p13⟩, ⟨row% 12, p12⟩, ⟨row% 11, p11⟩, ⟨row% 10, p10⟩, ⟨row% 9, p9⟩,
               ⟨row% 8, p8⟩, ⟨row% 7, p7⟩, ⟨row% 6, p6⟩, ⟨row% 5, p5⟩, ⟨row% 4, p4⟩, ⟨row% 3, p3⟩, ⟨row% 2, p2⟩,
               ⟨row% 1, p1⟩, ⟨row% 0, p0⟩]))
      ⊢ (scrM.view.loc (c : Thread nD τ) ↦[scrM.view.set]{fullShare}
          scrM.view.writes (Elt F) fs
            [⟨row% 20, p20⟩, ⟨row% 19, p19⟩, ⟨row% 18, p18⟩, ⟨row% 17, p17⟩, ⟨row% 16, p16⟩, ⟨row% 15, p15⟩,
             ⟨row% 14, p14⟩, ⟨row% 13, p13⟩, ⟨row% 12, p12⟩, ⟨row% 11, p11⟩, ⟨row% 10, p10⟩, ⟨row% 9, p9⟩,
             ⟨row% 8, p8⟩, ⟨row% 7, p7⟩, ⟨row% 6, p6⟩, ⟨row% 5, p5⟩, ⟨row% 4, p4⟩, ⟨row% 3, p3⟩, ⟨row% 2, p2⟩,
             ⟨row% 1, p1⟩, ⟨row% 0, p0⟩] : sProp 𝕄) :=
  pointsTo_join_rows5 (c : Thread nD τ) scrM.view fullShare fs (row% 0) (row% 1) (row% 2) (row% 3) (row% 4)
    [⟨row% 0, p0⟩]
    [⟨row% 1, p1⟩, ⟨row% 0, p0⟩]
    [⟨row% 2, p2⟩, ⟨row% 1, p1⟩, ⟨row% 0, p0⟩]
    [⟨row% 3, p3⟩, ⟨row% 2, p2⟩, ⟨row% 1, p1⟩, ⟨row% 0, p0⟩]
    [⟨row% 4, p4⟩, ⟨row% 3, p3⟩, ⟨row% 2, p2⟩, ⟨row% 1, p1⟩, ⟨row% 0, p0⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩, ⟨row% 1, p1⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩,
     ⟨row% 1, p1⟩, ⟨row% 0, p0⟩]
    rfl rfl rfl rfl rfl
    (by rows_apart) (by rows_apart) (by rows_apart) (by rows_apart) (by rows_apart)
    (Rect.unit_disjoint (0 : Fin 2) (by decide))
    (Rect.unit_disjoint (0 : Fin 2) (by decide)) (Rect.unit_disjoint (0 : Fin 2) (by decide))
    (Rect.unit_disjoint (0 : Fin 2) (by decide)) (Rect.unit_disjoint (0 : Fin 2) (by decide))
    (Rect.unit_disjoint (0 : Fin 2) (by decide))
    (Rect.unit_disjoint (0 : Fin 2) (by decide)) (Rect.unit_disjoint (0 : Fin 2) (by decide))
    (Rect.unit_disjoint (0 : Fin 2) (by decide)) (Rect.unit_disjoint (0 : Fin 2) (by decide))

end Cert.Kernel.Hand

end
-- ==== Proof.K.Body.lean ====
/-
  The kernel body of one grid point, run once at symbolic contents.

  At point `i` the body reads the user index `u = users[i]` and the twenty item indices
  `k_n = items[20 i + n]` from the two index tables, copies row `k_n` of the item table into row `n` of a
  21-row scratch and row `u` of the user table into row 20, each copy on a semaphore of its own, waits for
  all twenty-one, and then stores into the output block the twenty rows `user ⊙ (w_n · item_n)` followed by the
  190 products `(w_a · item_a) ⊙ (w_b · item_b)`, `a < b`.  Each copy needs its source row inside its table:
  that is what the bounds `hU` (user indices below 100000) and `hI` (item indices below 100001) give.
-/
import proofs.«429411_j5592047419689_3_alg».proof.Proof.Gen.Kernel.Launch
import proofs.«429411_j5592047419689_3_alg».proof.Proof.Gen.Kernel.Skeleton
import proofs.«429411_j5592047419689_3_alg».proof.Proof.K.Rows
import Idealize.ShloMosaic.Lib.Pipeline.FrameBody
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Facts₀ Facts

local notation "𝕄" => MT nD τ sig Unit (Elt F) ℕ (Pipeline.UD sig nD τ) ℕ

/-- A whole buffer's contents on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two index tables, the two embedding tables and the scratch, as the body table passes them. -/
abbrev tU : Memref sig .tc .smem S4096 .i32 := Memref.whole main_v0
abbrev tI : Memref sig .tc .smem S81920 .i32 := Memref.whole main_v1
abbrev eU : Memref sig .tc .hbm S100000x64 .f32 := Memref.whole main_arg2
abbrev eI : Memref sig .tc .hbm S100001x64 .f32 := Memref.whole main_arg3
abbrev scr : Memref sig .tc .vmem S21x64 .f32 := Memref.whole cc0_scratch0

/-- One staging buffer of the output's window, through which the block the body leaves is stated (any whole memref of
    the block's shape reads the same). -/
abbrev VO : View sig .tc .vmem S1x210x64 .f32 := (Memref.whole cc0_stg1_0 : Memref sig .tc .vmem S1x210x64 .f32).view

/-- A source row inside the item table: every range condition the body assumes of an item index is this one
    statement (row + 1 ≤ 100001, and the 64 columns fit), whatever name the printed program gives it. -/
theorem chk_item {v : BitVec 32} (h : v.toNat < 100001) (P : Prop)
    (hP : P = ((∀ a, (![v.toNat, 0] : Fin 2 → Nat) a + S1x64.size a ≤ S100001x64.size a) ∧
               (∀ a, (![v.toNat, 0] : Fin 2 → Nat) a + S1x64.size a ≤ S100001x64.size a))) : P := by
  subst hP
  have key : ∀ a, (![v.toNat, 0] : Fin 2 → Nat) a + S1x64.size a ≤ S100001x64.size a := fun a => by
    fin_cases a
    · show v.toNat + 1 ≤ 100001; omega
    · show 0 + 64 ≤ 64; omega
  exact ⟨key, key⟩

/-- Likewise a source row inside the user table. -/
theorem chk_user {v : BitVec 32} (h : v.toNat < 100000) (P : Prop)
    (hP : P = (∀ a, (![v.toNat, 0] : Fin 2 → Nat) a + S1x64.size a ≤ S100000x64.size a)) : P := by
  subst hP
  intro a
  fin_cases a
  · show v.toNat + 1 ≤ 100000; omega
  · show 0 + 64 ≤ 64; omega

/-- The item table held as one read share per copy that reads it: the twenty copies of a point may read the same
    row (two history slots naming one item), so each takes its row from a share of its own — the one its counter's
    number names. -/
abbrev toksI (c : Dev nD) (gI : Bf (F := F) c eI) : sProp 𝕄 :=
  iprop((eI.view.loc (c : Thread nD τ) ↦{Transfers.shareTokN fullShare 3} gI) ∗ (eI.view.loc (c : Thread nD τ) ↦{Transfers.shareTokN fullShare 4} gI) ∗ (eI.view.loc (c : Thread nD τ) ↦{Transfers.shareTokN fullShare 5} gI) ∗ (eI.view.loc (c : Thread nD τ) ↦{Transfers.shareTokN fullShare 6} gI) ∗ (eI.view.loc (c : Thread nD τ) ↦{Transfers.shareTokN fullShare 7} gI) ∗ (eI.view.loc (c : Thread nD τ) ↦{Transfers.shareTokN fullShare 8} gI) ∗ (eI.view.loc (c : Thread nD τ) ↦{Transfers.shareTokN fullShare 9} gI) ∗ (eI.view.loc (c : Thread nD τ) ↦{Transfers.shareTokN fullShare 10} gI) ∗ (eI.view.loc (c : Thread nD τ) ↦{Transfers.shareTokN fullShare 11} gI) ∗ (eI.view.loc (c : Thread nD τ) ↦{Transfers.shareTokN fullShare 12} gI) ∗ (eI.view.loc (c : Thread nD τ) ↦{Transfers.shareTokN fullShare 13} gI) ∗ (eI.view.loc (c : Thread nD τ) ↦{Transfers.shareTokN fullShare 14} gI) ∗ (eI.view.loc (c : Thread nD τ) ↦{Transfers.shareTokN fullShare 15} gI) ∗ (eI.view.loc (c : Thread nD τ) ↦{Transfers.shareTokN fullShare 16} gI) ∗ (eI.view.loc (c : Thread nD τ) ↦{Transfers.shareTokN fullShare 17} gI) ∗ (eI.view.loc (c : Thread nD τ) ↦{Transfers.shareTokN fullShare 18} gI) ∗ (eI.view.loc (c : Thread nD τ) ↦{Transfers.shareTokN fullShare 19} gI) ∗ (eI.view.loc (c : Thread nD τ) ↦{Transfers.shareTokN fullShare 20} gI) ∗ (eI.view.loc (c : Thread nD τ) ↦{Transfers.shareTokN fullShare 21} gI) ∗ (eI.view.loc (c : Thread nD τ) ↦{Transfers.shareTokN fullShare 22} gI))

/-- The twenty-one counters of the body's own copies, at zero. -/
abbrev sems0 (c : Dev nD) : sProp 𝕄 :=
  iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)

set_option sl_exec.dmaWindow true in
set_option sl_exec.dmaWindowSet true in
set_option maxHeartbeats 4000000 in
/-- The body at point `i`: from the weights' block `x5`, the output's staging buffer at anything, the scratch at
    anything, the tables at `fU fI gU gI`, the counters at zero and the core's `owes`, it runs to its return with
    everything but the output's buffer and the scratch as it was, and the output's buffer holding the pieces `L`
    the run finds. -/
noncomputable def kernelRun (c : Dev nD) (i : grid0.Coords)
    (arg5 : Memref sig .tc .vmem S20x1 .f32) (harg5 : arg5.IsWhole) (arg6 : Memref sig .tc .vmem S1x210x64 .f32) (harg6 : arg6.IsWhole)
    (x5 : Vec F S20x1 .f32) (fU : Bf (F := F) c tU) (fI : Bf (F := F) c tI) (gU : Bf (F := F) c eU) (gI : Bf (F := F) c eI)
    (hU : ∀ r j, (tU.view.readAt (Elt F) r fU j).toNat < 100000)
    (hI : ∀ r j, (tI.view.readAt (Elt F) r fI j).toNat < 100001) :
    { L : List (View.Piece (Elt F) S1x210x64 .f32) //
      ∀ (W : Waits sig Unit) (K : PUnit → sProp 𝕄),
        iprop(owns (c : Thread nD τ) arg5 fullShare x5 ∗ (∃ d, owns (c : Thread nD τ) arg6 fullShare d) ∗ (∃ d, owns (c : Thread nD τ) scr fullShare d)
            ∗ pt c tU fU ∗ pt c tI fI ∗ pt c eU gU ∗ toksI c gI ∗ sems0 c ∗ owes (c : Thread nD τ) 0 W
            ∗ (iprop(owns (c : Thread nD τ) arg5 fullShare x5 ∗ (∃ f, arg6.view.loc (c : Thread nD τ) ↦[arg6.view.set]{fullShare} arg6.view.writes (Elt F) f L) ∗ (∃ d, owns (c : Thread nD τ) scr fullShare d)
                ∗ pt c tU fU ∗ pt c tI fI ∗ pt c eU gU ∗ toksI c gI ∗ sems0 c ∗ (∃ W', owes (c : Thread nD τ) 0 W')) -∗ K ⟨⟩))
          ⊢ wp frame (wpE (defs₀ (F := F)) Variants.none c none) Set.univ
              (cc0_kernel i tU (Memref.isWhole_whole _) tI (Memref.isWhole_whole _) eU (Memref.isWhole_whole _) eI (Memref.isWhole_whole _) arg5 harg5 arg6 harg6 scr (Memref.isWhole_whole _) cc0_scratch1) K } := by
  refine ⟨?_, fun W K => ?run⟩
  case run =>
    unfold owns
    iintro ⟨⟨%f5, %hf5, H5⟩, ⟨%d6, %f6, -, H6⟩, ⟨%ds, %fs, -, HS⟩, HtU, HtI, HeU, ⟨HeI3, HeI4, HeI5, HeI6, HeI7, HeI8, HeI9, HeI10, HeI11, HeI12, HeI13, HeI14, HeI15, HeI16, HeI17, HeI18, HeI19, HeI20, HeI21, HeI22⟩, ⟨Hq0, Hq1, Hq2, Hq3, Hq4, Hq5, Hq6, Hq7, Hq8, Hq9, Hq10, Hq11, Hq12, Hq13, Hq14, Hq15, Hq16, Hq17, Hq18, Hq19, Hq20⟩, HW, Hk⟩
    obtain rfl := harg5.eq_unread hf5
    sl_exec_parts (disch := first | exact chk_user (hU _ _) _ rfl | exact chk_item (hI _ _) _ rfl)
    ihave HSj := join_rows c fs _ _ _ _ _ _ _ _ _ _ _ _ _ _ _ _ _ _ _ _ _ $$ [HS_2 HS_3 HS_4 HS_5 HS_6 HS]
    · iframe
    sl_exec_parts!
    sl_step
    iapply Hk
    isplitl [H5]
    · iexists _; isplitr; · ipureintro; exact harg5.read_unread _
      iexact H5
    isplitl [H6]; · iexists _; iexact H6
    isplitl [HSj]
    · iexists _, _; isplitr; swap; · iexact HSj
      ipureintro; rfl
    isplitl [HtU]; · iexact HtU
    isplitl [HtI]; · iexact HtI
    isplitl [HeU]; · iexact HeU
    isplitl [HeI3 HeI4 HeI5 HeI6 HeI7 HeI8 HeI9 HeI10 HeI11 HeI12 HeI13 HeI14 HeI15 HeI16 HeI17 HeI18 HeI19 HeI20 HeI21 HeI22]
    · unfold toksI
      isplitl [HeI3]; · iexact HeI3
      isplitl [HeI4]; · iexact HeI4
      isplitl [HeI5]; · iexact HeI5
      isplitl [HeI6]; · iexact HeI6
      isplitl [HeI7]; · iexact HeI7
      isplitl [HeI8]; · iexact HeI8
      isplitl [HeI9]; · iexact HeI9
      isplitl [HeI10]; · iexact HeI10
      isplitl [HeI11]; · iexact HeI11
      isplitl [HeI12]; · iexact HeI12
      isplitl [HeI13]; · iexact HeI13
      isplitl [HeI14]; · iexact HeI14
      isplitl [HeI15]; · iexact HeI15
      isplitl [HeI16]; · iexact HeI16
      isplitl [HeI17]; · iexact HeI17
      isplitl [HeI18]; · iexact HeI18
      isplitl [HeI19]; · iexact HeI19
      isplitl [HeI20]; · iexact HeI20
      isplitl [HeI21]; · iexact HeI21
      iexact HeI22
    isplitl [Hq0 Hq1 Hq2 Hq3 Hq4 Hq5 Hq6 Hq7 Hq8 Hq9 Hq10 Hq11 Hq12 Hq13 Hq14 Hq15 Hq16 Hq17 Hq18 Hq19 Hq20]
    · unfold sems0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      iexact Hq20
    iexists _; iexact HW

end Cert.Kernel.Hand

end
-- ==== Proof.K.Launch.lean ====
/-
  The kernel's program as a run: the proof data of its one pipelined call and the obligation of its body.

  @main reshapes the user and history index arrays into two flat index tables and the weights into a 20 × 1
  column, runs the call over the 4096 batch rows — the weights' column staged whole at every row, the output's
  row block (1 × 210 × 64) written back after every row —, and reshapes the 4096 × 210 × 64 result to
  4096 × 13440.  Between two rows the body keeps nothing: the invariant is what it borrows and gives back — the
  scratch at anything, the two index tables and the two embedding tables as the call found them, its twenty-one
  counters at zero.
-/
import proofs.«429411_j5592047419689_3_alg».proof.Proof.K.Body
import proofs.«429411_j5592047419689_3_alg».proof.Proof.Gen.Kernel.Launch
import Idealize.ShloMosaic.Lib.Pipeline.Regions
import Idealize.ShloMosaic.Lib.Pipeline.RegionsLoop
import Idealize.ShloMosaic.Lib.Ring

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main before the call: three reshapes -/

/-- Core `c`'s buffers at launch, as the host operations' valuation; -/
abbrev V₀ (c : Dev nD) : Valuation τ sig (Elt F) := fun b => (s₀ m ρ).mem ((c : Dev nD), b)
/-- and when the call is entered: the three reshapes have run. -/
abbrev V (c : Dev nD) (b : Ref sig .tc) : Buf (Elt F) ((c : Thread nD τ).loc b) := StableHlo.after hostOps0 (V₀ m ρ c) b

/-- The one core. -/
abbrev c₀ : Dev nD := ⟨0, Nat.one_pos⟩

/-- The two index tables as the call reads them at entry: the reshaped user and history indices. -/
abbrev tabs : pre0.Contents (Elt F) := fun k => V m ρ c₀ (pre0.ref k)

/-- The call's configuration is taken at those contents (the tables' side condition is empty). -/
abbrev adm : (p : Fin 1) → (pcfgs (F := F) p).Adm := fun _ => ⟨tabs m ρ, trivial⟩

/-- The pipeline at them. -/
abbrev cfgA : Pipeline.Cfg sig Λ₀ := Pipeline.pin (pcfgs (F := F)) (adm m ρ) 0

/-! ## The proof data -/

/-- The index words the body reads are rows of the tables it copies from: what the certificate's precondition
    says of the reshaped index arrays. -/
structure Ranges : Prop where
  user : ∀ (c : Dev nD) r j, (tU.view.readAt (Elt F) r (V m ρ c main_v0) j).toNat < 100000
  item : ∀ (c : Dev nD) r j, (tI.view.readAt (Elt F) r (V m ρ c main_v1) j).toNat < 100001

variable (hR : Ranges m ρ)

/-- The weights' column as the call finds it: what its window stages at every row. -/
def wblk (c : Dev nD) (t : Fin (cfgA m ρ).N) : (((cfgA m ρ).win 0).xblock ((cfgA m ρ).grid.coords t)).Idx → Elt F ((cfgA m ρ).win 0).elt :=
  (((cfgA m ρ).win 0).blk t).view.read (Elt F) (V m ρ c (Pipeline.arrRef spec0 0))

/-- The staging buffers of the two windows at row `t`, as the pipeline passes them. -/
abbrev ms0 (t : Fin (cfgA m ρ).N) : Memref sig .tc .vmem S20x1 .f32 := spec0_0.stage ((cfgA m ρ).slots t 0)
abbrev hs0 (t : Fin (cfgA m ρ).N) : (ms0 m ρ t).IsWhole := hstage0_0 (((cfgA m ρ).slots t 0).cast nbuf0_0)
abbrev ms1 (t : Fin (cfgA m ρ).N) : Memref sig .tc .vmem S1x210x64 .f32 := spec0_1.stage ((cfgA m ρ).slots t 1)
abbrev hs1 (t : Fin (cfgA m ρ).N) : (ms1 m ρ t).IsWhole := hstage0_1 (((cfgA m ρ).slots t 1).cast nbuf0_1)

/-- The pieces the body's run leaves in the output's buffer at row `t`. -/
abbrev runAt (c : Dev nD) (t : Fin (cfgA m ρ).N) :=
  kernelRun (F := F) c (grid0.coords t) (ms0 m ρ t) (hs0 m ρ t) (ms1 m ρ t) (hs1 m ρ t) (wblk m ρ c t)
    (V m ρ c main_v0) (V m ρ c main_v1) (V m ρ c main_arg2) (V m ρ c main_arg3) (hR.user c) (hR.item c)

/-- What the output's buffer holds after the body at row `t`: the run's pieces read back over junk. -/
def outBlk (c : Dev nD) (t : Fin (cfgA m ρ).N) : Vec F S1x210x64 .f32 :=
  VO.read (Elt F) (VO.writes (Elt F) VO.junk (runAt m ρ hR c t).1)

/-- The invariant between two rows. -/
def Φc (c : Dev nD) : sProp 𝕄 :=
  iprop((∃ d, owns (c : Thread nD τ) scr fullShare d) ∗ pt c tU (V m ρ c main_v0) ∗ pt c tI (V m ρ c main_v1)
    ∗ pt c eU (V m ρ c main_arg2) ∗ pt c eI (V m ρ c main_arg3) ∗ sems0 c)

/-- The proof data on core `c`: the arrays as the call finds them; after the body the weights' buffer at the
    column and the output's at the run's block; the invariant; nothing owed; full shares. -/
def dats (_ : Fin 1) (c : Dev nD) : Dat τ (Elt F) Unit ℕ (Pipeline.UD sig nD τ) ℕ (cfgA m ρ) c where
  A w := V m ρ c (Pipeline.arrRef spec0 w)
  after w t := match w with
    | ⟨0, _⟩ => wblk m ρ c t
    | ⟨1, _⟩ => outBlk m ρ hR c t
  Φ _ := Φc m ρ c
  q _ := fullShare
  owed _ := 0

theorem A_eq (c : Dev nD) (w : Fin (cfgA m ρ).W) : (dats m ρ hR 0 c).A w = V m ρ c (Pipeline.arrRef spec0 w) := by
  dsimp only [dats]
theorem after_0 (c : Dev nD) (t : Fin (cfgA m ρ).N) : (dats m ρ hR 0 c).after 0 t = wblk m ρ c t := by dsimp only [dats]; rfl
theorem after_1 (c : Dev nD) (t : Fin (cfgA m ρ).N) : (dats m ρ hR 0 c).after 1 t = outBlk m ρ hR c t := by dsimp only [dats]; rfl

/-! ## The item table as read shares -/

/-- What is left of the item table beside the twenty shares the copies read through. -/
def restI (c : Dev nD) (gI : Bf (F := F) c eI) : sProp 𝕄 :=
  iprop((eI.view.loc (c : Thread nD τ) ↦{Transfers.shareDrop fullShare 23} gI) ∗ (eI.view.loc (c : Thread nD τ) ↦{Transfers.shareTokN fullShare 0} gI)
    ∗ (eI.view.loc (c : Thread nD τ) ↦{Transfers.shareTokN fullShare 1} gI) ∗ (eI.view.loc (c : Thread nD τ) ↦{Transfers.shareTokN fullShare 2} gI))

/-- The table held whole is its twenty read shares and the rest: the full share halved again and again. -/
theorem toks_iff (c : Dev nD) (gI : Bf (F := F) c eI) : (pt c eI gI : sProp 𝕄) ⊣⊢ iprop(restI c gI ∗ toksI c gI) := by
  have h := Transfers.pointsTo_toks_range (Ix := Unit) (Name := ℕ) (U := Pipeline.UD sig nD τ) (Lvl := ℕ) (Val := Elt F)
    (ℓ := eI.view.loc (c : Thread nD τ)) (S := Finset.univ) (f := gI) fullShare 23
  have hl : (BI.bigSep (Finset.range 23) (fun i => (eI.view.loc (c : Thread nD τ) ↦{Transfers.shareTokN fullShare i} gI : sProp 𝕄)))
      = iprop((eI.view.loc (c : Thread nD τ) ↦{Transfers.shareTokN fullShare 0} gI) ∗ (eI.view.loc (c : Thread nD τ) ↦{Transfers.shareTokN fullShare 1} gI) ∗ (eI.view.loc (c : Thread nD τ) ↦{Transfers.shareTokN fullShare 2} gI) ∗ (eI.view.loc (c : Thread nD τ) ↦{Transfers.shareTokN fullShare 3} gI) ∗ (eI.view.loc (c : Thread nD τ) ↦{Transfers.shareTokN fullShare 4} gI) ∗ (eI.view.loc (c : Thread nD τ) ↦{Transfers.shareTokN fullShare 5} gI) ∗ (eI.view.loc (c : Thread nD τ) ↦{Transfers.shareTokN fullShare 6} gI) ∗ (eI.view.loc (c : Thread nD τ) ↦{Transfers.shareTokN fullShare 7} gI) ∗ (eI.view.loc (c : Thread nD τ) ↦{Transfers.shareTokN fullShare 8} gI) ∗ (eI.view.loc (c : Thread nD τ) ↦{Transfers.shareTokN fullShare 9} gI) ∗ (eI.view.loc (c : Thread nD τ) ↦{Transfers.shareTokN fullShare 10} gI) ∗ (eI.view.loc (c : Thread nD τ) ↦{Transfers.shareTokN fullShare 11} gI) ∗ (eI.view.loc (c : Thread nD τ) ↦{Transfers.shareTokN fullShare 12} gI) ∗ (eI.view.loc (c : Thread nD τ) ↦{Transfers.shareTokN fullShare 13} gI) ∗ (eI.view.loc (c : Thread nD τ) ↦{Transfers.shareTokN fullShare 14} gI) ∗ (eI.view.loc (c : Thread nD τ) ↦{Transfers.shareTokN fullShare 15} gI) ∗ (eI.view.loc (c : Thread nD τ) ↦{Transfers.shareTokN fullShare 16} gI) ∗ (eI.view.loc (c : Thread nD τ) ↦{Transfers.shareTokN fullShare 17} gI) ∗ (eI.view.loc (c : Thread nD τ) ↦{Transfers.shareTokN fullShare 18} gI) ∗ (eI.view.loc (c : Thread nD τ) ↦{Transfers.shareTokN fullShare 19} gI) ∗ (eI.view.loc (c : Thread nD τ) ↦{Transfers.shareTokN fullShare 20} gI) ∗ (eI.view.loc (c : Thread nD τ) ↦{Transfers.shareTokN fullShare 21} gI) ∗ (eI.view.loc (c : Thread nD τ) ↦{Transfers.shareTokN fullShare 22} gI)) :=
    BI.bigSep_eq_bigSepL_of_eq [0, 1, 2, 3, 4, 5, 6, 7, 8, 9, 10, 11, 12, 13, 14, 15, 16, 17, 18, 19, 20, 21, 22] (by decide) (by decide) _
  rw [hl] at h
  unfold restI toksI pt
  constructor
  · refine h.1.trans ?_
    iintro ⟨Hd, T0, T1, T2, T3, T4, T5, T6, T7, T8, T9, T10, T11, T12, T13, T14, T15, T16, T17, T18, T19, T20, T21, T22⟩
    isplitl [Hd T0 T1 T2]
    · isplitl [Hd]; · iexact Hd
      isplitl [T0]; · iexact T0
      isplitl [T1]; · iexact T1
      iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    iexact T22
  · refine BIBase.Entails.trans ?_ h.2
    iintro ⟨⟨Hd, T0, T1, T2⟩, T3, T4, T5, T6, T7, T8, T9, T10, T11, T12, T13, T14, T15, T16, T17, T18, T19, T20, T21, T22⟩
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    iexact T22

/-! ## The body obligation -/

/-- The weights' window holds its column at every row, fetched there or not. -/
theorem before_0 (c : Dev nD) (t : Fin (cfgA m ρ).N) (d) : (dats m ρ hR 0 c).before 0 t d = wblk m ρ c t :=
  ((dats m ρ hR 0 c).before_in_eq_fetched 0 rfl (fun _ => rfl) (fun _ _ _ => rfl)
    (fun t => by rw [after_0]; unfold Dat.blockOf wblk; rw [A_eq]; try rfl) t d).trans
    (by unfold Dat.fetched Dat.blockOf wblk; rw [A_eq]; try rfl)

/-- The run's one store covers the output's block. -/
theorem run_cover (c : Dev nD) (t : Fin (cfgA m ρ).N) (y : S1x210x64.Idx) : ∃ pc ∈ (runAt m ρ hR c t).1, y ∈ pc.1.set :=
  View.cover_of_tiledL (runAt m ρ hR c t).1 S1x210x64.size (by sl_kernel_rfl) y

/-- At every row: the invariant hands the body its scratch, the tables and its counters; the item table is split into
    the copies' read shares for the run and joined again after it; the output's buffer comes back at the run's block. -/
theorem body_obligation (c : Dev nD) : BodyObligation (dats m ρ hR 0 c) (defs₀ (F := F)) Variants.none () Set.univ := fun t => by
  rw [bigSep_W0, bigSep_W0]
  rw [show (dats m ρ hR 0 c).Φ t.succ = Φc m ρ c from rfl, show (dats m ρ hR 0 c).Φ t.castSucc = Φc m ρ c from rfl, after_0, after_1]
  unfold Φc Dat.owesAt Pipeline.owesWithin
  rw [show (dats m ρ hR 0 c).owed t.castSucc = 0 from rfl, show (dats m ρ hR 0 c).owed t.succ = 0 from rfl]
  unfold outBlk
  iintro ⟨⟨HS, HtU, HtI, HeU, HeI, Hq⟩, ⟨%W, -, HW⟩, ⟨%d0, H0⟩, ⟨%d1, H1⟩⟩
  rw [show (dats m ρ hR 0 c).before (0 : Fin 2) t d0 = wblk m ρ c t from before_0 m ρ hR c t d0]
  ihave HeI' := (toks_iff c (V m ρ c main_arg3)).1 $$ HeI
  icases HeI' with ⟨Hrest, Htoks⟩
  iapply ((runAt m ρ hR c t).2 W _)
  isplitl [H0]; · iexact H0
  isplitl [H1]; · iexists _; iexact H1
  isplitl [HS]; · iexact HS
  isplitl [HtU]; · iexact HtU
  isplitl [HtI]; · iexact HtI
  isplitl [HeU]; · iexact HeU
  isplitl [Htoks]; · iexact Htoks
  isplitl [Hq]; · iexact Hq
  isplitl [HW]; · iexact HW
  iintro ⟨H0, ⟨%e1, H1⟩, HS, HtU, HtI, HeU, Htoks, Hq, ⟨%W', HW'⟩⟩
  isplitl [HS HtU HtI HeU Htoks Hrest Hq]
  · isplitl [HS]; · iexact HS
    isplitl [HtU]; · iexact HtU
    isplitl [HtI]; · iexact HtI
    isplitl [HeU]; · iexact HeU
    isplitl [Htoks Hrest]
    · iapply (toks_iff c (V m ρ c main_arg3)).2
      isplitl [Hrest]; · iexact Hrest
      iexact Htoks
    iexact Hq
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (run_cover m ρ hR c t)

/-! ## The launch: @main as a host stretch, the call, a host stretch -/

/-- The body's own counters, cell by cell: none is a window's. -/
abbrev osem : Fin 21 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 21 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20] (by decide) (by decide)]; rfl

/-- The pipeline library's algebra is the left component of the certificate's. -/
abbrev EP : Emb (UR sig nD τ) (MT nD τ sig Unit (Elt F) ℕ (Pipeline.UD sig nD τ) ℕ) := embL

/-- The launch element: the pipeline library's at the staging cells; no counter yet. -/
def u₀ : Pipeline.UD sig nD τ :=
  (initOf (Pipeline.cells (Pipeline.pin (pcfgs (F := F)) (adm m ρ)) (cellOf_inj (adm m ρ)))
    (Pipeline.launchToks (Pipeline.pin (pcfgs (F := F)) (adm m ρ)) (cellOf_inj (adm m ρ))), 1)

abbrev 𝒱₀ : Variants := Variants.none
abbrev L : GSem nD τ sig → Finset Unit := fun _ => ∅
abbrev lv : GSem nD τ sig → Unit → ℕ := fun _ _ => 0

/-- What rides beside the buffers through the host stretches: the core owing nothing. -/
abbrev R (c : Dev nD) : sProp 𝕄 := iprop(∃ W, owes (c : Thread nD τ) (0 : CellTallies nD τ sig Unit) W)

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The three reshapes before the call, over the unscoped buffers. -/
def seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m ρ) R

/-- The result array after the call, as the library computes it from the proof data. -/
def finalOut (c : Dev nD) : Buf (Elt F) ((c : Thread nD τ).loc main_v3) := (dats m ρ hR 0 c).arrAt 1 (cfgA m ρ).N

/-- The unscoped buffers after the call: as the call found them, the result array at what the call wrote. -/
def W₁ (c : Dev nD) : Valuation τ sig (Elt F) :=
  Function.update (StableHlo.after hostOps0 (V₀ m ρ c)) (Proc.devRef .tc main_v3) (finalOut m ρ hR c)

/-- The reshape after the call, over the unscoped buffers. -/
def seg1 : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W₁ m ρ hR) R

/-- The result array's reference is the call's output window's array; the weights' column is the input's. -/
theorem W₁_out (c : Dev nD) : W₁ m ρ hR c (Proc.devRef .tc main_v3) = finalOut m ρ hR c := by
  unfold W₁; rw [Function.update_self]
theorem W₁_other (c : Dev nD) (b : Ref sig .tc) (hb : b ≠ main_v3) : W₁ m ρ hR c (Proc.devRef .tc b) = V m ρ c b := by
  unfold W₁; rw [Function.update_of_ne (StableHlo.devRef_ne_of_ne hb)]

set_option backward.isDefEq.respectTransparency.types false in
/-- THE CALL: the layout, the body's twenty-one counters, the body obligation; entered from what the first stretch left —
    the two windows' arrays into the pipeline, the two embedding tables and the counters into the invariant beside the
    two index tables, the other buffers bypassing —, left with the result array at what the call wrote and everything
    else as it was. -/
def reg0 : Pipeline.RegionSeg (pcfgs (F := F)) (adm m ρ) (dats m ρ hR) () defs₀ 𝒱₀ L lv 0 where
  win := (launch0 (F := F)).win.to₀
  block_pos := (launch0 (F := F)).block_pos
  stage_whole := (launch0 (F := F)).stage_whole
  K := Fin 21
  osem := osem
  ho := ownSemFacts
  hbody c := (body_obligation m ρ hR c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W₁ m ρ hR c) ∗ R c)
  X c := iprop(pt c eU (V m ρ c main_arg2) ∗ pt c eI (V m ρ c main_arg3) ∗ sems0 c)
  Y c := iprop(pt c tU (V m ρ c main_v0) ∗ pt c tI (V m ρ c main_v1) ∗ pt c eU (V m ρ c main_arg2) ∗ pt c eI (V m ρ c main_arg3))
  Z c := iprop((((c : Thread nD τ).loc main_arg0) ↦{fullShare} V m ρ c main_arg0) ∗ (((c : Thread nD τ).loc main_arg1) ↦{fullShare} V m ρ c main_arg1)
      ∗ (((c : Thread nD τ).loc main_arg4) ↦{fullShare} V m ρ c main_arg4) ∗ (((c : Thread nD τ).loc main_v4) ↦{fullShare} V m ρ c main_v4))
  hentry c := by
    obtain rfl : c = c₀ := Subsingleton.elim _ _
    rw [show StableHlo.held ((c₀ : Dev nD) : Thread nD τ) (Pipeline.ucRefs τ sig) (StableHlo.after hostOps0 (V₀ m ρ c₀)) = unscopedBufs c₀ (V m ρ c₀) from (Pipeline.unscopedBufs_held c₀ _).symm,
      ownSems0_eq]
    have hsplit := (Pipeline.arrays_of_unscopedBufs (pcfgs (F := F)) (adm m ρ) (dats m ρ hR) (launch0 (F := F)).win (launch0 (F := F)).arr_whole c₀
      ((dats m ρ hR 0 c₀).share_full fun _ => rfl) (V m ρ c₀) fun _ => rfl).trans
        (sep_mono .rfl (Entails.of_eq (by rw [Pipeline.unscopedRest_split (launch0 (F := F)).pre c₀ (V m ρ c₀), unscopedRestP0_eq c₀ (V m ρ c₀)])))
    iintro ⟨⟨Hub, HO⟩, Hos, -⟩
    ihave H := hsplit $$ Hub
    icases H with ⟨Ha, Hpf, H0, H1, H2, H3, H4, H7⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H2 H3 Hos]
    · isplitl [H2]; · iexact H2
      isplitl [H3]; · iexact H3
      iexact Hos
    isplitl [H0]; · iexact H0
    isplitl [H1]; · iexact H1
    isplitl [H4]; · iexact H4
    iexact H7
  hin c := by
    obtain rfl : c = c₀ := Subsingleton.elim _ _
    rw [show (dats m ρ hR 0 c₀).Φ 0 = Φc m ρ c₀ from rfl, scopedRest0_eq]; unfold Φc Pipeline.prefHeld
    rw [bigSep_W0]
    simp only [owns_whole]
    iintro ⟨⟨HeU, HeI, Hq⟩, ⟨HtU, HtI⟩, Hs⟩
    isplitl [Hs]; · iexact Hs
    isplitl [HtU]; · iexact HtU
    isplitl [HtI]; · iexact HtI
    isplitl [HeU]; · iexact HeU
    isplitl [HeI]; · iexact HeI
    iexact Hq
  hout c := by
    rw [ownSems0_eq, show (dats m ρ hR 0 c).Φ (Fin.last _) = Φc m ρ c from rfl, scopedRest0_eq]; unfold Φc
    simp only [owns_whole]
    iintro ⟨Hs, HtU, HtI, HeU, HeI, Hq⟩
    isplitl [HtU HtI HeU HeI]
    · isplitl [HtU]; · iexact HtU
      isplitl [HtI]; · iexact HtI
      isplitl [HeU]; · iexact HeU
      iexact HeI
    isplitl [Hq]; · iexact Hq
    iexact Hs
  hexit c := by
    obtain rfl : c = c₀ := Subsingleton.elim _ _
    rw [show StableHlo.held ((c₀ : Dev nD) : Thread nD τ) (Pipeline.ucRefs τ sig) (W₁ m ρ hR c₀) = unscopedBufs c₀ (fun b => W₁ m ρ hR c₀ b) from (Pipeline.unscopedBufs_held c₀ _).symm]
    have hjoin := Pipeline.unscopedBufs_of_arrays (pcfgs (F := F)) (adm m ρ) (launch0 (F := F)).win (launch0 (F := F)).arr_whole c₀ (dats m ρ hR)
      ((dats m ρ hR 0 c₀).share_full fun _ => rfl) (V m ρ c₀) (fun b => W₁ m ρ hR c₀ b) (fun w => (dats m ρ hR 0 c₀).arrAt w (cfgA m ρ).N)
      (fun w => match w with
        | ⟨0, _⟩ => ((dats m ρ hR 0 c₀).arrAt_in 0 rfl _).trans ((A_eq m ρ hR c₀ 0).trans (W₁_other m ρ hR c₀ main_v2 (by decide)).symm)
        | ⟨1, _⟩ => (W₁_out m ρ hR c₀).symm)
      (fun b hb => W₁_other m ρ hR c₀ b fun h => hb (Finset.mem_image.mpr ⟨1, Finset.mem_univ _, h.symm⟩))
    iintro ⟨Ha, HO, ⟨HtU, HtI, HeU, HeI⟩, ⟨H0, H1, H4, H7⟩⟩
    imodintro
    isplitr [HO]
    · iapply hjoin
      isplitl [Ha]; · iexact Ha
      rw [Pipeline.unscopedRest_split (launch0 (F := F)).pre c₀ (V m ρ c₀), unscopedRestP0_eq c₀ (V m ρ c₀)]; unfold Pipeline.prefHeld
      rw [bigSep_W0]
      isplitl [HtU HtI]
      · isplitl [HtU]; · iexact HtU
        iexact HtI
      isplitl [H0]; · iexact H0
      isplitl [H1]; · iexact H1
      isplitl [HeU]; · iexact HeU
      isplitl [HeI]; · iexact HeI
      isplitl [H4]; · iexact H4
      iexact H7
    · unfold Pipeline.Dat.owesAt Pipeline.owesWithin
      icases HO with ⟨%W, -, HO⟩; iexists W; iexact HO

/-- @main as the list of the three. -/
abbrev segs : List (Pipeline.Seg (pcfgs (F := F)) (adm m ρ) (dats m ρ hR) () defs₀ 𝒱₀ L lv) :=
  [.host (seg0 m ρ), .region (reg0 m ρ hR), .host (seg1 m ρ hR)]

/-- What the run ends with: every unscoped buffer at what the last stretch left. -/
def QC : PUnit × MemSt nD τ sig (Elt F) → Prop := fun r =>
  ∀ c : Dev nD, ∀ b ∈ Pipeline.ucRefs τ sig, r.2.mem (((c : Dev nD) : Thread nD τ).1, b) = StableHlo.after hostOps1 (W₁ m ρ hR c) b

set_option backward.isDefEq.respectTransparency.types false in
/-- At the compiled mesh, from any memory with zero counters whose index arrays name rows of the tables: every weakly
    fair execution of @main terminates, nothing faulting, and ends with every unscoped buffer at what the reshapes and
    the call leave there. -/
theorem run_main : θ_run defs (onTc (τ := τ) (main (F := F))) (s₀ m ρ) (QC m ρ hR) :=
  Pipeline.θ_run_regions_kit (pcfgs (F := F)) (adm m ρ) (dats m ρ hR) () (cellOf_inj (adm m ρ)) EP defs₀ 𝒱₀ L lv m ρ main (segs m ρ hR)
    (fun c Q => by rw [main_segs (adm m ρ) (dats m ρ hR) () 𝒱₀ L lv (seg0 m ρ) (seg1 m ρ hR) (reg0 m ρ hR) rfl rfl c])
    (by simp only [Pipeline.Seg.pipes_host, Pipeline.Seg.pipes_region, Pipeline.Seg.pipes_nil]; decide) (O₀ := 0) (hL := fun _ _ => rfl)
    (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (W₁ m ρ hR c)))
    (hch := ⟨fun _ => .rfl, fun _ => .rfl, fun x => Entails.of_eq (by dsimp only [Pipeline.Seg.post, Pipeline.Seg.pre, reg0, seg1, Pipeline.HostSeg.ofOps]), fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Dev nD) : Thread nD τ).1, b) = StableHlo.after hostOps1 (W₁ m ρ hR c) b)
    (hfin := fun c s' => by
      unfold StableHlo.held
      iintro ⟨Hh, HSI⟩
      ihave Hr := (pointsTo_read_all (Pipeline.ucRefs τ sig) (fun b => (((c : Dev nD) : Thread nD τ).1, b))
        (fun b => StableHlo.after hostOps1 (W₁ m ρ hR c) b) s') $$ [Hh HSI]
      · isplitl [Hh] <;> iassumption
      icases Hr with ⟨%h, HSI⟩
      imodintro
      isplitr; · ipureintro; exact h
      iexact HSI)
    (hQ := fun _ h => h)

end Cert.Kernel.Hand

end
-- ==== Proof.K.Frame.lean ====
/-
  The kernel program's frame: what its arguments hold at the end, and the index ranges its run assumes.

  @main is three reshapes, the pipelined call, and one reshape.  None of the four reshapes and nothing in the call
  writes an argument's buffer, so each of the five arguments ends at what it held at launch.  The two index tables
  the call reads are reshapes of the user and history index arrays: every word of a table is a word of its array, so
  bounds on the arrays' words are the bounds the run assumes of the tables' words.
-/
import proofs.«429411_j5592047419689_3_alg».proof.Proof.K.Launch

set_option maxRecDepth 16384

noncomputable section

namespace Cert.Kernel.Hand

open Cert.Kernel Cert.Kernel.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-! ## The buffers at the call's entry

The three reshaped buffers read their argument at the index with the same row-major position; an argument's buffer
is as at launch. -/

/-- The user index table is the user index array, flattened. -/
theorem V_main_v0 (c : Dev nD) :
    V m ρ c main_v0 = fun i => m ((c.tc : Thread nD τ).loc main_arg0) (Shape.reshapeEquiv shapeCasts_S4096x1_S4096 i) := by
  dsimp only [V]
  after_results
  rfl

/-- The history index table is the history index array, flattened. -/
theorem V_main_v1 (c : Dev nD) :
    V m ρ c main_v1 = fun i => m ((c.tc : Thread nD τ).loc main_arg1) (Shape.reshapeEquiv shapeCasts_S4096x20_S81920 i) := by
  dsimp only [V]
  after_results
  rfl

/-- The weights' column is the weights' vector, as a column. -/
theorem V_main_v2 (c : Dev nD) :
    V m ρ c main_v2 = fun i => m ((c.tc : Thread nD τ).loc main_arg4) (Shape.reshapeEquiv shapeCasts_S20_S20x1 i) := by
  dsimp only [V]
  after_results
  rfl

/-- The two embedding tables are as at launch. -/
theorem V_main_arg2 (c : Dev nD) : V m ρ c main_arg2 = m ((c.tc : Thread nD τ).loc main_arg2) := by
  dsimp only [V]
  after_results
theorem V_main_arg3 (c : Dev nD) : V m ρ c main_arg3 = m ((c.tc : Thread nD τ).loc main_arg3) := by
  dsimp only [V]
  after_results

/-! ## The arguments at the end -/

/-- No reshape writes an argument and the call writes only its result array: the five arguments end as they were. -/
theorem final_args (hR : Ranges m ρ) (c : Dev nD) :
    StableHlo.after hostOps1 (W₁ m ρ hR c) (Proc.devRef .tc main_arg0) = m ((c.tc : Thread nD τ).loc main_arg0)
    ∧ StableHlo.after hostOps1 (W₁ m ρ hR c) (Proc.devRef .tc main_arg1) = m ((c.tc : Thread nD τ).loc main_arg1)
    ∧ StableHlo.after hostOps1 (W₁ m ρ hR c) (Proc.devRef .tc main_arg2) = m ((c.tc : Thread nD τ).loc main_arg2)
    ∧ StableHlo.after hostOps1 (W₁ m ρ hR c) (Proc.devRef .tc main_arg3) = m ((c.tc : Thread nD τ).loc main_arg3)
    ∧ StableHlo.after hostOps1 (W₁ m ρ hR c) (Proc.devRef .tc main_arg4) = m ((c.tc : Thread nD τ).loc main_arg4) := by
  refine ⟨?_, ?_, ?_, ?_, ?_⟩
  · after_results
    rw [W₁_other m ρ hR c main_arg0 (by decide)]
    dsimp only [V]
    after_results
  · after_results
    rw [W₁_other m ρ hR c main_arg1 (by decide)]
    dsimp only [V]
    after_results
  · after_results
    rw [W₁_other m ρ hR c main_arg2 (by decide)]
    dsimp only [V]
    after_results
  · after_results
    rw [W₁_other m ρ hR c main_arg3 (by decide)]
    dsimp only [V]
    after_results
  · after_results
    rw [W₁_other m ρ hR c main_arg4 (by decide)]
    dsimp only [V]
    after_results

/-! ## The index ranges -/

/-- Bounds on the words of the two index arrays are the bounds the run assumes of the words it reads through the
    two index tables: a table is its array reshaped, and a load through the table's whole buffer reads one of its
    words. -/
theorem ranges_of_bounds
    (hU : ∀ (c : Dev nD) i, ((m ((c.tc : Thread nD τ).loc main_arg0)) i).toNat < 100000)
    (hI : ∀ (c : Dev nD) i, ((m ((c.tc : Thread nD τ).loc main_arg1)) i).toNat < 100001) : Ranges m ρ where
  user c r j := by
    rw [V_main_v0]
    exact hU c _
  item c r j := by
    rw [V_main_v1]
    exact hI c _

end Cert.Kernel.Hand

end
-- ==== Proof.KI.Rows.lean ====
/-
  Rows of a buffer filled one by one, held apart, and joined back into the whole buffer.

  A 21×64 scratch receives twenty-one row copies, row `k` through the rectangle "row `k`, all 64 columns". While
  the copies are in flight the rows written first (rows 0…4) are held APART from the rest of the buffer, each at
  the contents the buffer had when its own copy was issued: the prior contents `fs` with the pieces of rows
  `k, k-1, …, 0` written over them. The rest of the buffer is held at the contents after all twenty-one pieces.

  Two facts join them back. (1) A write through a rectangle changes only the elements under that rectangle, so at
  an element of row `k` the pieces of the rows `j ≠ k` written later change nothing: on row `k`, "pieces `k…0`
  written" and "pieces `20…0` written" are the same contents, and a points-to only looks at its own elements.
  (2) Distinct rows are disjoint (they differ in the first coordinate) and each lies inside the buffer, so row `k`
  lies inside the buffer minus the rows carved out before it, and a subset carved out of a set of elements joins
  back into it when both are held at one valuation. The rows go back in the reverse of the order they were
  carved in: row 4 first, row 0 last.
-/
import proofs.«429411_j5592047419689_3_alg».proof.Proof.Gen.KernelIdeal.Launch
import Idealize.ShloMosaic.Lib.Tactic
import Idealize.ShloMosaic.Lib.Pipeline.FrameBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## Writes through rectangles apart from a rectangle leave it alone -/

section General
variable {nD' : Nat} {τ' : Topo} {sig' : RefSig} {Ix : Type} [DecidableEq Ix]
variable {Val : EltTy → Type} {Name : Type} [DecidableEq Name]
variable {U : Type} [URA U] {Lvl : Type}

/-- At an element under the rectangle `r`, writes through rectangles disjoint from `r` change nothing: the
    contents after the writes `L' ++ L` (those of `L'` the later ones) are the contents after `L`. By induction
    on `L'`: its head piece writes only under its own rectangle, and a view places distinct indices at distinct
    elements, so the element is not one the head writes. -/
theorem writes_append_apply_of_disjoint {κ : Kind} {sp : Space} {s : Shape} {e : EltTy}
    (v : View sig' κ sp s e) (f : v.ty.Contents Val) (r : Rect s) (L : List (View.Piece Val s e)) :
    ∀ L' : List (View.Piece Val s e), (∀ p ∈ L', Disjoint p.1.set r.set) →
      ∀ i ∈ (v.slice r).set, v.writes Val f (L' ++ L) i = v.writes Val f L i
  | [], _, _, _ => rfl
  | p :: L', h, i, hi => by
    rw [List.cons_append, View.writes_cons, View.write_of_not_mem _ _ _ ?_,
      writes_append_apply_of_disjoint v f r L L' (fun p' hp' => h p' (List.mem_cons_of_mem _ hp')) i hi]
    rw [View.setOn_univ, View.set_slice]
    rw [View.set_slice] at hi
    intro hm
    obtain ⟨y, hy, rfl⟩ := Finset.mem_map.mp hi
    obtain ⟨y', hy', e'⟩ := Finset.mem_map.mp hm
    obtain rfl := v.emb.injective e'
    exact Finset.disjoint_left.mp (h p List.mem_cons_self) hy' hy

/-- So the elements under `r`, held at the contents after `L`, are held at the contents after `L' ++ L`. -/
theorem pointsTo_slice_writes_append (c : Thread nD' τ') {sp : Space} {s : Shape} {e : EltTy}
    (v : View sig' c.2.kind sp s e) (q : PosShare TreeShare) (f : Buf Val (v.loc c)) (r : Rect s)
    (L' L : List (View.Piece Val s e)) (h : ∀ p ∈ L', Disjoint p.1.set r.set) :
    (v.loc c ↦[(v.slice r).set]{q} v.writes Val f L : sProp (MT nD' τ' sig' Ix Val Name U Lvl))
      = v.loc c ↦[(v.slice r).set]{q} v.writes Val f (L' ++ L) :=
  pointsTo_congr fun i hi => (writes_append_apply_of_disjoint v f r L L' h i hi).symm

/-- Disjoint rectangles of a view's shape lie over disjoint elements of its buffer. -/
theorem slice_set_disjoint {κ : Kind} {sp : Space} {s : Shape} {e : EltTy} (v : View sig' κ sp s e) {r r' : Rect s}
    (h : Disjoint r.set r'.set) : Disjoint (v.slice r).set (v.slice r').set := by
  rw [View.set_slice, View.set_slice]
  exact (Finset.disjoint_map _).mpr h

/-- Five element sets carved one after the other out of `S`, and what is left, all at one valuation, are `S` at
    it: the last carved goes back first. -/
theorem pointsTo_join5 {ℓ : Loc nD' τ' sig'} {S r0 r1 r2 r3 r4 : Finset (Idx ℓ)} {q : PosShare TreeShare} {f : Buf Val ℓ}
    (h0 : r0 ⊆ S) (h1 : r1 ⊆ S \ r0) (h2 : r2 ⊆ (S \ r0) \ r1) (h3 : r3 ⊆ ((S \ r0) \ r1) \ r2)
    (h4 : r4 ⊆ (((S \ r0) \ r1) \ r2) \ r3) :
    iprop((ℓ ↦[r0]{q} f) ∗ (ℓ ↦[r1]{q} f) ∗ (ℓ ↦[r2]{q} f) ∗ (ℓ ↦[r3]{q} f) ∗ (ℓ ↦[r4]{q} f)
        ∗ (ℓ ↦[((((S \ r0) \ r1) \ r2) \ r3) \ r4]{q} f))
      ⊢ (ℓ ↦[S]{q} f : sProp (MT nD' τ' sig' Ix Val Name U Lvl)) := by
  iintro ⟨H0, H1, H2, H3, H4, HS⟩
  ihave HS := (pointsTo_split_subset (q := q) (f := f) h4).2 $$ [H4 HS]
  · isplitl [H4]; · iexact H4
    iexact HS
  ihave HS := (pointsTo_split_subset (q := q) (f := f) h3).2 $$ [H3 HS]
  · isplitl [H3]; · iexact H3
    iexact HS
  ihave HS := (pointsTo_split_subset (q := q) (f := f) h2).2 $$ [H2 HS]
  · isplitl [H2]; · iexact H2
    iexact HS
  ihave HS := (pointsTo_split_subset (q := q) (f := f) h1).2 $$ [H1 HS]
  · isplitl [H1]; · iexact H1
    iexact HS
  ihave HS := (pointsTo_split_subset (q := q) (f := f) h0).2 $$ [H0 HS]
  · isplitl [H0]; · iexact H0
    iexact HS
  iexact HS

end General

section General5
variable {nD' : Nat} {τ' : Topo} {sig' : RefSig} {Ix : Type} [DecidableEq Ix]
variable {Val : EltTy → Type} {Name : Type} [DecidableEq Name]
variable {U : Type} [URA U] {Lvl : Type}

/-- Five pairwise disjoint rectangles of a view, each held apart at the contents after the writes made up to
    its own (`Lk`), and the view's other elements held at the contents after all the writes (`Lf`), where the
    writes after `Lk` (`Lk'`, so that `Lk' ++ Lk = Lf`) go through rectangles disjoint from the `k`-th: the whole
    view is held at the contents after all the writes. Each rectangle is first restated at `Lf` (the later writes
    do not touch it), then put back into the set it was carved from — the last carved first —, which it lies in
    because it lies in the view and is disjoint from the rectangles carved before it. -/
theorem pointsTo_join_rows5 (c : Thread nD' τ') {sp : Space} {s : Shape} {e : EltTy}
    (v : View sig' c.2.kind sp s e) (q : PosShare TreeShare) (f : Buf Val (v.loc c))
    (r0 r1 r2 r3 r4 : Rect s) (L0 L1 L2 L3 L4 L0' L1' L2' L3' L4' Lf : List (View.Piece Val s e))
    (e0 : L0' ++ L0 = Lf) (e1 : L1' ++ L1 = Lf) (e2 : L2' ++ L2 = Lf) (e3 : L3' ++ L3 = Lf) (e4 : L4' ++ L4 = Lf)
    (a0 : ∀ p ∈ L0', Disjoint p.1.set r0.set) (a1 : ∀ p ∈ L1', Disjoint p.1.set r1.set)
    (a2 : ∀ p ∈ L2', Disjoint p.1.set r2.set) (a3 : ∀ p ∈ L3', Disjoint p.1.set r3.set)
    (a4 : ∀ p ∈ L4', Disjoint p.1.set r4.set)
    (d10 : Disjoint r1.set r0.set)
    (d20 : Disjoint r2.set r0.set) (d21 : Disjoint r2.set r1.set)
    (d30 : Disjoint r3.set r0.set) (d31 : Disjoint r3.set r1.set) (d32 : Disjoint r3.set r2.set)
    (d40 : Disjoint r4.set r0.set) (d41 : Disjoint r4.set r1.set) (d42 : Disjoint r4.set r2.set)
    (d43 : Disjoint r4.set r3.set) :
    iprop((v.loc c ↦[(v.slice r0).set]{q} v.writes Val f L0)
        ∗ (v.loc c ↦[(v.slice r1).set]{q} v.writes Val f L1)
        ∗ (v.loc c ↦[(v.slice r2).set]{q} v.writes Val f L2)
        ∗ (v.loc c ↦[(v.slice r3).set]{q} v.writes Val f L3)
        ∗ (v.loc c ↦[(v.slice r4).set]{q} v.writes Val f L4)
        ∗ (v.loc c ↦[((((v.set \ (v.slice r0).set) \ (v.slice r1).set) \ (v.slice r2).set) \ (v.slice r3).set)
              \ (v.slice r4).set]{q} v.writes Val f Lf))
      ⊢ (v.loc c ↦[v.set]{q} v.writes Val f Lf : sProp (MT nD' τ' sig' Ix Val Name U Lvl)) := by
  rw [pointsTo_slice_writes_append c v q f r0 L0' L0 a0, e0, pointsTo_slice_writes_append c v q f r1 L1' L1 a1, e1,
    pointsTo_slice_writes_append c v q f r2 L2' L2 a2, e2, pointsTo_slice_writes_append c v q f r3 L3' L3 a3, e3,
    pointsTo_slice_writes_append c v q f r4 L4' L4 a4, e4]
  have s0 := v.set_slice_subset r0
  have s1 := v.set_slice_subset r1
  have s2 := v.set_slice_subset r2
  have s3 := v.set_slice_subset r3
  have s4 := v.set_slice_subset r4
  exact pointsTo_join5 s0
    (Finset.subset_sdiff.mpr ⟨s1, slice_set_disjoint v d10⟩)
    (Finset.subset_sdiff.mpr ⟨Finset.subset_sdiff.mpr ⟨s2, slice_set_disjoint v d20⟩, slice_set_disjoint v d21⟩)
    (Finset.subset_sdiff.mpr ⟨Finset.subset_sdiff.mpr ⟨Finset.subset_sdiff.mpr ⟨s3, slice_set_disjoint v d30⟩,
      slice_set_disjoint v d31⟩, slice_set_disjoint v d32⟩)
    (Finset.subset_sdiff.mpr ⟨Finset.subset_sdiff.mpr ⟨Finset.subset_sdiff.mpr ⟨Finset.subset_sdiff.mpr
      ⟨s4, slice_set_disjoint v d40⟩, slice_set_disjoint v d41⟩, slice_set_disjoint v d42⟩, slice_set_disjoint v d43⟩)

end General5

/-! ## The 21-row scratch -/

/-- The scratch, as the body is handed it. -/
abbrev scrM : Memref sig .tc .vmem S21x64 .f32 := Memref.whole cc0_scratch0

open Lean in
/-- Row `k` of the scratch as a rectangle: one row, all 64 columns. -/
local macro "row%" k:num : term =>
  `(Rect.unit (s := S21x64) ![$k, 0] S1x64.size
      $(mkIdent (Name.mkStr `Cert.KernelIdeal.Gen s!"inb_S21x64_S1x64_{k.getNat}_0")))

/-- The scratch's elements under row `k`. -/
local macro "rset%" k:num : term => `((scrM.slice (row% $k) (fun _ => rfl)).view.set)

/-- A piece's rectangle is disjoint from `r'` when the rectangle it was built from is. -/
theorem piece_apart {Val : EltTy → Type} {s : Shape} {e : EltTy} (r r' : Rect s) (w : r.shape.Idx → Val e)
    (h : Disjoint r.set r'.set) : Disjoint (Sigma.fst (⟨r, w⟩ : View.Piece Val s e)).set r'.set := h

/-- Each listed piece is a row other than the one named: the two rows differ in their first coordinate. -/
local macro "rows_apart" : tactic =>
  `(tactic| ((repeat (refine List.forall_mem_cons.mpr ⟨piece_apart _ _ _ (Rect.unit_disjoint (0 : Fin 2) (by decide)), ?_⟩));
             exact fun _ h => absurd h List.not_mem_nil))

/-- The scratch after its twenty-one row copies: rows 0…4 held apart, row `k` at the contents after the pieces of
    rows `k…0`, and the other elements at the contents after all twenty-one pieces (row 20's written last), are
    the whole scratch at the contents after all twenty-one. The payloads `p0 … p20` are arbitrary. -/
theorem join_rows (c : Dev nD) (fs : Buf (Elt F) (scrM.view.loc (c : Thread nD τ)))
    (p0 p1 p2 p3 p4 p5 p6 p7 p8 p9 p10 p11 p12 p13 p14 p15 p16 p17 p18 p19 p20 : S1x64.Idx → Elt F .f32) :
    iprop((scrM.view.loc (c : Thread nD τ) ↦[rset% 0]{fullShare} scrM.view.writes (Elt F) fs [⟨row% 0, p0⟩])
        ∗ (scrM.view.loc (c : Thread nD τ) ↦[rset% 1]{fullShare} scrM.view.writes (Elt F) fs [⟨row% 1, p1⟩, ⟨row% 0, p0⟩])
        ∗ (scrM.view.loc (c : Thread nD τ) ↦[rset% 2]{fullShare}
            scrM.view.writes (Elt F) fs [⟨row% 2, p2⟩, ⟨row% 1, p1⟩, ⟨row% 0, p0⟩])
        ∗ (scrM.view.loc (c : Thread nD τ) ↦[rset% 3]{fullShare}
            scrM.view.writes (Elt F) fs [⟨row% 3, p3⟩, ⟨row% 2, p2⟩, ⟨row% 1, p1⟩, ⟨row% 0, p0⟩])
        ∗ (scrM.view.loc (c : Thread nD τ) ↦[rset% 4]{fullShare}
            scrM.view.writes (Elt F) fs [⟨row% 4, p4⟩, ⟨row% 3, p3⟩, ⟨row% 2, p2⟩, ⟨row% 1, p1⟩, ⟨row% 0, p0⟩])
        ∗ (scrM.view.loc (c : Thread nD τ) ↦[((((scrM.view.set \ rset% 0) \ rset% 1) \ rset% 2) \ rset% 3) \ rset% 4]{fullShare}
            scrM.view.writes (Elt F) fs
              [⟨row% 20, p20⟩, ⟨row% 19, p19⟩, ⟨row% 18, p18⟩, ⟨row% 17, p17⟩, ⟨row% 16, p16⟩, ⟨row% 15, p15⟩,
               ⟨row% 14, p14⟩, ⟨row% 13, p13⟩, ⟨row% 12, p12⟩, ⟨row% 11, p11⟩, ⟨row% 10, p10⟩, ⟨row% 9, p9⟩,
               ⟨row% 8, p8⟩, ⟨row% 7, p7⟩, ⟨row% 6, p6⟩, ⟨row% 5, p5⟩, ⟨row% 4, p4⟩, ⟨row% 3, p3⟩, ⟨row% 2, p2⟩,
               ⟨row% 1, p1⟩, ⟨row% 0, p0⟩]))
      ⊢ (scrM.view.loc (c : Thread nD τ) ↦[scrM.view.set]{fullShare}
          scrM.view.writes (Elt F) fs
            [⟨row% 20, p20⟩, ⟨row% 19, p19⟩, ⟨row% 18, p18⟩, ⟨row% 17, p17⟩, ⟨row% 16, p16⟩, ⟨row% 15, p15⟩,
             ⟨row% 14, p14⟩, ⟨row% 13, p13⟩, ⟨row% 12, p12⟩, ⟨row% 11, p11⟩, ⟨row% 10, p10⟩, ⟨row% 9, p9⟩,
             ⟨row% 8, p8⟩, ⟨row% 7, p7⟩, ⟨row% 6, p6⟩, ⟨row% 5, p5⟩, ⟨row% 4, p4⟩, ⟨row% 3, p3⟩, ⟨row% 2, p2⟩,
             ⟨row% 1, p1⟩, ⟨row% 0, p0⟩] : sProp 𝕄) :=
  pointsTo_join_rows5 (c : Thread nD τ) scrM.view fullShare fs (row% 0) (row% 1) (row% 2) (row% 3) (row% 4)
    [⟨row% 0, p0⟩]
    [⟨row% 1, p1⟩, ⟨row% 0, p0⟩]
    [⟨row% 2, p2⟩, ⟨row% 1, p1⟩, ⟨row% 0, p0⟩]
    [⟨row% 3, p3⟩, ⟨row% 2, p2⟩, ⟨row% 1, p1⟩, ⟨row% 0, p0⟩]
    [⟨row% 4, p4⟩, ⟨row% 3, p3⟩, ⟨row% 2, p2⟩, ⟨row% 1, p1⟩, ⟨row% 0, p0⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩, ⟨row% 1, p1⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩]
    [⟨row% 20, p20⟩, ⟨row% 19, p19⟩, ⟨row% 18, p18⟩, ⟨row% 17, p17⟩, ⟨row% 16, p16⟩, ⟨row% 15, p15⟩,
     ⟨row% 14, p14⟩, ⟨row% 13, p13⟩, ⟨row% 12, p12⟩, ⟨row% 11, p11⟩, ⟨row% 10, p10⟩, ⟨row% 9, p9⟩,
     ⟨row% 8, p8⟩, ⟨row% 7, p7⟩, ⟨row% 6, p6⟩, ⟨row% 5, p5⟩, ⟨row% 4, p4⟩, ⟨row% 3, p3⟩, ⟨row% 2, p2⟩,
     ⟨row% 1, p1⟩, ⟨row% 0, p0⟩]
    rfl rfl rfl rfl rfl
    (by rows_apart) (by rows_apart) (by rows_apart) (by rows_apart) (by rows_apart)
    (Rect.unit_disjoint (0 : Fin 2) (by decide))
    (Rect.unit_disjoint (0 : Fin 2) (by decide)) (Rect.unit_disjoint (0 : Fin 2) (by decide))
    (Rect.unit_disjoint (0 : Fin 2) (by decide)) (Rect.unit_disjoint (0 : Fin 2) (by decide))
    (Rect.unit_disjoint (0 : Fin 2) (by decide))
    (Rect.unit_disjoint (0 : Fin 2) (by decide)) (Rect.unit_disjoint (0 : Fin 2) (by decide))
    (Rect.unit_disjoint (0 : Fin 2) (by decide)) (Rect.unit_disjoint (0 : Fin 2) (by decide))

end Cert.KernelIdeal.Hand

end
-- ==== Proof.KI.Body.lean ====
/-
  The kernel body of one grid point, run once at symbolic contents.

  At point `i` the body reads the user index `u = users[i]` and the twenty item indices
  `k_n = items[20 i + n]` from the two index tables, copies row `k_n` of the item table into row `n` of a
  21-row scratch and row `u` of the user table into row 20, each copy on a semaphore of its own, waits for
  all twenty-one, and then stores into the output block the twenty rows `user ⊙ (w_n · item_n)` followed by the
  190 products `(w_a · item_a) ⊙ (w_b · item_b)`, `a < b`.  Each copy needs its source row inside its table:
  that is what the bounds `hU` (user indices below 100000) and `hI` (item indices below 100001) give.
-/
import proofs.«429411_j5592047419689_3_alg».proof.Proof.Gen.KernelIdeal.Launch
import proofs.«429411_j5592047419689_3_alg».proof.Proof.Gen.KernelIdeal.Skeleton
import proofs.«429411_j5592047419689_3_alg».proof.Proof.KI.Rows
import Idealize.ShloMosaic.Lib.Pipeline.FrameBody
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Facts₀ Facts

local notation "𝕄" => MT nD τ sig Unit (Elt F) ℕ (Pipeline.UD sig nD τ) ℕ

/-- A whole buffer's contents on core `c`, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The two index tables, the two embedding tables and the scratch, as the body table passes them. -/
abbrev tU : Memref sig .tc .smem S4096 .i32 := Memref.whole main_v0
abbrev tI : Memref sig .tc .smem S81920 .i32 := Memref.whole main_v1
abbrev eU : Memref sig .tc .hbm S100000x64 .f32 := Memref.whole main_arg2
abbrev eI : Memref sig .tc .hbm S100001x64 .f32 := Memref.whole main_arg3
abbrev scr : Memref sig .tc .vmem S21x64 .f32 := Memref.whole cc0_scratch0

/-- One staging buffer of the output's window, through which the block the body leaves is stated (any whole memref of
    the block's shape reads the same). -/
abbrev VO : View sig .tc .vmem S1x210x64 .f32 := (Memref.whole cc0_stg1_0 : Memref sig .tc .vmem S1x210x64 .f32).view

/-- A source row inside the item table: every range condition the body assumes of an item index is this one
    statement (row + 1 ≤ 100001, and the 64 columns fit), whatever name the printed program gives it. -/
theorem chk_item {v : BitVec 32} (h : v.toNat < 100001) (P : Prop)
    (hP : P = ((∀ a, (![v.toNat, 0] : Fin 2 → Nat) a + S1x64.size a ≤ S100001x64.size a) ∧
               (∀ a, (![v.toNat, 0] : Fin 2 → Nat) a + S1x64.size a ≤ S100001x64.size a))) : P := by
  subst hP
  have key : ∀ a, (![v.toNat, 0] : Fin 2 → Nat) a + S1x64.size a ≤ S100001x64.size a := fun a => by
    fin_cases a
    · show v.toNat + 1 ≤ 100001; omega
    · show 0 + 64 ≤ 64; omega
  exact ⟨key, key⟩

/-- Likewise a source row inside the user table. -/
theorem chk_user {v : BitVec 32} (h : v.toNat < 100000) (P : Prop)
    (hP : P = (∀ a, (![v.toNat, 0] : Fin 2 → Nat) a + S1x64.size a ≤ S100000x64.size a)) : P := by
  subst hP
  intro a
  fin_cases a
  · show v.toNat + 1 ≤ 100000; omega
  · show 0 + 64 ≤ 64; omega

/-- The item table held as one read share per copy that reads it: the twenty copies of a point may read the same
    row (two history slots naming one item), so each takes its row from a share of its own — the one its counter's
    number names. -/
abbrev toksI (c : Dev nD) (gI : Bf (F := F) c eI) : sProp 𝕄 :=
  iprop((eI.view.loc (c : Thread nD τ) ↦{Transfers.shareTokN fullShare 3} gI) ∗ (eI.view.loc (c : Thread nD τ) ↦{Transfers.shareTokN fullShare 4} gI) ∗ (eI.view.loc (c : Thread nD τ) ↦{Transfers.shareTokN fullShare 5} gI) ∗ (eI.view.loc (c : Thread nD τ) ↦{Transfers.shareTokN fullShare 6} gI) ∗ (eI.view.loc (c : Thread nD τ) ↦{Transfers.shareTokN fullShare 7} gI) ∗ (eI.view.loc (c : Thread nD τ) ↦{Transfers.shareTokN fullShare 8} gI) ∗ (eI.view.loc (c : Thread nD τ) ↦{Transfers.shareTokN fullShare 9} gI) ∗ (eI.view.loc (c : Thread nD τ) ↦{Transfers.shareTokN fullShare 10} gI) ∗ (eI.view.loc (c : Thread nD τ) ↦{Transfers.shareTokN fullShare 11} gI) ∗ (eI.view.loc (c : Thread nD τ) ↦{Transfers.shareTokN fullShare 12} gI) ∗ (eI.view.loc (c : Thread nD τ) ↦{Transfers.shareTokN fullShare 13} gI) ∗ (eI.view.loc (c : Thread nD τ) ↦{Transfers.shareTokN fullShare 14} gI) ∗ (eI.view.loc (c : Thread nD τ) ↦{Transfers.shareTokN fullShare 15} gI) ∗ (eI.view.loc (c : Thread nD τ) ↦{Transfers.shareTokN fullShare 16} gI) ∗ (eI.view.loc (c : Thread nD τ) ↦{Transfers.shareTokN fullShare 17} gI) ∗ (eI.view.loc (c : Thread nD τ) ↦{Transfers.shareTokN fullShare 18} gI) ∗ (eI.view.loc (c : Thread nD τ) ↦{Transfers.shareTokN fullShare 19} gI) ∗ (eI.view.loc (c : Thread nD τ) ↦{Transfers.shareTokN fullShare 20} gI) ∗ (eI.view.loc (c : Thread nD τ) ↦{Transfers.shareTokN fullShare 21} gI) ∗ (eI.view.loc (c : Thread nD τ) ↦{Transfers.shareTokN fullShare 22} gI))

/-- The twenty-one counters of the body's own copies, at zero. -/
abbrev sems0 (c : Dev nD) : sProp 𝕄 :=
  iprop(semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0 ∗ semVal ((c : Thread nD τ), SemLoc.dma 12) 0 ∗ semVal ((c : Thread nD τ), SemLoc.dma 13) 0 ∗ semVal ((c : Thread nD τ), SemLoc.dma 14) 0 ∗ semVal ((c : Thread nD τ), SemLoc.dma 15) 0 ∗ semVal ((c : Thread nD τ), SemLoc.dma 16) 0 ∗ semVal ((c : Thread nD τ), SemLoc.dma 17) 0 ∗ semVal ((c : Thread nD τ), SemLoc.dma 18) 0 ∗ semVal ((c : Thread nD τ), SemLoc.dma 19) 0 ∗ semVal ((c : Thread nD τ), SemLoc.dma 20) 0 ∗ semVal ((c : Thread nD τ), SemLoc.dma 21) 0 ∗ semVal ((c : Thread nD τ), SemLoc.dma 22) 0 ∗ semVal ((c : Thread nD τ), SemLoc.dma 23) 0)

set_option sl_exec.dmaWindow true in
set_option sl_exec.dmaWindowSet true in
set_option maxHeartbeats 4000000 in
/-- The body at point `i`: from the weights' block `x5`, the output's staging buffer at anything, the scratch at
    anything, the tables at `fU fI gU gI`, the counters at zero and the core's `owes`, it runs to its return with
    everything but the output's buffer and the scratch as it was, and the output's buffer holding the pieces `L`
    the run finds. -/
noncomputable def kernelRun (c : Dev nD) (i : grid0.Coords)
    (arg5 : Memref sig .tc .vmem S20x1 .f32) (harg5 : arg5.IsWhole) (arg6 : Memref sig .tc .vmem S1x210x64 .f32) (harg6 : arg6.IsWhole)
    (x5 : Vec F S20x1 .f32) (fU : Bf (F := F) c tU) (fI : Bf (F := F) c tI) (gU : Bf (F := F) c eU) (gI : Bf (F := F) c eI)
    (hU : ∀ r j, (tU.view.readAt (Elt F) r fU j).toNat < 100000)
    (hI : ∀ r j, (tI.view.readAt (Elt F) r fI j).toNat < 100001) :
    { L : List (View.Piece (Elt F) S1x210x64 .f32) //
      ∀ (W : Waits sig Unit) (K : PUnit → sProp 𝕄),
        iprop(owns (c : Thread nD τ) arg5 fullShare x5 ∗ (∃ d, owns (c : Thread nD τ) arg6 fullShare d) ∗ (∃ d, owns (c : Thread nD τ) scr fullShare d)
            ∗ pt c tU fU ∗ pt c tI fI ∗ pt c eU gU ∗ toksI c gI ∗ sems0 c ∗ owes (c : Thread nD τ) 0 W
            ∗ (iprop(owns (c : Thread nD τ) arg5 fullShare x5 ∗ (∃ f, arg6.view.loc (c : Thread nD τ) ↦[arg6.view.set]{fullShare} arg6.view.writes (Elt F) f L) ∗ (∃ d, owns (c : Thread nD τ) scr fullShare d)
                ∗ pt c tU fU ∗ pt c tI fI ∗ pt c eU gU ∗ toksI c gI ∗ sems0 c ∗ (∃ W', owes (c : Thread nD τ) 0 W')) -∗ K ⟨⟩))
          ⊢ wp frame (wpE (defs₀ (F := F)) Variants.none c none) Set.univ
              (cc0_kernel i tU (Memref.isWhole_whole _) tI (Memref.isWhole_whole _) eU (Memref.isWhole_whole _) eI (Memref.isWhole_whole _) arg5 harg5 arg6 harg6 scr (Memref.isWhole_whole _) cc0_scratch1) K } := by
  refine ⟨?_, fun W K => ?run⟩
  case run =>
    unfold owns
    iintro ⟨⟨%f5, %hf5, H5⟩, ⟨%d6, %f6, -, H6⟩, ⟨%ds, %fs, -, HS⟩, HtU, HtI, HeU, ⟨HeI3, HeI4, HeI5, HeI6, HeI7, HeI8, HeI9, HeI10, HeI11, HeI12, HeI13, HeI14, HeI15, HeI16, HeI17, HeI18, HeI19, HeI20, HeI21, HeI22⟩, ⟨Hq0, Hq1, Hq2, Hq3, Hq4, Hq5, Hq6, Hq7, Hq8, Hq9, Hq10, Hq11, Hq12, Hq13, Hq14, Hq15, Hq16, Hq17, Hq18, Hq19, Hq20⟩, HW, Hk⟩
    obtain rfl := harg5.eq_unread hf5
    sl_exec_parts (disch := first | exact chk_user (hU _ _) _ rfl | exact chk_item (hI _ _) _ rfl)
    ihave HSj := join_rows c fs _ _ _ _ _ _ _ _ _ _ _ _ _ _ _ _ _ _ _ _ _ $$ [HS_2 HS_3 HS_4 HS_5 HS_6 HS]
    · iframe
    sl_exec_parts!
    sl_step
    iapply Hk
    isplitl [H5]
    · iexists _; isplitr; · ipureintro; exact harg5.read_unread _
      iexact H5
    isplitl [H6]; · iexists _; iexact H6
    isplitl [HSj]
    · iexists _, _; isplitr; swap; · iexact HSj
      ipureintro; rfl
    isplitl [HtU]; · iexact HtU
    isplitl [HtI]; · iexact HtI
    isplitl [HeU]; · iexact HeU
    isplitl [HeI3 HeI4 HeI5 HeI6 HeI7 HeI8 HeI9 HeI10 HeI11 HeI12 HeI13 HeI14 HeI15 HeI16 HeI17 HeI18 HeI19 HeI20 HeI21 HeI22]
    · unfold toksI
      isplitl [HeI3]; · iexact HeI3
      isplitl [HeI4]; · iexact HeI4
      isplitl [HeI5]; · iexact HeI5
      isplitl [HeI6]; · iexact HeI6
      isplitl [HeI7]; · iexact HeI7
      isplitl [HeI8]; · iexact HeI8
      isplitl [HeI9]; · iexact HeI9
      isplitl [HeI10]; · iexact HeI10
      isplitl [HeI11]; · iexact HeI11
      isplitl [HeI12]; · iexact HeI12
      isplitl [HeI13]; · iexact HeI13
      isplitl [HeI14]; · iexact HeI14
      isplitl [HeI15]; · iexact HeI15
      isplitl [HeI16]; · iexact HeI16
      isplitl [HeI17]; · iexact HeI17
      isplitl [HeI18]; · iexact HeI18
      isplitl [HeI19]; · iexact HeI19
      isplitl [HeI20]; · iexact HeI20
      isplitl [HeI21]; · iexact HeI21
      iexact HeI22
    isplitl [Hq0 Hq1 Hq2 Hq3 Hq4 Hq5 Hq6 Hq7 Hq8 Hq9 Hq10 Hq11 Hq12 Hq13 Hq14 Hq15 Hq16 Hq17 Hq18 Hq19 Hq20]
    · unfold sems0
      isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      isplitl [Hq9]; · iexact Hq9
      isplitl [Hq10]; · iexact Hq10
      isplitl [Hq11]; · iexact Hq11
      isplitl [Hq12]; · iexact Hq12
      isplitl [Hq13]; · iexact Hq13
      isplitl [Hq14]; · iexact Hq14
      isplitl [Hq15]; · iexact Hq15
      isplitl [Hq16]; · iexact Hq16
      isplitl [Hq17]; · iexact Hq17
      isplitl [Hq18]; · iexact Hq18
      isplitl [Hq19]; · iexact Hq19
      iexact Hq20
    iexists _; iexact HW

end Cert.KernelIdeal.Hand

end
-- ==== Proof.KI.Launch.lean ====
/-
  The kernel's program as a run: the proof data of its one pipelined call and the obligation of its body.

  @main reshapes the user and history index arrays into two flat index tables and the weights into a 20 × 1
  column, runs the call over the 4096 batch rows — the weights' column staged whole at every row, the output's
  row block (1 × 210 × 64) written back after every row —, and reshapes the 4096 × 210 × 64 result to
  4096 × 13440.  Between two rows the body keeps nothing: the invariant is what it borrows and gives back — the
  scratch at anything, the two index tables and the two embedding tables as the call found them, its twenty-one
  counters at zero.
-/
import proofs.«429411_j5592047419689_3_alg».proof.Proof.KI.Body
import proofs.«429411_j5592047419689_3_alg».proof.Proof.Gen.KernelIdeal.Launch
import Idealize.ShloMosaic.Lib.Pipeline.Regions
import Idealize.ShloMosaic.Lib.Pipeline.RegionsLoop
import Idealize.ShloMosaic.Lib.Ring

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main before the call: three reshapes -/

/-- Core `c`'s buffers at launch, as the host operations' valuation; -/
abbrev V₀ (c : Dev nD) : Valuation τ sig (Elt F) := fun b => (s₀ m ρ).mem ((c : Dev nD), b)
/-- and when the call is entered: the three reshapes have run. -/
abbrev V (c : Dev nD) (b : Ref sig .tc) : Buf (Elt F) ((c : Thread nD τ).loc b) := StableHlo.after hostOps0 (V₀ m ρ c) b

/-- The one core. -/
abbrev c₀ : Dev nD := ⟨0, Nat.one_pos⟩

/-- The two index tables as the call reads them at entry: the reshaped user and history indices. -/
abbrev tabs : pre0.Contents (Elt F) := fun k => V m ρ c₀ (pre0.ref k)

/-- The call's configuration is taken at those contents (the tables' side condition is empty). -/
abbrev adm : (p : Fin 1) → (pcfgs (F := F) p).Adm := fun _ => ⟨tabs m ρ, trivial⟩

/-- The pipeline at them. -/
abbrev cfgA : Pipeline.Cfg sig Λ₀ := Pipeline.pin (pcfgs (F := F)) (adm m ρ) 0

/-! ## The proof data -/

/-- The index words the body reads are rows of the tables it copies from: what the certificate's precondition
    says of the reshaped index arrays. -/
structure Ranges : Prop where
  user : ∀ (c : Dev nD) r j, (tU.view.readAt (Elt F) r (V m ρ c main_v0) j).toNat < 100000
  item : ∀ (c : Dev nD) r j, (tI.view.readAt (Elt F) r (V m ρ c main_v1) j).toNat < 100001

variable (hR : Ranges m ρ)

/-- The weights' column as the call finds it: what its window stages at every row. -/
def wblk (c : Dev nD) (t : Fin (cfgA m ρ).N) : (((cfgA m ρ).win 0).xblock ((cfgA m ρ).grid.coords t)).Idx → Elt F ((cfgA m ρ).win 0).elt :=
  (((cfgA m ρ).win 0).blk t).view.read (Elt F) (V m ρ c (Pipeline.arrRef spec0 0))

/-- The staging buffers of the two windows at row `t`, as the pipeline passes them. -/
abbrev ms0 (t : Fin (cfgA m ρ).N) : Memref sig .tc .vmem S20x1 .f32 := spec0_0.stage ((cfgA m ρ).slots t 0)
abbrev hs0 (t : Fin (cfgA m ρ).N) : (ms0 m ρ t).IsWhole := hstage0_0 (((cfgA m ρ).slots t 0).cast nbuf0_0)
abbrev ms1 (t : Fin (cfgA m ρ).N) : Memref sig .tc .vmem S1x210x64 .f32 := spec0_1.stage ((cfgA m ρ).slots t 1)
abbrev hs1 (t : Fin (cfgA m ρ).N) : (ms1 m ρ t).IsWhole := hstage0_1 (((cfgA m ρ).slots t 1).cast nbuf0_1)

/-- The pieces the body's run leaves in the output's buffer at row `t`. -/
abbrev runAt (c : Dev nD) (t : Fin (cfgA m ρ).N) :=
  kernelRun (F := F) c (grid0.coords t) (ms0 m ρ t) (hs0 m ρ t) (ms1 m ρ t) (hs1 m ρ t) (wblk m ρ c t)
    (V m ρ c main_v0) (V m ρ c main_v1) (V m ρ c main_arg2) (V m ρ c main_arg3) (hR.user c) (hR.item c)

/-- What the output's buffer holds after the body at row `t`: the run's pieces read back over junk. -/
def outBlk (c : Dev nD) (t : Fin (cfgA m ρ).N) : Vec F S1x210x64 .f32 :=
  VO.read (Elt F) (VO.writes (Elt F) VO.junk (runAt m ρ hR c t).1)

/-- The invariant between two rows. -/
def Φc (c : Dev nD) : sProp 𝕄 :=
  iprop((∃ d, owns (c : Thread nD τ) scr fullShare d) ∗ pt c tU (V m ρ c main_v0) ∗ pt c tI (V m ρ c main_v1)
    ∗ pt c eU (V m ρ c main_arg2) ∗ pt c eI (V m ρ c main_arg3) ∗ sems0 c)

/-- The proof data on core `c`: the arrays as the call finds them; after the body the weights' buffer at the
    column and the output's at the run's block; the invariant; nothing owed; full shares. -/
def dats (_ : Fin 1) (c : Dev nD) : Dat τ (Elt F) Unit ℕ (Pipeline.UD sig nD τ) ℕ (cfgA m ρ) c where
  A w := V m ρ c (Pipeline.arrRef spec0 w)
  after w t := match w with
    | ⟨0, _⟩ => wblk m ρ c t
    | ⟨1, _⟩ => outBlk m ρ hR c t
  Φ _ := Φc m ρ c
  q _ := fullShare
  owed _ := 0

theorem A_eq (c : Dev nD) (w : Fin (cfgA m ρ).W) : (dats m ρ hR 0 c).A w = V m ρ c (Pipeline.arrRef spec0 w) := by
  dsimp only [dats]
theorem after_0 (c : Dev nD) (t : Fin (cfgA m ρ).N) : (dats m ρ hR 0 c).after 0 t = wblk m ρ c t := by dsimp only [dats]; rfl
theorem after_1 (c : Dev nD) (t : Fin (cfgA m ρ).N) : (dats m ρ hR 0 c).after 1 t = outBlk m ρ hR c t := by dsimp only [dats]; rfl

/-! ## The item table as read shares -/

/-- What is left of the item table beside the twenty shares the copies read through. -/
def restI (c : Dev nD) (gI : Bf (F := F) c eI) : sProp 𝕄 :=
  iprop((eI.view.loc (c : Thread nD τ) ↦{Transfers.shareDrop fullShare 23} gI) ∗ (eI.view.loc (c : Thread nD τ) ↦{Transfers.shareTokN fullShare 0} gI)
    ∗ (eI.view.loc (c : Thread nD τ) ↦{Transfers.shareTokN fullShare 1} gI) ∗ (eI.view.loc (c : Thread nD τ) ↦{Transfers.shareTokN fullShare 2} gI))

/-- The table held whole is its twenty read shares and the rest: the full share halved again and again. -/
theorem toks_iff (c : Dev nD) (gI : Bf (F := F) c eI) : (pt c eI gI : sProp 𝕄) ⊣⊢ iprop(restI c gI ∗ toksI c gI) := by
  have h := Transfers.pointsTo_toks_range (Ix := Unit) (Name := ℕ) (U := Pipeline.UD sig nD τ) (Lvl := ℕ) (Val := Elt F)
    (ℓ := eI.view.loc (c : Thread nD τ)) (S := Finset.univ) (f := gI) fullShare 23
  have hl : (BI.bigSep (Finset.range 23) (fun i => (eI.view.loc (c : Thread nD τ) ↦{Transfers.shareTokN fullShare i} gI : sProp 𝕄)))
      = iprop((eI.view.loc (c : Thread nD τ) ↦{Transfers.shareTokN fullShare 0} gI) ∗ (eI.view.loc (c : Thread nD τ) ↦{Transfers.shareTokN fullShare 1} gI) ∗ (eI.view.loc (c : Thread nD τ) ↦{Transfers.shareTokN fullShare 2} gI) ∗ (eI.view.loc (c : Thread nD τ) ↦{Transfers.shareTokN fullShare 3} gI) ∗ (eI.view.loc (c : Thread nD τ) ↦{Transfers.shareTokN fullShare 4} gI) ∗ (eI.view.loc (c : Thread nD τ) ↦{Transfers.shareTokN fullShare 5} gI) ∗ (eI.view.loc (c : Thread nD τ) ↦{Transfers.shareTokN fullShare 6} gI) ∗ (eI.view.loc (c : Thread nD τ) ↦{Transfers.shareTokN fullShare 7} gI) ∗ (eI.view.loc (c : Thread nD τ) ↦{Transfers.shareTokN fullShare 8} gI) ∗ (eI.view.loc (c : Thread nD τ) ↦{Transfers.shareTokN fullShare 9} gI) ∗ (eI.view.loc (c : Thread nD τ) ↦{Transfers.shareTokN fullShare 10} gI) ∗ (eI.view.loc (c : Thread nD τ) ↦{Transfers.shareTokN fullShare 11} gI) ∗ (eI.view.loc (c : Thread nD τ) ↦{Transfers.shareTokN fullShare 12} gI) ∗ (eI.view.loc (c : Thread nD τ) ↦{Transfers.shareTokN fullShare 13} gI) ∗ (eI.view.loc (c : Thread nD τ) ↦{Transfers.shareTokN fullShare 14} gI) ∗ (eI.view.loc (c : Thread nD τ) ↦{Transfers.shareTokN fullShare 15} gI) ∗ (eI.view.loc (c : Thread nD τ) ↦{Transfers.shareTokN fullShare 16} gI) ∗ (eI.view.loc (c : Thread nD τ) ↦{Transfers.shareTokN fullShare 17} gI) ∗ (eI.view.loc (c : Thread nD τ) ↦{Transfers.shareTokN fullShare 18} gI) ∗ (eI.view.loc (c : Thread nD τ) ↦{Transfers.shareTokN fullShare 19} gI) ∗ (eI.view.loc (c : Thread nD τ) ↦{Transfers.shareTokN fullShare 20} gI) ∗ (eI.view.loc (c : Thread nD τ) ↦{Transfers.shareTokN fullShare 21} gI) ∗ (eI.view.loc (c : Thread nD τ) ↦{Transfers.shareTokN fullShare 22} gI)) :=
    BI.bigSep_eq_bigSepL_of_eq [0, 1, 2, 3, 4, 5, 6, 7, 8, 9, 10, 11, 12, 13, 14, 15, 16, 17, 18, 19, 20, 21, 22] (by decide) (by decide) _
  rw [hl] at h
  unfold restI toksI pt
  constructor
  · refine h.1.trans ?_
    iintro ⟨Hd, T0, T1, T2, T3, T4, T5, T6, T7, T8, T9, T10, T11, T12, T13, T14, T15, T16, T17, T18, T19, T20, T21, T22⟩
    isplitl [Hd T0 T1 T2]
    · isplitl [Hd]; · iexact Hd
      isplitl [T0]; · iexact T0
      isplitl [T1]; · iexact T1
      iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    iexact T22
  · refine BIBase.Entails.trans ?_ h.2
    iintro ⟨⟨Hd, T0, T1, T2⟩, T3, T4, T5, T6, T7, T8, T9, T10, T11, T12, T13, T14, T15, T16, T17, T18, T19, T20, T21, T22⟩
    isplitl [Hd]; · iexact Hd
    isplitl [T0]; · iexact T0
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T13]; · iexact T13
    isplitl [T14]; · iexact T14
    isplitl [T15]; · iexact T15
    isplitl [T16]; · iexact T16
    isplitl [T17]; · iexact T17
    isplitl [T18]; · iexact T18
    isplitl [T19]; · iexact T19
    isplitl [T20]; · iexact T20
    isplitl [T21]; · iexact T21
    iexact T22

/-! ## The body obligation -/

/-- The weights' window holds its column at every row, fetched there or not. -/
theorem before_0 (c : Dev nD) (t : Fin (cfgA m ρ).N) (d) : (dats m ρ hR 0 c).before 0 t d = wblk m ρ c t :=
  ((dats m ρ hR 0 c).before_in_eq_fetched 0 rfl (fun _ => rfl) (fun _ _ _ => rfl)
    (fun t => by rw [after_0]; unfold Dat.blockOf wblk; rw [A_eq]; try rfl) t d).trans
    (by unfold Dat.fetched Dat.blockOf wblk; rw [A_eq]; try rfl)

/-- The run's one store covers the output's block. -/
theorem run_cover (c : Dev nD) (t : Fin (cfgA m ρ).N) (y : S1x210x64.Idx) : ∃ pc ∈ (runAt m ρ hR c t).1, y ∈ pc.1.set :=
  View.cover_of_tiledL (runAt m ρ hR c t).1 S1x210x64.size (by sl_kernel_rfl) y

/-- At every row: the invariant hands the body its scratch, the tables and its counters; the item table is split into
    the copies' read shares for the run and joined again after it; the output's buffer comes back at the run's block. -/
theorem body_obligation (c : Dev nD) : BodyObligation (dats m ρ hR 0 c) (defs₀ (F := F)) Variants.none () Set.univ := fun t => by
  rw [bigSep_W0, bigSep_W0]
  rw [show (dats m ρ hR 0 c).Φ t.succ = Φc m ρ c from rfl, show (dats m ρ hR 0 c).Φ t.castSucc = Φc m ρ c from rfl, after_0, after_1]
  unfold Φc Dat.owesAt Pipeline.owesWithin
  rw [show (dats m ρ hR 0 c).owed t.castSucc = 0 from rfl, show (dats m ρ hR 0 c).owed t.succ = 0 from rfl]
  unfold outBlk
  iintro ⟨⟨HS, HtU, HtI, HeU, HeI, Hq⟩, ⟨%W, -, HW⟩, ⟨%d0, H0⟩, ⟨%d1, H1⟩⟩
  rw [show (dats m ρ hR 0 c).before (0 : Fin 2) t d0 = wblk m ρ c t from before_0 m ρ hR c t d0]
  ihave HeI' := (toks_iff c (V m ρ c main_arg3)).1 $$ HeI
  icases HeI' with ⟨Hrest, Htoks⟩
  iapply ((runAt m ρ hR c t).2 W _)
  isplitl [H0]; · iexact H0
  isplitl [H1]; · iexists _; iexact H1
  isplitl [HS]; · iexact HS
  isplitl [HtU]; · iexact HtU
  isplitl [HtI]; · iexact HtI
  isplitl [HeU]; · iexact HeU
  isplitl [Htoks]; · iexact Htoks
  isplitl [Hq]; · iexact Hq
  isplitl [HW]; · iexact HW
  iintro ⟨H0, ⟨%e1, H1⟩, HS, HtU, HtI, HeU, Htoks, Hq, ⟨%W', HW'⟩⟩
  isplitl [HS HtU HtI HeU Htoks Hrest Hq]
  · isplitl [HS]; · iexact HS
    isplitl [HtU]; · iexact HtU
    isplitl [HtI]; · iexact HtI
    isplitl [HeU]; · iexact HeU
    isplitl [Htoks Hrest]
    · iapply (toks_iff c (V m ρ c main_arg3)).2
      isplitl [Hrest]; · iexact Hrest
      iexact Htoks
    iexact Hq
  isplitl [HW']
  · iexists W'; isplitr; · ipureintro; exact fun _ _ => Or.inl trivial
    iexact HW'
  isplitl [H0]; · iexact H0
  unfold owns; iexists _; isplitr
  swap; · iexact H1
  ipureintro; exact View.read_writes_of_cover _ _ _ _ _ (run_cover m ρ hR c t)

/-! ## The launch: @main as a host stretch, the call, a host stretch -/

/-- The body's own counters, cell by cell: none is a window's. -/
abbrev osem : Fin 21 → SemLoc sig := fun j => (![SemLoc.dma 3, SemLoc.dma 4, SemLoc.dma 5, SemLoc.dma 6, SemLoc.dma 7, SemLoc.dma 8, SemLoc.dma 9, SemLoc.dma 10, SemLoc.dma 11, SemLoc.dma 12, SemLoc.dma 13, SemLoc.dma 14, SemLoc.dma 15, SemLoc.dma 16, SemLoc.dma 17, SemLoc.dma 18, SemLoc.dma 19, SemLoc.dma 20, SemLoc.dma 21, SemLoc.dma 22, SemLoc.dma 23] : Fin 21 → SemLoc sig) j
theorem ownSemFacts : Pipeline.OwnSemFacts spec0 osem := by decide
theorem ownSems0_eq (c : Dev nD) :
    (Pipeline.ownSems0 (Ix := Unit) (Name := ℕ) (U := Pipeline.UD sig nD τ) (Lvl := ℕ) (Val := Elt F) (τ := τ) osem c : sProp 𝕄) = sems0 c := by
  rw [Pipeline.ownSems0_eq_of_list c osem [0, 1, 2, 3, 4, 5, 6, 7, 8, 9, 10, 11, 12, 13, 14, 15, 16, 17, 18, 19, 20] (by decide) (by decide)]; rfl

/-- The pipeline library's algebra is the left component of the certificate's. -/
abbrev EP : Emb (UR sig nD τ) (MT nD τ sig Unit (Elt F) ℕ (Pipeline.UD sig nD τ) ℕ) := embL

/-- The launch element: the pipeline library's at the staging cells; no counter yet. -/
def u₀ : Pipeline.UD sig nD τ :=
  (initOf (Pipeline.cells (Pipeline.pin (pcfgs (F := F)) (adm m ρ)) (cellOf_inj (adm m ρ)))
    (Pipeline.launchToks (Pipeline.pin (pcfgs (F := F)) (adm m ρ)) (cellOf_inj (adm m ρ))), 1)

abbrev 𝒱₀ : Variants := Variants.none
abbrev L : GSem nD τ sig → Finset Unit := fun _ => ∅
abbrev lv : GSem nD τ sig → Unit → ℕ := fun _ _ => 0

/-- What rides beside the buffers through the host stretches: the core owing nothing. -/
abbrev R (c : Dev nD) : sProp 𝕄 := iprop(∃ W, owes (c : Thread nD τ) (0 : CellTallies nD τ sig Unit) W)

theorem hostOps0_fresh : ∀ op ∈ (hostOps0 (F := F)), op.fresh = ∅ := by
  intro _ h; (repeat (cases h with | head => rfl | tail _ h => ?_)); exact nomatch h
theorem hostOps1_fresh : ∀ op ∈ (hostOps1 (F := F)), op.fresh = ∅ := by
  intro _ h; (repeat (cases h with | head => rfl | tail _ h => ?_)); exact nomatch h

/-- The three reshapes before the call, over the unscoped buffers. -/
def seg0 : Pipeline.HostSeg (Name := ℕ) (U := Pipeline.UD sig nD τ) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h)) hostOps0_fresh (V₀ m ρ) R

/-- The result array after the call, as the library computes it from the proof data. -/
def finalOut (c : Dev nD) : Buf (Elt F) ((c : Thread nD τ).loc main_v3) := (dats m ρ hR 0 c).arrAt 1 (cfgA m ρ).N

/-- The unscoped buffers after the call: as the call found them, the result array at what the call wrote. -/
def W₁ (c : Dev nD) : Valuation τ sig (Elt F) :=
  Function.update (StableHlo.after hostOps0 (V₀ m ρ c)) (Proc.devRef .tc main_v3) (finalOut m ρ hR c)

/-- The reshape after the call, over the unscoped buffers. -/
def seg1 : Pipeline.HostSeg (Name := ℕ) (U := Pipeline.UD sig nD τ) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h)) hostOps1_fresh (W₁ m ρ hR) R

/-- The result array's reference is the call's output window's array; the weights' column is the input's. -/
theorem W₁_out (c : Dev nD) : W₁ m ρ hR c (Proc.devRef .tc main_v3) = finalOut m ρ hR c := by
  unfold W₁; rw [Function.update_self]
theorem W₁_other (c : Dev nD) (b : Ref sig .tc) (hb : b ≠ main_v3) : W₁ m ρ hR c (Proc.devRef .tc b) = V m ρ c b := by
  unfold W₁; rw [Function.update_of_ne (StableHlo.devRef_ne_of_ne hb)]

set_option backward.isDefEq.respectTransparency.types false in
/-- THE CALL: the layout, the body's twenty-one counters, the body obligation; entered from what the first stretch left —
    the two windows' arrays into the pipeline, the two embedding tables and the counters into the invariant beside the
    two index tables, the other buffers bypassing —, left with the result array at what the call wrote and everything
    else as it was. -/
def reg0 : Pipeline.RegionSeg (pcfgs (F := F)) (adm m ρ) (dats m ρ hR) () defs₀ 𝒱₀ L lv 0 where
  win := (launch0 (F := F)).win.to₀
  block_pos := (launch0 (F := F)).block_pos
  stage_whole := (launch0 (F := F)).stage_whole
  K := Fin 21
  osem := osem
  ho := ownSemFacts
  hbody c := (body_obligation m ρ hR c).loose
  hwaits := Pipeline.hwaits_of_owed_zero _ _ _ _ L lv 0 fun _ _ => rfl
  pre c := iprop(StableHlo.held (c : Thread nD τ) (Pipeline.ucRefs τ sig) (StableHlo.after hostOps0 (V₀ m ρ c)) ∗ R c)
  post c := iprop(StableHlo.held (c : Thread nD τ) (Pipeline.ucRefs τ sig) (W₁ m ρ hR c) ∗ R c)
  X c := iprop(pt c eU (V m ρ c main_arg2) ∗ pt c eI (V m ρ c main_arg3) ∗ sems0 c)
  Y c := iprop(pt c tU (V m ρ c main_v0) ∗ pt c tI (V m ρ c main_v1) ∗ pt c eU (V m ρ c main_arg2) ∗ pt c eI (V m ρ c main_arg3))
  Z c := iprop((((c : Thread nD τ).loc main_arg0) ↦{fullShare} V m ρ c main_arg0) ∗ (((c : Thread nD τ).loc main_arg1) ↦{fullShare} V m ρ c main_arg1)
      ∗ (((c : Thread nD τ).loc main_arg4) ↦{fullShare} V m ρ c main_arg4) ∗ (((c : Thread nD τ).loc main_v4) ↦{fullShare} V m ρ c main_v4))
  hentry c := by
    obtain rfl : c = c₀ := Subsingleton.elim _ _
    rw [show StableHlo.held ((c₀ : Dev nD) : Thread nD τ) (Pipeline.ucRefs τ sig) (StableHlo.after hostOps0 (V₀ m ρ c₀)) = unscopedBufs c₀ (V m ρ c₀) from (Pipeline.unscopedBufs_held c₀ _).symm,
      ownSems0_eq]
    have hsplit := (Pipeline.arrays_of_unscopedBufs (pcfgs (F := F)) (adm m ρ) (dats m ρ hR) (launch0 (F := F)).win (launch0 (F := F)).arr_whole c₀
      ((dats m ρ hR 0 c₀).share_full fun _ => rfl) (V m ρ c₀) fun _ => rfl).trans
        (sep_mono .rfl (Entails.of_eq (by rw [Pipeline.unscopedRest_split (launch0 (F := F)).pre c₀ (V m ρ c₀), unscopedRestP0_eq c₀ (V m ρ c₀)])))
    iintro ⟨⟨Hub, HO⟩, Hos, -⟩
    ihave H := hsplit $$ Hub
    icases H with ⟨Ha, Hpf, H0, H1, H2, H3, H4, H7⟩
    imodintro
    isplitl [Ha]; · iexact Ha
    isplitl [Hpf]; · iexact Hpf
    isplitl [HO]
    · unfold Pipeline.Dat.owesAt Pipeline.owesWithin
      icases HO with ⟨%W, HO⟩; iexists W; isplitr; · ipureintro; exact fun _ _ => Or.inl trivial
      iexact HO
    isplitl [H2 H3 Hos]
    · isplitl [H2]; · iexact H2
      isplitl [H3]; · iexact H3
      iexact Hos
    isplitl [H0]; · iexact H0
    isplitl [H1]; · iexact H1
    isplitl [H4]; · iexact H4
    iexact H7
  hin c := by
    obtain rfl : c = c₀ := Subsingleton.elim _ _
    rw [show (dats m ρ hR 0 c₀).Φ 0 = Φc m ρ c₀ from rfl, scopedRest0_eq]; unfold Φc Pipeline.prefHeld
    rw [bigSep_W0]
    simp only [owns_whole]
    iintro ⟨⟨HeU, HeI, Hq⟩, ⟨HtU, HtI⟩, Hs⟩
    isplitl [Hs]; · iexact Hs
    isplitl [HtU]; · iexact HtU
    isplitl [HtI]; · iexact HtI
    isplitl [HeU]; · iexact HeU
    isplitl [HeI]; · iexact HeI
    iexact Hq
  hout c := by
    rw [ownSems0_eq, show (dats m ρ hR 0 c).Φ (Fin.last _) = Φc m ρ c from rfl, scopedRest0_eq]; unfold Φc
    simp only [owns_whole]
    iintro ⟨Hs, HtU, HtI, HeU, HeI, Hq⟩
    isplitl [HtU HtI HeU HeI]
    · isplitl [HtU]; · iexact HtU
      isplitl [HtI]; · iexact HtI
      isplitl [HeU]; · iexact HeU
      iexact HeI
    isplitl [Hq]; · iexact Hq
    iexact Hs
  hexit c := by
    obtain rfl : c = c₀ := Subsingleton.elim _ _
    rw [show StableHlo.held ((c₀ : Dev nD) : Thread nD τ) (Pipeline.ucRefs τ sig) (W₁ m ρ hR c₀) = unscopedBufs c₀ (fun b => W₁ m ρ hR c₀ b) from (Pipeline.unscopedBufs_held c₀ _).symm]
    have hjoin := Pipeline.unscopedBufs_of_arrays (pcfgs (F := F)) (adm m ρ) (launch0 (F := F)).win (launch0 (F := F)).arr_whole c₀ (dats m ρ hR)
      ((dats m ρ hR 0 c₀).share_full fun _ => rfl) (V m ρ c₀) (fun b => W₁ m ρ hR c₀ b) (fun w => (dats m ρ hR 0 c₀).arrAt w (cfgA m ρ).N)
      (fun w => match w with
        | ⟨0, _⟩ => ((dats m ρ hR 0 c₀).arrAt_in 0 rfl _).trans ((A_eq m ρ hR c₀ 0).trans (W₁_other m ρ hR c₀ main_v2 (by decide)).symm)
        | ⟨1, _⟩ => (W₁_out m ρ hR c₀).symm)
      (fun b hb => W₁_other m ρ hR c₀ b fun h => hb (Finset.mem_image.mpr ⟨1, Finset.mem_univ _, h.symm⟩))
    iintro ⟨Ha, HO, ⟨HtU, HtI, HeU, HeI⟩, ⟨H0, H1, H4, H7⟩⟩
    imodintro
    isplitr [HO]
    · iapply hjoin
      isplitl [Ha]; · iexact Ha
      rw [Pipeline.unscopedRest_split (launch0 (F := F)).pre c₀ (V m ρ c₀), unscopedRestP0_eq c₀ (V m ρ c₀)]; unfold Pipeline.prefHeld
      rw [bigSep_W0]
      isplitl [HtU HtI]
      · isplitl [HtU]; · iexact HtU
        iexact HtI
      isplitl [H0]; · iexact H0
      isplitl [H1]; · iexact H1
      isplitl [HeU]; · iexact HeU
      isplitl [HeI]; · iexact HeI
      isplitl [H4]; · iexact H4
      iexact H7
    · unfold Pipeline.Dat.owesAt Pipeline.owesWithin
      icases HO with ⟨%W, -, HO⟩; iexists W; iexact HO

/-- @main as the list of the three. -/
abbrev segs : List (Pipeline.Seg (pcfgs (F := F)) (adm m ρ) (dats m ρ hR) () defs₀ 𝒱₀ L lv) :=
  [.host (seg0 m ρ), .region (reg0 m ρ hR), .host (seg1 m ρ hR)]

/-- What the run ends with: every unscoped buffer at what the last stretch left. -/
def QC : PUnit × MemSt nD τ sig (Elt F) → Prop := fun r =>
  ∀ c : Dev nD, ∀ b ∈ Pipeline.ucRefs τ sig, r.2.mem (((c : Dev nD) : Thread nD τ).1, b) = StableHlo.after hostOps1 (W₁ m ρ hR c) b

set_option backward.isDefEq.respectTransparency.types false in
/-- At the compiled mesh, from any memory with zero counters whose index arrays name rows of the tables: every weakly
    fair execution of @main terminates, nothing faulting, and ends with every unscoped buffer at what the reshapes and
    the call leave there. -/
theorem run_main : θ_run defs (onTc (τ := τ) (main (F := F))) (s₀ m ρ) (QC m ρ hR) :=
  Pipeline.θ_run_regions_kit (pcfgs (F := F)) (adm m ρ) (dats m ρ hR) () (cellOf_inj (adm m ρ)) EP defs₀ 𝒱₀ L lv m ρ main (segs m ρ hR)
    (fun c Q => by rw [main_segs (adm m ρ) (dats m ρ hR) () 𝒱₀ L lv (seg0 m ρ) (seg1 m ρ hR) (reg0 m ρ hR) rfl rfl c])
    (by simp only [Pipeline.Seg.pipes_host, Pipeline.Seg.pipes_region, Pipeline.Seg.pipes_nil]; decide) (O₀ := 0) (hL := fun _ _ => rfl)
    (G := fun _ => iprop(emp)) (u₀ := u₀ m ρ)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m ρ c) ∗ R c))
    (Tₙ := fun c => StableHlo.held (c : Thread nD τ) (Pipeline.ucRefs τ sig) (StableHlo.after hostOps1 (W₁ m ρ hR c)))
    (hch := ⟨fun _ => .rfl, fun _ => .rfl, fun x => Entails.of_eq (by dsimp only [Pipeline.Seg.post, Pipeline.Seg.pre, reg0, seg1, Pipeline.HostSeg.ofOps]), fun _ => .rfl⟩)
    (hinit := by
      refine Pipeline.initEach L lv fun c => ?_
      rw [show unscopedBufs c (fun b => m ((c : Thread nD τ).loc b)) = StableHlo.held (c : Thread nD τ) (Pipeline.ucRefs τ sig) (V₀ m ρ c) from Pipeline.unscopedBufs_held c (V₀ m ρ c)]
      iintro ⟨⟨Hh, -, HO, -, -, -⟩, -⟩
      imodintro
      isplitl [Hh]; · iexact Hh
      iexists ∅; iexact HO)
    (QY := fun c s => ∀ b ∈ Pipeline.ucRefs τ sig, s.mem (((c : Dev nD) : Thread nD τ).1, b) = StableHlo.after hostOps1 (W₁ m ρ hR c) b)
    (hfin := fun c s' => by
      unfold StableHlo.held
      iintro ⟨Hh, HSI⟩
      ihave Hr := (pointsTo_read_all (Pipeline.ucRefs τ sig) (fun b => (((c : Dev nD) : Thread nD τ).1, b))
        (fun b => StableHlo.after hostOps1 (W₁ m ρ hR c) b) s') $$ [Hh HSI]
      · isplitl [Hh] <;> iassumption
      icases Hr with ⟨%h, HSI⟩
      imodintro
      isplitr; · ipureintro; exact h
      iexact HSI)
    (hQ := fun _ h => h)

end Cert.KernelIdeal.Hand

end
-- ==== Proof.KI.Frame.lean ====
/-
  The kernel program's frame: what its arguments hold at the end, and the index ranges its run assumes.

  @main is three reshapes, the pipelined call, and one reshape.  None of the four reshapes and nothing in the call
  writes an argument's buffer, so each of the five arguments ends at what it held at launch.  The two index tables
  the call reads are reshapes of the user and history index arrays: every word of a table is a word of its array, so
  bounds on the arrays' words are the bounds the run assumes of the tables' words.
-/
import proofs.«429411_j5592047419689_3_alg».proof.Proof.KI.Launch

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL.Sem

variable {F : FTy → Type} [FloatOps F]

variable (m : (ℓ : Loc nD τ sig) → Buf (Elt F) ℓ) (ρ : Dev nD → PrngReg)

/-! ## The buffers at the call's entry

The three reshaped buffers read their argument at the index with the same row-major position; an argument's buffer
is as at launch. -/

/-- The user index table is the user index array, flattened. -/
theorem V_main_v0 (c : Dev nD) :
    V m ρ c main_v0 = fun i => m ((c.tc : Thread nD τ).loc main_arg0) (Shape.reshapeEquiv shapeCasts_S4096x1_S4096 i) := by
  dsimp only [V]
  after_results
  rfl

/-- The history index table is the history index array, flattened. -/
theorem V_main_v1 (c : Dev nD) :
    V m ρ c main_v1 = fun i => m ((c.tc : Thread nD τ).loc main_arg1) (Shape.reshapeEquiv shapeCasts_S4096x20_S81920 i) := by
  dsimp only [V]
  after_results
  rfl

/-- The weights' column is the weights' vector, as a column. -/
theorem V_main_v2 (c : Dev nD) :
    V m ρ c main_v2 = fun i => m ((c.tc : Thread nD τ).loc main_arg4) (Shape.reshapeEquiv shapeCasts_S20_S20x1 i) := by
  dsimp only [V]
  after_results
  rfl

/-- The two embedding tables are as at launch. -/
theorem V_main_arg2 (c : Dev nD) : V m ρ c main_arg2 = m ((c.tc : Thread nD τ).loc main_arg2) := by
  dsimp only [V]
  after_results
theorem V_main_arg3 (c : Dev nD) : V m ρ c main_arg3 = m ((c.tc : Thread nD τ).loc main_arg3) := by
  dsimp only [V]
  after_results

/-! ## The arguments at the end -/

/-- No reshape writes an argument and the call writes only its result array: the five arguments end as they were. -/
theorem final_args (hR : Ranges m ρ) (c : Dev nD) :
    StableHlo.after hostOps1 (W₁ m ρ hR c) (Proc.devRef .tc main_arg0) = m ((c.tc : Thread nD τ).loc main_arg0)
    ∧ StableHlo.after hostOps1 (W₁ m ρ hR c) (Proc.devRef .tc main_arg1) = m ((c.tc : Thread nD τ).loc main_arg1)
    ∧ StableHlo.after hostOps1 (W₁ m ρ hR c) (Proc.devRef .tc main_arg2) = m ((c.tc : Thread nD τ).loc main_arg2)
    ∧ StableHlo.after hostOps1 (W₁ m ρ hR c) (Proc.devRef .tc main_arg3) = m ((c.tc : Thread nD τ).loc main_arg3)
    ∧ StableHlo.after hostOps1 (W₁ m ρ hR c) (Proc.devRef .tc main_arg4) = m ((c.tc : Thread nD τ).loc main_arg4) := by
  refine ⟨?_, ?_, ?_, ?_, ?_⟩
  · after_results
    rw [W₁_other m ρ hR c main_arg0 (by decide)]
    dsimp only [V]
    after_results
  · after_results
    rw [W₁_other m ρ hR c main_arg1 (by decide)]
    dsimp only [V]
    after_results
  · after_results
    rw [W₁_other m ρ hR c main_arg2 (by decide)]
    dsimp only [V]
    after_results
  · after_results
    rw [W₁_other m ρ hR c main_arg3 (by decide)]
    dsimp only [V]
    after_results
  · after_results
    rw [W₁_other m ρ hR c main_arg4 (by decide)]
    dsimp only [V]
    after_results

/-! ## The index ranges -/

/-- Bounds on the words of the two index arrays are the bounds the run assumes of the words it reads through the
    two index tables: a table is its array reshaped, and a load through the table's whole buffer reads one of its
    words. -/
theorem ranges_of_bounds
    (hU : ∀ (c : Dev nD) i, ((m ((c.tc : Thread nD τ).loc main_arg0)) i).toNat < 100000)
    (hI : ∀ (c : Dev nD) i, ((m ((c.tc : Thread nD τ).loc main_arg1)) i).toNat < 100001) : Ranges m ρ where
  user c r j := by
    rw [V_main_v0]
    exact hU c _
  item c r j := by
    rw [V_main_v1]
    exact hI c _

end Cert.KernelIdeal.Hand

end
-- ==== Proof.Spec.lean ====
/-
  What both programs compute, as one function of the argument arrays.

  For batch row `b`: let `u` be the user's row of the user table and `e_n` (n < 20) the rows of the item table
  the history names, and `we_n = w_n · e_n` the weighted history rows.  The result's row `b` is 210 blocks of 64
  entries: blocks 0 … 19 are `u ⊙ we_n`, and block `20 + p` is `we_a ⊙ we_b` for the `p`-th pair `a < b` of
  {0, …, 19} in lexicographic order.  A row index is read off its word as a natural number and, so that the
  function is total, capped at the table's last row; under the certificate's precondition the cap never binds.
-/
import Idealize.ShloMosaic.PureOps.Ideal
import Idealize.ShloMosaic.Lib.ValueIdx

noncomputable section

namespace Cert.Proof.Spec

open Idealize.ShloMosaic Idealize.ShloMosaic.ValueIdx

/-- The pairs `a < b` of {0, …, 19}, lexicographically: (0,1), (0,2), …, (0,19), (1,2), …, (18,19). -/
def pairs : List (Nat × Nat) :=
  (List.range 20).flatMap fun a => ((List.range 20).filter (a < ·)).map fun b => (a, b)

/-- The smaller and the larger member of the `p`-th pair. -/
def pairA (p : Nat) : Nat := (pairs.getD p (0, 0)).1
def pairB (p : Nat) : Nat := (pairs.getD p (0, 0)).2

theorem pairs_length : pairs.length = 190 := by decide
theorem pairA_lt : ∀ p, p < 190 → pairA p < 20 := by decide
theorem pairB_lt : ∀ p, p < 190 → pairB p < 20 := by decide
theorem pairA_lt_pairB : ∀ p, p < 190 → pairA p < pairB p := by decide

abbrev SU : Shape := ⟨2, ![4096, 1]⟩
abbrev SH : Shape := ⟨2, ![4096, 20]⟩
abbrev STU : Shape := ⟨2, ![100000, 64]⟩
abbrev STI : Shape := ⟨2, ![100001, 64]⟩
abbrev SW : Shape := ⟨1, ![20]⟩
abbrev SOut : Shape := ⟨2, ![4096, 13440]⟩

section

variable (users : SU.Idx → BitVec 32) (hist : SH.Idx → BitVec 32)
  (tU : STU.Idx → EReal) (tI : STI.Idx → EReal) (w : SW.Idx → EReal)

/-- The user table's row batch row `b` names. -/
def rowU (b : Fin 4096) : Fin 100000 := ⟨min (users (ix2 b 0)).toNat 99999, by omega⟩
/-- The item table's row history slot `n` of batch row `b` names. -/
def rowI (b : Fin 4096) (n : Fin 20) : Fin 100001 := ⟨min (hist (ix2 b n)).toNat 100000, by omega⟩

/-- The weighted history row: `w_n · e_n` at column `d`. -/
def we (b : Fin 4096) (n : Fin 20) (d : Fin 64) : EReal := w (ix1 n) * tI (ix2 (rowI hist b n) d)

/-- Block `r` of batch row `b` at column `d`. -/
def blockAt (b : Fin 4096) (r : Fin 210) (d : Fin 64) : EReal :=
  if h : r.val < 20 then tU (ix2 (rowU users b) d) * we hist tI w b ⟨r.val, h⟩ d
  else we hist tI w b ⟨pairA (r.val - 20), pairA_lt _ (by omega)⟩ d * we hist tI w b ⟨pairB (r.val - 20), pairB_lt _ (by omega)⟩ d

/-- The result at batch row `b`, flat column `q = 64 r + d`. -/
def outAt (b : Fin 4096) (q : Fin 13440) : EReal :=
  blockAt users hist tU tI w b ⟨q.val / 64, by omega⟩ ⟨q.val % 64, Nat.mod_lt _ (by decide)⟩

/-- The whole result array. -/
def out : SOut.Idx → EReal := fun j => outAt users hist tU tI w (j 0) (j 1)

end

end Cert.Proof.Spec

end
-- ==== Proof.KI.BlockValue.lean ====
/-
  What the kernel body leaves in the output block, read at an index, in closed form.

  At grid point `i` the body gathers the user's row `u` of the user table and the twenty history rows
  `e_0 … e_19` of the item table into a 21-row scratch, forms the weighted rows `we_n = w_n · e_n`, and stores one
  1×210×64 block: rows 0 … 19 are `u ⊙ we_n`, and row `20 + p` is `we_a ⊙ we_b` for the `p`-th pair `a < b` of
  {0, …, 19} in lexicographic order.  This module reads that block at an index `(0, r, d)`:

    • the block is the one store's payload (a single piece covering the block);
    • the payload is a shape cast of the concatenation of the twenty user rows and the 190 pair rows, so index
      `(0, r, d)` falls in the user rows when `r < 20` and in pair row `r − 20` otherwise;
    • a pair row is the product of two one-row slices of `we`, row `a` and row `b` of it at column `d`;
    • `we` at `(n, d)` is `w_n` times row `n` of the scratch, and the scratch, written one row per copy, holds at
      row `n < 20` the item table's row named by the history's `n`-th index word, and at row 20 the user table's row
      named by the user's index word.

  The row a word names is its value as a natural number; under the bounds on the index words it is inside its
  table, so capping it at the table's last row changes nothing.
-/
import proofs.«429411_j5592047419689_3_alg».proof.Proof.KI.Body
import proofs.«429411_j5592047419689_3_alg».proof.Proof.Spec
import Idealize.ShloMosaic.Lib.ValueIdx
import Idealize.ShloMosaic.Lib.Pipeline.Value
import Idealize.ShloMosaic.Lib.Pipeline.FrameBody
import Idealize.ShloMosaic.Lib.Ring
import Idealize.ShloMosaic.Lib.Affine
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL.Sem
open Idealize.ShloMosaic.ValueIdx
open Facts₀ Facts

variable {F : FTy → Type} [FloatOps F]

/-! ## The rows the point names -/

/-- The user row and the history rows the point names, capped at the tables' last rows (the cap never binds under
    the bounds on the index words). -/
def uRow (fU : S4096.Idx → BitVec 32) (i : Fin 4096) : Fin 100000 := ⟨min (fU (ix1 i)).toNat 99999, by omega⟩
def kRow (fI : S81920.Idx → BitVec 32) (i : Fin 4096) (n : Fin 20) : Fin 100001 :=
  ⟨min (fI (ix1 ⟨20 * i.val + n.val, by omega⟩)).toNat 100000, by omega⟩

/-- `w_n · item_n` at column `d`. -/
def weK (x5 : S20x1.Idx → EReal) (gI : S100001x64.Idx → EReal) (fI : S81920.Idx → BitVec 32) (i : Fin 4096) (n : Fin 20)
    (d : Fin 64) : EReal := x5 (ix2 n 0) * gI (ix2 (kRow fI i n) d)

namespace BlockValue

theorem hz2 : (![0, 0] : Fin 2 → Nat) = fun _ => 0 := funext fun a => by fin_cases a <;> rfl
theorem hz3 : (![0, 0, 0] : Fin 3 → Nat) = fun _ => 0 := funext fun a => by fin_cases a <;> rfl

/-! ## The payload's layout, read at an index -/

/-- Row `a` of a 20×64 array read through a one-row slice: column `j 1` of that row. -/
theorem slice_row_apply {α : Type} (W : S20x64.Idx → α) (a : Nat) (ha : a < 20) (h : S20x64.Slices ![a, 0] S1x64)
    (j : S1x64.Idx) : extractStridedSlice S1x64 ![a, 0] W h j = W (ix2 ⟨a, ha⟩ (j 1)) :=
  extractStridedSlice_apply _ _ _ _ _ fun x => match x with
    | ⟨0, _⟩ => by
      have h0 : (j 0).val < 1 := (j 0).isLt
      show a = a + (j 0).val
      omega
    | ⟨1, _⟩ => by show (j 1).val = 0 + (j 1).val; omega

/-- Row `a` of a 20×64 array is a block of it. -/
theorem slices_row (a : Nat) (ha : a < 20) : S20x64.Slices ![a, 0] S1x64 :=
  ⟨rfl, fun x => match x with
    | ⟨0, _⟩ => by show a + 1 ≤ 20; omega
    | ⟨1, _⟩ => by show 0 + 64 ≤ 64; omega⟩

/-- The product of two one-row slices of one array, at a column. -/
theorem pair_apply (W : FVec Ideal S20x64 .f32) (a b : Nat) (ha : a < 20) (hb : b < 20) (j : S1x64.Idx) :
    mulf (extractStridedSlice S1x64 ![a, 0] W (slices_row a ha)) (extractStridedSlice S1x64 ![b, 0] W (slices_row b hb)) j
      = W (ix2 ⟨a, ha⟩ (j 1)) * W (ix2 ⟨b, hb⟩ (j 1)) := by
  rw [mulf_apply, slice_row_apply W a ha, slice_row_apply W b hb]

/-- The weighted history rows `we = broadcast(w) ⊙ items`, at an index: `w_n · item_n[d]`. -/
theorem we_apply (v250 : Vec Ideal S20x64 .f32) (v251 : Vec Ideal S20x1 .f32) (n : Fin 20) (d : Fin 64) :
    k0_pay4 v250 v251 (ix2 n d) = v251 (ix2 n 0) * v250 (ix2 n d) := by
  unfold k0_pay4
  show (mulf (broadcastTo S20x64 (shapeCast S20x1 v251 _) _) (v250 : FVec Ideal S20x64 .f32) : FVec Ideal S20x64 .f32) (ix2 n d) = _
  rw [mulf_apply, shapeCast_self]
  congr 1
  exact broadcastTo_apply _ _ _ _ fun a => match a with
    | ⟨0, _⟩ => rfl
    | ⟨1, _⟩ => rfl

/-- The user rows `broadcast(user) ⊙ we`, at an index. -/
theorem uwe_apply (v250 : Vec Ideal S20x64 .f32) (v251 : Vec Ideal S20x1 .f32) (v255 : Vec Ideal S1x64 .f32) (n : Fin 20)
    (d : Fin 64) : k0_pay5 v250 v251 v255 (ix2 n d) = v255 (ix2 0 d) * (v251 (ix2 n 0) * v250 (ix2 n d)) := by
  unfold k0_pay5
  show (mulf (broadcastTo S20x64 (v255 : FVec Ideal S1x64 .f32) _) (k0_pay4 v250 v251) : FVec Ideal S20x64 .f32) (ix2 n d) = _
  rw [mulf_apply, we_apply]
  congr 1
  exact broadcastTo_apply _ _ _ _ fun a => match a with
    | ⟨0, _⟩ => rfl
    | ⟨1, _⟩ => rfl

/-- The stored block at `(0, r, d)`, `r < 20`: the user rows at `(r, d)`. -/
theorem pay3_lo (U : FVec Ideal S20x64 .f32) (P : FVec Ideal S190x64 .f32) (r : Fin 210) (h : r.val < 20) (d : Fin 64) :
    k0_pay3 U P (ix3 0 r d) = U (ix2 ⟨r.val, h⟩ d) := by
  unfold k0_pay3
  refine (shapeCast_apply _ _ (ix3 (0 : Fin 1) r d) (ix2 r d) ?_).trans ?_
  · rw [Shape.rowMajor_val_two, Shape.rowMajor_val_three]
    show r.val * 64 + d.val = (0 * 210 + r.val) * 64 + d.val
    omega
  · exact concatenate_pair_apply_left (t := S210x64) (s₁ := S20x64) (s₂ := S190x64) 0 U P _ (ix2 r d) rfl (ix2 ⟨r.val, h⟩ d) fun b => match b with
      | ⟨0, _⟩ => rfl
      | ⟨1, _⟩ => rfl

/-- The stored block at `(0, r, d)`, `20 ≤ r`: the pair rows at `(r − 20, d)`. -/
theorem pay3_hi (U : FVec Ideal S20x64 .f32) (P : FVec Ideal S190x64 .f32) (r : Fin 210) (h : 20 ≤ r.val) (d : Fin 64) :
    k0_pay3 U P (ix3 0 r d) = P (ix2 ⟨r.val - 20, by omega⟩ d) := by
  unfold k0_pay3
  refine (shapeCast_apply _ _ (ix3 (0 : Fin 1) r d) (ix2 r d) ?_).trans ?_
  · rw [Shape.rowMajor_val_two, Shape.rowMajor_val_three]
    show r.val * 64 + d.val = (0 * 210 + r.val) * 64 + d.val
    omega
  · exact concatenate_pair_apply_right (t := S210x64) (s₁ := S20x64) (s₂ := S190x64) 0 U P _ (ix2 r d) rfl rfl (ix2 ⟨r.val - 20, by omega⟩ d)
      (fun b hb => match b with
        | ⟨0, _⟩ => absurd rfl hb
        | ⟨1, _⟩ => rfl)
      (by show (r.val - 20) + 20 = r.val; omega)

/-- Extents along axis 0 of pieces that are all one row of 64: the first `k` of them sum to `k`. -/
theorem sum_unit_extents (ss : List Shape) (n : Nat) (hs : ss = List.replicate n S1x64) (k : Nat) (hk : k ≤ n) :
    ((ss.take k).map fun s => if h : s.rank = S190x64.rank then s.size ((0 : Fin S190x64.rank).cast h.symm) else 0).sum = k := by
  subst hs
  rw [List.take_replicate, List.map_replicate, List.sum_replicate, Nat.min_eq_left hk]
  show k • 1 = k
  simp

/-- A concatenation along the rows of 190 one-row pieces, read at row `p`: piece `p` at its only row — stated for
    all rows at once, each piece's value at the column given by `T`. -/
theorem concat_rows_apply (xs : List ((s : Shape) × (s.Idx → EReal))) (h : Shape.Concatenates (xs.map (·.1)) S190x64 0)
    (hs : xs.map (·.1) = List.replicate 190 S1x64) (hlen : xs.length = 190) (d : Fin 64)
    (T : (p : Nat) → p < 190 → EReal)
    (hT : ∀ (p : Nat) (hp : p < 190), ∃ x₁ : S1x64.Idx → EReal, xs[p]'(hlen.symm ▸ hp) = ⟨S1x64, x₁⟩ ∧ x₁ (ix2 0 d) = T p hp)
    (p : Nat) (hp : p < 190) :
    concatenate S190x64 0 xs h (ix2 ⟨p, hp⟩ d) = T p hp := by
  obtain ⟨x₁, hxk, hx⟩ := hT p hp
  refine (concatenate_apply_piece 0 xs h _ p (hlen.symm ▸ hp) S1x64 x₁ hxk rfl p
    (by rw [List.map_take]; exact sum_unit_extents _ 190 hs p (by omega))
    (ix2 0 d)
    (fun b hb => match b with
      | ⟨0, _⟩ => absurd rfl hb
      | ⟨1, _⟩ => rfl)
    (by show p + 0 = p; omega)).trans hx

/-! ## What the copies leave in the scratch -/

/-- The index word of history slot `n` of point `i` sits at position `20 i + n` of the flat history table: the
    32-bit chain `i · 20 + n` does not wrap, since `i < 4096`. -/
theorem off_item (i : grid0.Coords) (n : Nat) (hn : n < 20) :
    (![(Scalar.indexCast (Scalar.addi (Scalar.muli (BitVec.ofNat 32 (i 0).val) 20#32) (BitVec.ofNat 32 n))).toNat] : Fin 1 → Nat)
      = ![20 * (i 0).val + n] := by
  have r_i0 : (i 0).val < 4096 := (i 0).isLt
  have h0 : Affine.IsInt (BitVec.ofNat 32 (i 0).val) (((i 0).val : Int)) := Affine.ofNat _ (by omega)
  have h20 : Affine.IsInt 20#32 (20) := Affine.ofNat _ (by omega)
  have hm : Affine.IsInt _ (20 * ((i 0).val : Int)) := Affine.muli h0 h20 (by omega)
  have hn' : Affine.IsInt (BitVec.ofNat 32 n) ((n : Int)) := Affine.ofNat _ (by omega)
  have ha : Affine.IsInt _ (20 * ((i 0).val : Int) + n) := Affine.addi hm hn' (by omega)
  exact Affine.vec_cons (Affine.indexCast ha) (by omega) Affine.vec_nil

/-- The same, as the position itself. -/
theorem item_pos (i : grid0.Coords) (n : Nat) (hn : n < 20) :
    (Scalar.indexCast (Scalar.addi (Scalar.muli (BitVec.ofNat 32 (i 0).val) 20#32) (BitVec.ofNat 32 n))).toNat
      = 20 * (i 0).val + n := congrFun (off_item i n hn) 0

/-- A one-row slice at row `k` lies inside the item table, the user table, the scratch. -/
theorem inb_itemRow (OFF : Fin 2 → Nat) (k : Nat) (hOFF : OFF = ![k, 0]) (hk : k < 100001) :
    ∀ a, OFF a + S1x64.size a ≤ S100001x64.size a := by
  subst hOFF
  intro a
  fin_cases a
  · show k + 1 ≤ 100001; omega
  · show 0 + 64 ≤ 64; omega
theorem inb_userRow (OFF : Fin 2 → Nat) (k : Nat) (hOFF : OFF = ![k, 0]) (hk : k < 100000) :
    ∀ a, OFF a + S1x64.size a ≤ S100000x64.size a := by
  subst hOFF
  intro a
  fin_cases a
  · show k + 1 ≤ 100000; omega
  · show 0 + 64 ≤ 64; omega
theorem inb_scrRow (n : Nat) (hn : n < 21) : ∀ a, (![n, 0] : Fin 2 → Nat) a + S1x64.size a ≤ S21x64.size a := by
  intro a
  fin_cases a
  · show n + 1 ≤ 21; omega
  · show 0 + 64 ≤ 64; omega

/-- A one-word load from the flat history table reads the word at the position the load's rectangle names. -/
theorem wordI_at (c : Dev nD) (fI : Bf (F := F) c tI) (r : LoadRect S81920) (j : r.shape.Idx) (o : Nat) (ho : o < 81920)
    (h : (r.idx j 0).val = o) : View.readAt (Elt F) tI.view r fI j = fI (ix1 ⟨o, ho⟩) := by
  show fI _ = fI _
  refine congrArg fI (funext fun a => Fin.ext ?_)
  match a with
  | ⟨0, _⟩ => exact h

/-- A one-word load from the user index table reads the word at the position the load's rectangle names. -/
theorem wordU_at (c : Dev nD) (fU : Bf (F := F) c tU) (r : LoadRect S4096) (j : r.shape.Idx) (o : Nat) (ho : o < 4096)
    (h : (r.idx j 0).val = o) : View.readAt (Elt F) tU.view r fU j = fU (ix1 ⟨o, ho⟩) := by
  show fU _ = fU _
  refine congrArg fU (funext fun a => Fin.ext ?_)
  match a with
  | ⟨0, _⟩ => exact h

/-- Row `k` of the item table read through a one-row slice. -/
theorem item_read (c : Dev nD) (gI : Bf (F := F) c eI) (k : Nat) (hk : k < 100001)
    (inb : ∀ a, (![k, 0] : Fin 2 → Nat) a + S1x64.size a ≤ S100001x64.size a) (hsl) (x : S1x64.Idx) :
    ReadAs.same.apply (View.read (Elt F) (eI.slice (Rect.unit ![k, 0] S1x64.size inb) hsl).view gI) x
      = gI (ix2 ⟨k, hk⟩ (x 1)) := by
  show gI _ = gI _
  refine congrArg gI (funext fun a => Fin.ext ?_)
  match a with
  | ⟨0, _⟩ =>
    have h0 : (x 0).val < 1 := (x 0).isLt
    show k + 1 * (x 0).val = k
    omega
  | ⟨1, _⟩ => show 0 + 1 * (x 1).val = (x 1).val; omega

/-- Row `k` of the user table read through a one-row slice. -/
theorem user_read (c : Dev nD) (gU : Bf (F := F) c eU) (k : Nat) (hk : k < 100000)
    (inb : ∀ a, (![k, 0] : Fin 2 → Nat) a + S1x64.size a ≤ S100000x64.size a) (hsl) (x : S1x64.Idx) :
    ReadAs.same.apply (View.read (Elt F) (eU.slice (Rect.unit ![k, 0] S1x64.size inb) hsl).view gU) x
      = gU (ix2 ⟨k, hk⟩ (x 1)) := by
  show gU _ = gU _
  refine congrArg gU (funext fun a => Fin.ext ?_)
  match a with
  | ⟨0, _⟩ =>
    have h0 : (x 0).val < 1 := (x 0).isLt
    show k + 1 * (x 0).val = k
    omega
  | ⟨1, _⟩ => show 0 + 1 * (x 1).val = (x 1).val; omega

/-- What the scratch holds once the twenty-one copies have landed: at row `n < 20` the item table's row the
    history's `n`-th word names, at row 20 the user table's row the user's word names. -/
def scrG (fU : S4096.Idx → BitVec 32) (fI : S81920.Idx → BitVec 32) (gU : S100000x64.Idx → Elt F .f32)
    (gI : S100001x64.Idx → Elt F .f32) (i : Fin 4096) : S21x64.Idx → Elt F .f32 :=
  fun y => if h : (y 0).val < 20 then gI (ix2 (kRow fI i ⟨(y 0).val, h⟩) (y 1)) else gU (ix2 (uRow fU i) (y 1))

/-- Scratch row `n` as an index of the scratch. -/
theorem emb_row (n : Nat) (hn : n < 21) (inbD : ∀ a, (![n, 0] : Fin 2 → Nat) a + S1x64.size a ≤ S21x64.size a) (x : S1x64.Idx) :
    (Rect.unit (s := S21x64) ![n, 0] S1x64.size inbD).emb x = ix2 ⟨n, hn⟩ (x 1) := by
  funext a
  refine Fin.ext ?_
  match a with
  | ⟨0, _⟩ =>
    have h0 : (x 0).val < 1 := (x 0).isLt
    show n + 1 * (x 0).val = n
    omega
  | ⟨1, _⟩ => show 0 + 1 * (x 1).val = (x 1).val; omega

/-- The copy into scratch row `n < 20` carries the item row the history's `n`-th word names: the word is loaded from
    position `20 i + n` of the flat history table, and the copy's source is the one-row slice of the item table at the
    row that word names. -/
theorem item_piece (c : Dev nD) (i : grid0.Coords) (fU : Bf (F := F) c tU) (fI : Bf (F := F) c tI) (gU : Bf (F := F) c eU)
    (gI : Bf (F := F) c eI) (hI : ∀ r j, (tI.view.readAt (Elt F) r fI j).toNat < 100001)
    (n : Nat) (hn : n < 20) (r : LoadRect S81920) (j : r.shape.Idx) (hr : (r.idx j 0).val = 20 * (i 0).val + n)
    (OFF : Fin 2 → Nat) (hOFF : OFF = ![(View.readAt (Elt F) tI.view r fI j).toNat, 0]) (x : S1x64.Idx) :
    ReadAs.same.apply (View.read (Elt F)
        (eI.slice (Rect.unit OFF S1x64.size (inb_itemRow OFF _ hOFF (hI r j))) (fun _ => rfl)).view gI) x
      = scrG fU fI gU gI (i 0) ((Rect.unit (s := S21x64) ![n, 0] S1x64.size (inb_scrRow n (by omega))).emb x) := by
  subst hOFF
  have hi : (i 0).val < 4096 := (i 0).isLt
  have hk := hI r j
  have hw := wordI_at c fI r j (20 * (i 0).val + n) (by omega) hr
  rw [item_read c gI _ hk, emb_row n (by omega) _ x]
  unfold scrG
  rw [dif_pos (show ((ix2 (⟨n, by omega⟩ : Fin 21) (x 1) : S21x64.Idx) 0).val < 20 from hn)]
  refine congrArg gI (congrArg (fun k => ix2 k (x 1)) (Fin.ext ?_))
  have hab := congrArg BitVec.toNat hw
  exact hab.trans (Nat.min_eq_left (by rw [← hab]; omega)).symm

/-- The copy into scratch row 20 carries the user row the user's word names: the word is loaded from position `i` of
    the user index table. -/
theorem user_piece (c : Dev nD) (i : grid0.Coords) (fU : Bf (F := F) c tU) (fI : Bf (F := F) c tI) (gU : Bf (F := F) c eU)
    (gI : Bf (F := F) c eI) (hU : ∀ r j, (tU.view.readAt (Elt F) r fU j).toNat < 100000)
    (r : LoadRect S4096) (j : r.shape.Idx) (hr : (r.idx j 0).val = (i 0).val)
    (OFF : Fin 2 → Nat) (hOFF : OFF = ![(View.readAt (Elt F) tU.view r fU j).toNat, 0]) (x : S1x64.Idx) :
    ReadAs.same.apply (View.read (Elt F)
        (eU.slice (Rect.unit OFF S1x64.size (inb_userRow OFF _ hOFF (hU r j))) (fun _ => rfl)).view gU) x
      = scrG fU fI gU gI (i 0) ((Rect.unit (s := S21x64) ![20, 0] S1x64.size (inb_scrRow 20 (by omega))).emb x) := by
  subst hOFF
  have hi : (i 0).val < 4096 := (i 0).isLt
  have hk := hU r j
  have hw := wordU_at c fU r j (i 0).val hi hr
  rw [user_read c gU _ hk, emb_row 20 (by omega) _ x]
  unfold scrG
  rw [dif_neg (show ¬((ix2 (⟨20, by omega⟩ : Fin 21) (x 1) : S21x64.Idx) 0).val < 20 from Nat.lt_irrefl 20)]
  refine congrArg gU (congrArg (fun k => ix2 k (x 1)) (Fin.ext ?_))
  have hab := congrArg BitVec.toNat hw
  exact hab.trans (Nat.min_eq_left (by rw [← hab]; omega)).symm

/-- A load of `k` rows of the scratch from row `o`, after writes whose pieces all agree with one function `G` of the
    scratch index and cover the scratch: `G` at the row and column read. -/
theorem scr_read (v : View sig .tc .vmem S21x64 .f32) (L : List (View.Piece (Elt F) S21x64 .f32)) (G : S21x64.Idx → Elt F .f32)
    (hpc : ∀ p ∈ L, ∀ x : p.1.shape.Idx, p.2 x = G (p.1.emb x)) (hcv : ∀ y, ∃ p ∈ L, y ∈ p.1.set)
    (o k : Nat) (inb : ∀ a, (![o, 0] : Fin 2 → Nat) a + (⟨2, ![k, 64]⟩ : Shape).size a ≤ S21x64.size a)
    (j : (⟨2, ![k, 64]⟩ : Shape).Idx) (m : Fin 21) (hm : m.val = o + (j 0).val) :
    v.readCov L (Rect.unit (s := S21x64) ![o, 0] (⟨2, ![k, 64]⟩ : Shape).size inb).toLoadRect j = G (ix2 m (j 1)) := by
  rw [View.readCov_eq_canon']
  show View.canon L _ = _
  rw [View.canon_apply_of_pieces G L hpc _ (hcv _)]
  refine congrArg G (funext fun a => Fin.ext ?_)
  match a with
  | ⟨0, _⟩ => show o + 1 * (j 0).val = m.val; omega
  | ⟨1, _⟩ => show 0 + 1 * (j 1).val = (j 1).val; omega

end BlockValue

open BlockValue

/-! ## The block -/

/-- The run's one store covers the output block. -/
theorem block_cover (c : Dev nD) (i : grid0.Coords) (arg5 : Memref sig .tc .vmem S20x1 .f32) (harg5 : arg5.IsWhole)
    (arg6 : Memref sig .tc .vmem S1x210x64 .f32) (harg6 : arg6.IsWhole) (x5 : Vec F S20x1 .f32)
    (fU : Bf (F := F) c tU) (fI : Bf (F := F) c tI) (gU : Bf (F := F) c eU) (gI : Bf (F := F) c eI)
    (hU : ∀ r j, (tU.view.readAt (Elt F) r fU j).toNat < 100000)
    (hI : ∀ r j, (tI.view.readAt (Elt F) r fI j).toNat < 100001) (y : S1x210x64.Idx) :
    ∃ pc ∈ (kernelRun (F := F) c i arg5 harg5 arg6 harg6 x5 fU fI gU gI hU hI).1, y ∈ pc.1.set :=
  View.cover_of_tiledL _ S1x210x64.size (by sl_kernel_rfl) y

set_option maxHeartbeats 4000000 in
/-- The block the body leaves, at `(0, r, d)`: `user[d] · we_r[d]` on the first twenty rows, and on row `20 + p` the
    product `we_a[d] · we_b[d]` of the `p`-th pair `a < b`. -/
theorem block_value (c : Dev nD) (i : grid0.Coords) (arg5 : Memref sig .tc .vmem S20x1 .f32) (harg5 : arg5.IsWhole)
    (arg6 : Memref sig .tc .vmem S1x210x64 .f32) (harg6 : arg6.IsWhole) (x5 : Vec Ideal S20x1 .f32)
    (fU : Bf (F := Ideal) c tU) (fI : Bf (F := Ideal) c tI) (gU : Bf (F := Ideal) c eU) (gI : Bf (F := Ideal) c eI)
    (hU : ∀ r j, (tU.view.readAt (Elt Ideal) r fU j).toNat < 100000)
    (hI : ∀ r j, (tI.view.readAt (Elt Ideal) r fI j).toNat < 100001) (r : Fin 210) (d : Fin 64) :
    VO.read (Elt Ideal) (VO.writes (Elt Ideal) VO.junk (kernelRun (F := Ideal) c i arg5 harg5 arg6 harg6 x5 fU fI gU gI hU hI).1) (ix3 0 r d)
      = if h : r.val < 20 then HMul.hMul (α := EReal) (β := EReal) (gU (ix2 (uRow fU (i 0)) d)) (weK x5 gI fI (i 0) ⟨r.val, h⟩ d)
        else weK x5 gI fI (i 0) ⟨Cert.Proof.Spec.pairA (r.val - 20), Cert.Proof.Spec.pairA_lt _ (by omega)⟩ d
           * weK x5 gI fI (i 0) ⟨Cert.Proof.Spec.pairB (r.val - 20), Cert.Proof.Spec.pairB_lt _ (by omega)⟩ d := by
  unfold kernelRun
  dsimp only
  sl_unfold_words
  -- the block is the one store's payload
  rw [View.read_writes_junk_eq_canon, View.canon_unit_zero hz3]
  -- the scratch's twenty-one pieces, each the row of a table its index word names; together they cover the scratch
  generalize hL : (⟨Rect.unit (s := S21x64) ![20, 0] S1x64.size _, _⟩ :: _ : List (View.Piece (Elt Ideal) S21x64 .f32)) = L
  have hpc : ∀ p ∈ L, ∀ x : p.1.shape.Idx, p.2 x = scrG (F := Ideal) fU fI gU gI (i 0) (p.1.emb x) := by
    rw [← hL]
    repeat' (first
      | exact fun _ h => absurd h List.not_mem_nil
      | refine List.forall_mem_cons.2 ⟨?_, ?_⟩)
    · intro x
      dsimp only
      refine user_piece c i fU fI gU gI hU _ _ ?_ _ rfl x
      exact congrFun (k0_off1_eq i) 0
    all_goals
      intro x
      dsimp only
      refine item_piece c i fU fI gU gI hI _ ?_ _ _ ?_ _ rfl x
      · decide
      · refine (Nat.add_zero _).trans (item_pos i _ ?_)
        decide
  have hcv : ∀ y, ∃ p ∈ L, y ∈ p.1.set := by
    rw [← hL]
    exact View.cover_of_tiledL _ S1x64.size (by sl_kernel_rfl)
  clear hL
  -- the three loads: the twenty history rows, the weights, the user row
  have hA : ∀ (n : Fin 20) (d' : Fin 64),
      scr.view.readCov L (Rect.unit (s := S21x64) ![0, 0] S20x64.size Gen.inb_S21x64_S20x64_0_0).toLoadRect (ix2 n d')
        = gI (ix2 (kRow fI (i 0) n) d') := fun n d' => by
    refine (scr_read scr.view L _ hpc hcv 0 20 _ (ix2 n d') ⟨n.val, by omega⟩ (by show n.val = 0 + n.val; omega)).trans ?_
    unfold scrG
    exact dif_pos n.isLt
  have hC : ∀ d' : Fin 64,
      scr.view.readCov L (Rect.unit (s := S21x64) ![20, 0] S1x64.size Gen.inb_S21x64_S1x64_20_0).toLoadRect (ix2 0 d')
        = gU (ix2 (uRow fU (i 0)) d') := fun d' => by
    refine (scr_read scr.view L _ hpc hcv 20 1 _ (ix2 0 d') ⟨20, by omega⟩ rfl).trans ?_
    unfold scrG
    exact dif_neg (Nat.lt_irrefl 20)
  have hB : View.readAt (Elt Ideal) arg5.view (Rect.unit ![0, 0] S20x1.size Gen.inb_S20x1_S20x1_0_0).toLoadRect (harg5.unread x5) = x5 := by
    rw [View.readAt_eq_ld, harg5.read_unread, View.ld_unit_zero (S := S20x1) hz2]
  rw [hB]
  generalize scr.view.readCov L (Rect.unit (s := S21x64) ![0, 0] S20x64.size Gen.inb_S21x64_S20x64_0_0).toLoadRect = A at hA ⊢
  generalize scr.view.readCov L (Rect.unit (s := S21x64) ![20, 0] S1x64.size Gen.inb_S21x64_S1x64_20_0).toLoadRect = C at hC ⊢
  by_cases h : r.val < 20
  · -- a user row
    rw [dif_pos h]
    refine (pay3_lo _ _ r h d).trans ?_
    rw [uwe_apply, hA, hC]
    rfl
  · -- a pair row: the (r − 20)-th of the 190 products, each two one-row slices of the weighted rows
    rw [dif_neg h]
    refine (pay3_hi _ _ r (by omega) d).trans ?_
    have hW : ∀ n : Fin 20, k0_pay4 A x5 (ix2 n d) = weK x5 gI fI (i 0) n d := fun n => by rw [we_apply, hA]; rfl
    unfold k0_pay2
    refine (concat_rows_apply _ _ rfl rfl d
      (fun p hp => k0_pay4 A x5 (ix2 ⟨Cert.Proof.Spec.pairA p, Cert.Proof.Spec.pairA_lt _ hp⟩ d)
        * k0_pay4 A x5 (ix2 ⟨Cert.Proof.Spec.pairB p, Cert.Proof.Spec.pairB_lt _ hp⟩ d)) ?_ (r.val - 20) (by omega)).trans ?_
    · intro p hp
      interval_cases p <;> exact ⟨_, rfl, pair_apply (k0_pay4 A x5) _ _ (by decide) (by decide) _⟩
    · rw [hW, hW]

end Cert.KernelIdeal.Hand

end
-- ==== Proof.KI.Value.lean ====
/-
  The kernel program's result array, entry by entry.

  The pipelined call runs the body once per batch row and writes the row's 1 × 210 × 64 block back after it; the
  block a row leaves is, entry by entry, the specification's block of that row — the user's row of the user table
  times each weighted history row, then the weighted rows multiplied pairwise — once the reshaped index tables and
  the weights' column are read as the argument arrays they are reshapes of.  The 4096 blocks tile the result array,
  so the array is the specification's blocks laid row after row, and the final reshape to 4096 × 13440 reads block
  r, column d of batch row b at flat column 64 r + d: the specification's array.
-/
import proofs.«429411_j5592047419689_3_alg».proof.Proof.KI.Frame
import proofs.«429411_j5592047419689_3_alg».proof.Proof.KI.BlockValue
import proofs.«429411_j5592047419689_3_alg».proof.Proof.Spec
import Idealize.ShloMosaic.Lib.ValueIdx
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.StableHlo Idealize.ShloMosaic.ValueIdx
open Idealize.SL.Sem
open Idealize.ShloMosaic.Pipeline (Dat)

section Generic
variable {F : FTy → Type} [FloatOps F]
variable (m : (ℓ : Loc nD τ sig) → Buf (Elt F) ℓ) (ρ : Dev nD → PrngReg)

/-! ## The grid and the two windows -/

/-- Point t as a batch row: the grid is the 4096 batch rows in order. -/
abbrev rowOf (t : Fin grid0.N) : Fin 4096 := ⟨t.val, Nat.lt_of_lt_of_eq t.isLt N_0⟩

theorem coords_val (t : Fin grid0.N) : ((grid0.coords t) 0).val = t.val := by
  have ht : t.val < 4096 := (rowOf t).isLt
  show t.val / grid0.stride 0 % grid0.bound 0 = t.val
  rw [show grid0.stride 0 = 1 from by decide, show grid0.bound 0 = 4096 from rfl, Nat.div_one, Nat.mod_eq_of_lt ht]

theorem coords_eq (t : Fin grid0.N) : (grid0.coords t) 0 = rowOf t := Fin.ext (coords_val t)

/-- The output window's block index at point t is (t, 0, 0). -/
theorem index1 (t : Fin (cfgA m ρ).N) :
    ((cfgA m ρ).win 1).index t (0 : Fin 3) = t.val ∧ ((cfgA m ρ).win 1).index t (1 : Fin 3) = 0
      ∧ ((cfgA m ρ).win 1).index t (2 : Fin 3) = 0 := by
  have ht : t.val < 4096 := (rowOf t).isLt
  refine ⟨?_, rfl, rfl⟩
  show (BitVec.ofNat 32 ((grid0.coords t) 0).val).toNat = t.val
  rw [coords_val, BitVec.toNat_ofNat]
  exact Nat.mod_eq_of_lt (by omega)

/-- The weights' window's block index is (0, 0) at every point. -/
theorem index0 (t : Fin (cfgA m ρ).N) :
    ((cfgA m ρ).win 0).index t (0 : Fin 2) = 0 ∧ ((cfgA m ρ).win 0).index t (1 : Fin 2) = 0 := ⟨rfl, rfl⟩

/-- Every point writes its block back: the block index moves at every step. -/
theorem flush1 (t : Fin (cfgA m ρ).N) : ((cfgA m ρ).win 1).flush t = true := by
  unfold Pipeline.Window.flush
  rw [show ((cfgA m ρ).win 1).isOut = true from rfl, Bool.true_and, Bool.or_eq_true, decide_eq_true_eq, decide_eq_true_eq]
  have ht : t.val < grid0.N := t.isLt
  by_cases hl : t.val + 1 = grid0.N
  · exact Or.inl hl
  · have hlt : t.val + 1 < grid0.N := by omega
    refine Or.inr ⟨hlt, fun h => ?_⟩
    have h0 := congrFun h (0 : Fin 3)
    rw [(index1 m ρ t).1, (index1 m ρ ⟨t.val + 1, hlt⟩).1] at h0
    exact Nat.succ_ne_self _ h0

/-- Point t's block is batch row t of the result array. -/
theorem blk1_emb (t : Fin (cfgA m ρ).N) (j : S1x210x64.Idx) :
    ((((cfgA m ρ).win 1).blk t).view.emb j : S4096x210x64.Idx) = ix3 (rowOf t) (j 1) (j 2) := by
  obtain ⟨e0, e1, e2⟩ := index1 m ρ t
  have h0 : (j 0).val < 1 := (j 0).isLt
  funext a
  apply Fin.ext
  match a with
  | ⟨0, _⟩ => show ((cfgA m ρ).win 1).index t (0 : Fin 3) * 1 + 1 * (j 0).val = t.val; omega
  | ⟨1, _⟩ => show ((cfgA m ρ).win 1).index t (1 : Fin 3) * 210 + 1 * (j 1).val = (j 1).val; omega
  | ⟨2, _⟩ => show ((cfgA m ρ).win 1).index t (2 : Fin 3) * 64 + 1 * (j 2).val = (j 2).val; omega

/-- An entry of the result array is in point t's block iff it is in batch row t. -/
theorem mem_blk1 (t : Fin (cfgA m ρ).N) (k : S4096x210x64.Idx) :
    k ∈ (((cfgA m ρ).win 1).blk t).view.set ↔ (k 0).val = t.val := by
  have hset : k ∈ (((cfgA m ρ).win 1).blk t).view.set ↔ k ∈ (((cfgA m ρ).win 1).rect t).set :=
    Iff.of_eq (congrArg (fun S => k ∈ S) (View.set_slice_whole (sig := sig) main_v3 (((cfgA m ρ).win 1).rect t)))
  refine hset.trans (Rect.mem_set_unit.trans ?_)
  obtain ⟨e0, e1, e2⟩ := index1 m ρ t
  have k1 : (k 1).val < 210 := (k 1).isLt
  have k2 : (k 2).val < 64 := (k 2).isLt
  constructor
  · intro h
    have h0 : ((cfgA m ρ).win 1).index t (0 : Fin 3) * 1 ≤ (k 0).val ∧ (k 0).val < ((cfgA m ρ).win 1).index t (0 : Fin 3) * 1 + 1 := h (0 : Fin 3)
    omega
  · intro h a
    match a with
    | ⟨0, _⟩ => show ((cfgA m ρ).win 1).index t (0 : Fin 3) * 1 ≤ (k 0).val ∧ (k 0).val < ((cfgA m ρ).win 1).index t (0 : Fin 3) * 1 + 1; omega
    | ⟨1, _⟩ => show ((cfgA m ρ).win 1).index t (1 : Fin 3) * 210 ≤ (k 1).val ∧ (k 1).val < ((cfgA m ρ).win 1).index t (1 : Fin 3) * 210 + 210; omega
    | ⟨2, _⟩ => show ((cfgA m ρ).win 1).index t (2 : Fin 3) * 64 ≤ (k 2).val ∧ (k 2).val < ((cfgA m ρ).win 1).index t (2 : Fin 3) * 64 + 64; omega

/-! ## The reshaped buffers, read at an index -/

/-- The user index table at batch row b is the user index array at (b, 0). -/
theorem V_v0_apply (c : Dev nD) (b : Fin 4096) :
    (V m ρ c main_v0 : S4096.Idx → BitVec 32) (ix1 b) = (m ((c.tc : Thread nD τ).loc main_arg0) : S4096x1.Idx → BitVec 32) (ix2 b 0) := by
  rw [V_main_v0]
  show (m ((c.tc : Thread nD τ).loc main_arg0) : S4096x1.Idx → BitVec 32) (Shape.reshapeEquiv shapeCasts_S4096x1_S4096 (ix1 b)) = _
  refine congrArg _ (Shape.reshapeEquiv_eq_of_rowMajor _ ?_)
  rw [Shape.rowMajor_val_two, Shape.rowMajor_val_one]
  show b.val * 1 + 0 = b.val
  omega

/-- The history index table at position 20 b + n is the history index array at (b, n). -/
theorem V_v1_apply (c : Dev nD) (b : Fin 4096) (n : Fin 20) :
    (V m ρ c main_v1 : S81920.Idx → BitVec 32) (ix1 ⟨20 * b.val + n.val, by omega⟩)
      = (m ((c.tc : Thread nD τ).loc main_arg1) : S4096x20.Idx → BitVec 32) (ix2 b n) := by
  rw [V_main_v1]
  show (m ((c.tc : Thread nD τ).loc main_arg1) : S4096x20.Idx → BitVec 32) (Shape.reshapeEquiv shapeCasts_S4096x20_S81920 (ix1 ⟨20 * b.val + n.val, by omega⟩)) = _
  refine congrArg _ (Shape.reshapeEquiv_eq_of_rowMajor _ ?_)
  rw [Shape.rowMajor_val_two, Shape.rowMajor_val_one]
  show b.val * 20 + n.val = 20 * b.val + n.val
  omega

/-- The weights' window's block is the whole column at every point. -/
theorem blk0_emb (t : Fin (cfgA m ρ).N) (j : S20x1.Idx) :
    ((((cfgA m ρ).win 0).blk t).view.emb j : S20x1.Idx) = j := by
  obtain ⟨e0, e1⟩ := index0 m ρ t
  funext a
  apply Fin.ext
  match a with
  | ⟨0, _⟩ => show ((cfgA m ρ).win 0).index t (0 : Fin 2) * 20 + 1 * (j 0).val = (j 0).val; omega
  | ⟨1, _⟩ => show ((cfgA m ρ).win 0).index t (1 : Fin 2) * 1 + 1 * (j 1).val = (j 1).val; omega

/-- The weights' column at (n, 0) is the weights' vector at n. -/
theorem V_v2_apply (c : Dev nD) (n : Fin 20) :
    (V m ρ c main_v2 : S20x1.Idx → Elt F .f32) (ix2 n 0) = (m ((c.tc : Thread nD τ).loc main_arg4) : S20.Idx → Elt F .f32) (ix1 n) := by
  rw [V_main_v2]
  show (m ((c.tc : Thread nD τ).loc main_arg4) : S20.Idx → Elt F .f32) (Shape.reshapeEquiv shapeCasts_S20_S20x1 (ix2 n 0)) = _
  refine congrArg _ (Shape.reshapeEquiv_eq_of_rowMajor _ ?_)
  rw [Shape.rowMajor_val_two, Shape.rowMajor_val_one]
  show n.val = n.val * 1 + 0
  omega

/-- The weights' block the call stages at any point, at (n, 0), is the weights' vector at n. -/
theorem wblk_apply (c : Dev nD) (t : Fin (cfgA m ρ).N) (n : Fin 20) :
    (wblk m ρ c t : S20x1.Idx → Elt F .f32) (ix2 n 0) = (m ((c.tc : Thread nD τ).loc main_arg4) : S20.Idx → Elt F .f32) (ix1 n) := by
  unfold wblk
  exact (congrArg (V m ρ c main_v2 : S20x1.Idx → Elt F .f32) (blk0_emb m ρ t (ix2 n 0))).trans (V_v2_apply m ρ c n)

end Generic

section AtIdeal
variable (m : (ℓ : Loc nD τ sig) → Buf (Elt Ideal) ℓ) (ρ : Dev nD → PrngReg)

/-! ## The block a point leaves is the specification's -/

/-- The five argument arrays at launch, at the specification's types. -/
abbrev aU (c : Dev nD) : Cert.Proof.Spec.SU.Idx → BitVec 32 := m ((c.tc : Thread nD τ).loc main_arg0)
abbrev aH (c : Dev nD) : Cert.Proof.Spec.SH.Idx → BitVec 32 := m ((c.tc : Thread nD τ).loc main_arg1)
abbrev aTU (c : Dev nD) : Cert.Proof.Spec.STU.Idx → EReal := m ((c.tc : Thread nD τ).loc main_arg2)
abbrev aTI (c : Dev nD) : Cert.Proof.Spec.STI.Idx → EReal := m ((c.tc : Thread nD τ).loc main_arg3)
abbrev aW (c : Dev nD) : Cert.Proof.Spec.SW.Idx → EReal := m ((c.tc : Thread nD τ).loc main_arg4)

/-- The user-table row the body reads at batch row b is the specification's. -/
theorem uRow_eq (c : Dev nD) (b : Fin 4096) : uRow (V m ρ c main_v0) b = Cert.Proof.Spec.rowU (aU m c) b :=
  Fin.ext (by
    show min ((V m ρ c main_v0 : S4096.Idx → BitVec 32) (ix1 b)).toNat 99999 = min ((aU m c) (ix2 b 0)).toNat 99999
    rw [V_v0_apply])

/-- The item-table row the body reads at batch row b, history slot n is the specification's. -/
theorem kRow_eq (c : Dev nD) (b : Fin 4096) (n : Fin 20) : kRow (V m ρ c main_v1) b n = Cert.Proof.Spec.rowI (aH m c) b n :=
  Fin.ext (by
    show min ((V m ρ c main_v1 : S81920.Idx → BitVec 32) (ix1 ⟨20 * b.val + n.val, by omega⟩)).toNat 100000
      = min ((aH m c) (ix2 b n)).toNat 100000
    rw [V_v1_apply])

/-- The weighted history row the body forms is the specification's. -/
theorem weK_eq (c : Dev nD) (t : Fin (cfgA m ρ).N) (b : Fin 4096) (n : Fin 20) (d : Fin 64) :
    weK (wblk m ρ c t) (V m ρ c main_arg3) (V m ρ c main_v1) b n d = Cert.Proof.Spec.we (aH m c) (aTI m c) (aW m c) b n d := by
  unfold weK Cert.Proof.Spec.we
  rw [wblk_apply, kRow_eq, V_main_arg3]

/-- The block point t leaves, at block r, column d, is the specification's block of batch row t. -/
theorem outBlk_apply (hR : Ranges m ρ) (c : Dev nD) (t : Fin (cfgA m ρ).N) (r : Fin 210) (d : Fin 64) :
    outBlk m ρ hR c t (ix3 (0 : Fin 1) r d)
      = Cert.Proof.Spec.blockAt (aU m c) (aH m c) (aTU m c) (aTI m c) (aW m c) (rowOf t) r d := by
  unfold outBlk
  refine (block_value c (grid0.coords t) (ms0 m ρ t) (hs0 m ρ t) (ms1 m ρ t) (hs1 m ρ t) (wblk m ρ c t)
    (V m ρ c main_v0) (V m ρ c main_v1) (V m ρ c main_arg2) (V m ρ c main_arg3) (hR.user c) (hR.item c) r d).trans ?_
  unfold Cert.Proof.Spec.blockAt
  by_cases h : r.val < 20
  · rw [dif_pos h, dif_pos h, coords_eq, uRow_eq, weK_eq, V_main_arg2]
  · rw [dif_neg h, dif_neg h, coords_eq, weK_eq, weK_eq]

end AtIdeal

section Result
variable (m : (ℓ : Loc nD τ sig) → Buf (Elt Ideal) ℓ) (ρ : Dev nD → PrngReg)

/-! ## From the blocks to the array -/

/-- The result array as one function of the arguments: at (b, r, d) the specification's block r of batch row b at
    column d. -/
def G3 (c : Dev nD) : S4096x210x64.Idx → EReal := fun k =>
  Cert.Proof.Spec.blockAt (aU m c) (aH m c) (aTU m c) (aTI m c) (aW m c) (k 0) (k 1) (k 2)

/-- What point t writes back is block t of that function. -/
theorem flushed_eq (hR : Ranges m ρ) (c : Dev nD) (t : Fin (cfgA m ρ).N) :
    (dats m ρ hR 0 c).flushed 1 t = (((cfgA m ρ).win 1).blk t).view.read (Elt Ideal) (G3 m c) := by
  show ((cfgA m ρ).win 1).cut ((cfgA m ρ).grid.coords t) ((dats m ρ hR 0 c).after 1 t) = _
  rw [after_1]
  have key : ∀ j : S1x210x64.Idx, outBlk m ρ hR c t j = G3 m c ((((cfgA m ρ).win 1).blk t).view.emb j) := fun j => by
    obtain ⟨j0, r, d, rfl⟩ : ∃ (j0 : Fin 1) (r : Fin 210) (d : Fin 64), j = ix3 j0 r d := ⟨j 0, j 1, j 2, eq_ix3 j⟩
    obtain rfl : j0 = 0 := Subsingleton.elim _ _
    exact (outBlk_apply m ρ hR c t r d).trans (congrArg (G3 m c) (blk1_emb m ρ t (ix3 (0 : Fin 1) r d)).symm)
  funext j
  exact key j

/-- Every entry of the result array is in the block of the point of its batch row, and that point writes back. -/
theorem cover (k : S4096x210x64.Idx) :
    ∃ t : Fin (cfgA m ρ).N, ((cfgA m ρ).win 1).flush t = true ∧ k ∈ (((cfgA m ρ).win 1).blk t).view.set :=
  ⟨⟨(k 0).val, Nat.lt_of_lt_of_eq (k 0).isLt N_0.symm⟩, flush1 m ρ _, (mem_blk1 m ρ _ k).mpr rfl⟩

/-- So the call leaves the result array at that function. -/
theorem finalOut_eq (hR : Ranges m ρ) (c : Dev nD) : finalOut m ρ hR c = G3 m c := by
  unfold finalOut
  exact (dats m ρ hR 0 c).arrAt_eq_of_cover 1 (G3 m c) (fun t _ => flushed_eq m ρ hR c t) (fun k => cover m ρ k)

/-! ## The program's result -/

/-- THE RESULT: after the last reshape the result buffer holds the specification's array of the five arguments. -/
theorem final_value (hR : Ranges m ρ)
    (hU : ∀ (c : Dev nD) i, ((m ((c.tc : Thread nD τ).loc main_arg0)) i).toNat < 100000)
    (hI : ∀ (c : Dev nD) i, ((m ((c.tc : Thread nD τ).loc main_arg1)) i).toNat < 100001) (c : Dev nD) :
    StableHlo.after hostOps1 (W₁ m ρ hR c) (Proc.devRef .tc main_v4)
      = Cert.Proof.Spec.out (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4)) := by
  after_results
  rw [W₁_out, finalOut_eq]
  funext j
  obtain ⟨b, q, rfl⟩ : ∃ (b : Fin 4096) (q : Fin 13440), j = ix2 b q := ⟨j 0, j 1, eq_ix2 j⟩
  have hq : q.val < 13440 := q.isLt
  have hr : q.val / 64 < 210 := by omega
  have hd : q.val % 64 < 64 := Nat.mod_lt _ (by decide)
  show shapeCast S4096x13440 (G3 m c) shapeCasts_S4096x210x64_S4096x13440 (ix2 b q)
    = Cert.Proof.Spec.blockAt (aU m c) (aH m c) (aTU m c) (aTI m c) (aW m c) b ⟨q.val / 64, hr⟩ ⟨q.val % 64, hd⟩
  rw [shapeCast_apply _ shapeCasts_S4096x210x64_S4096x13440 (ix2 b q) (ix3 b ⟨q.val / 64, hr⟩ ⟨q.val % 64, hd⟩) (by
    rw [Shape.rowMajor_val_three, Shape.rowMajor_val_two]
    show (b.val * 210 + q.val / 64) * 64 + q.val % 64 = b.val * 13440 + q.val
    omega)]
  rfl

end Result

end Cert.KernelIdeal.Hand

end
-- ==== Proof.Ref.Run.lean ====
/-
  The reference's run.

  The reference computes, for each of 4096 batch rows b, 20 history slots s and 64 columns j,
    user b j  = user_table[user b] j,   item b s j = item_table[memory b s] j,   we b s j = weights s * item b s j,
  and returns, per batch row, the 20 products `user b j * we b s j` followed by the 190 products `we b a j * we b a' j`
  over the pairs a < a' of slots, flattened to 13440 columns. The pairs are not a constant of the program: it computes
  them — a 20 × 20 mask of the entries above the diagonal, the running sum of the flattened mask, a scatter-add of ones at
  those sums and a second running sum, then quotient and remainder by 20 — and gathers `we` along its history axis at
  the two index vectors it gets.

  @main is stated in two parts run one after the other, and it makes eight calls of six functions (@triu, @cumsum, @clip,
  @cumsum_1, @floor_divide twice, @remainder twice), all but @triu's and @clip's making one call of their own (an inner
  running sum; a select): a call runs the callee's operations on the operands, over buffers of that call's own. Here the whole of it is ONE list of 163 operations in order, each callee's operations
  standing at its call over that call's buffers; @main is the list run as a straight line (`main_eq`: both sides unfold
  to the same chain of steps); the list touches TensorCore buffers only and every operation determines what it writes;
  no operation writes an argument. So (`run`) every weakly fair execution of @main terminates, the result buffer holding
  the fold of the 163 operations over the launch contents and the five arguments what they held.
-/
import proofs.«429411_j5592047419689_3_alg».proof.Proof.Gen.ReferenceIdeal
import Idealize.ShloMosaic.Lib.StableHlo.Run
import Idealize.ShloMosaic.Lib.Pipeline.Regions

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's 163 operations, in order, the calls' bodies in place of the calls: 146 from its first part (52 of @main's own
    and, at its eight calls, the 9 of @triu, 5 of @cumsum, 3 of @clip, 3 of @cumsum_1, 16 of each @floor_divide and 21 of
    each @remainder), 17 from its second, which makes no call. One operation per buffer of the signature other than the
    five arguments'. -/
abbrev ops : List (HloOp τ sig (Elt F)) :=
  [
    -- rows of the user table: the user index (the first argument's one column), a negative one wrapped by adding the table's
    -- 100000 rows, then one 64-column row gathered per batch row
    reshape main_arg0 main_v0 rfl shapeCasts_S4096x1_S4096,
    nullary main_c (constantI S_ 32 0#32),
    unary main_c main_v1 (broadcastInDim S4096 ![] bcast_S_S4096 : (⟨S_, .i32⟩ : BufTy).Contents (Elt F) → (⟨S4096, .i32⟩ : BufTy).Contents (Elt F)),
    binary main_v0 main_v1 main_v2 (cmpi .slt : (⟨S4096, .i32⟩ : BufTy).Contents (Elt F) → (⟨S4096, .i32⟩ : BufTy).Contents (Elt F) → (⟨S4096, .i1⟩ : BufTy).Contents (Elt F)),
    nullary main_c_0 (constantI S_ 32 100000#32),
    unary main_c_0 main_v3 (broadcastInDim S4096 ![] bcast_S_S4096 : (⟨S_, .i32⟩ : BufTy).Contents (Elt F) → (⟨S4096, .i32⟩ : BufTy).Contents (Elt F)),
    binary main_v0 main_v3 main_v4 (addi : (⟨S4096, .i32⟩ : BufTy).Contents (Elt F) → (⟨S4096, .i32⟩ : BufTy).Contents (Elt F) → (⟨S4096, .i32⟩ : BufTy).Contents (Elt F)),
    ternary main_v2 main_v4 main_v0 main_v5 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v5 main_v6 (broadcastInDim S4096x1 ![0] bcast_S4096_S4096x1_0 : (⟨S4096, .i32⟩ : BufTy).Contents (Elt F) → (⟨S4096x1, .i32⟩ : BufTy).Contents (Elt F)),
    binary main_arg2 main_v6 main_v7 ((fun x i => Host.gather gather_S100000x64_S4096x1_S4096x64_1_0_n_n_0_1_164 x i) : (⟨S100000x64, .f32⟩ : BufTy).Contents (Elt F) → (⟨S4096x1, .i32⟩ : BufTy).Contents (Elt F) → (⟨S4096x64, .f32⟩ : BufTy).Contents (Elt F)),
    -- rows of the item table: each of the 20 history entries, a negative one wrapped by adding the table's 100001 rows, then
    -- one 64-column row gathered per entry
    nullary main_c_1 (constantI S_ 32 0#32),
    unary main_c_1 main_v8 (broadcastInDim S4096x20 ![] bcast_S_S4096x20 : (⟨S_, .i32⟩ : BufTy).Contents (Elt F) → (⟨S4096x20, .i32⟩ : BufTy).Contents (Elt F)),
    binary main_arg1 main_v8 main_v9 (cmpi .slt : (⟨S4096x20, .i32⟩ : BufTy).Contents (Elt F) → (⟨S4096x20, .i32⟩ : BufTy).Contents (Elt F) → (⟨S4096x20, .i1⟩ : BufTy).Contents (Elt F)),
    nullary main_c_2 (constantI S_ 32 100001#32),
    unary main_c_2 main_v10 (broadcastInDim S4096x20 ![] bcast_S_S4096x20 : (⟨S_, .i32⟩ : BufTy).Contents (Elt F) → (⟨S4096x20, .i32⟩ : BufTy).Contents (Elt F)),
    binary main_arg1 main_v10 main_v11 (addi : (⟨S4096x20, .i32⟩ : BufTy).Contents (Elt F) → (⟨S4096x20, .i32⟩ : BufTy).Contents (Elt F) → (⟨S4096x20, .i32⟩ : BufTy).Contents (Elt F)),
    ternary main_v9 main_v11 main_arg1 main_v12 (select : (⟨S4096x20, .i1⟩ : BufTy).Contents (Elt F) → (⟨S4096x20, .i32⟩ : BufTy).Contents (Elt F) → (⟨S4096x20, .i32⟩ : BufTy).Contents (Elt F) → (⟨S4096x20, .i32⟩ : BufTy).Contents (Elt F)),
    unary main_v12 main_v13 (broadcastInDim S4096x20x1 ![0, 1] bcast_S4096x20_S4096x20x1_0_1 : (⟨S4096x20, .i32⟩ : BufTy).Contents (Elt F) → (⟨S4096x20x1, .i32⟩ : BufTy).Contents (Elt F)),
    binary main_arg3 main_v13 main_v14 ((fun x i => Host.gather gather_S100001x64_S4096x20x1_S4096x20x64_2_0_n_n_0_2_164 x i) : (⟨S100001x64, .f32⟩ : BufTy).Contents (Elt F) → (⟨S4096x20x1, .i32⟩ : BufTy).Contents (Elt F) → (⟨S4096x20x64, .f32⟩ : BufTy).Contents (Elt F)),
    -- the weighted history `we b s j = weights s * item b s j`, and the user-item block `user b j * we b s j`
    unary main_arg4 main_v15 (broadcastInDim S1x20x1 ![1] bcast_S20_S1x20x1_1 : (⟨S20, .f32⟩ : BufTy).Contents (Elt F) → (⟨S1x20x1, .f32⟩ : BufTy).Contents (Elt F)),
    unary main_v15 main_v16 (broadcastInDim S4096x20x64 ![0, 1, 2] bcast_S1x20x1_S4096x20x64_0_1_2 : (⟨S1x20x1, .f32⟩ : BufTy).Contents (Elt F) → (⟨S4096x20x64, .f32⟩ : BufTy).Contents (Elt F)),
    binary main_v16 main_v14 main_v17 (mulf : (⟨S4096x20x64, .f32⟩ : BufTy).Contents (Elt F) → (⟨S4096x20x64, .f32⟩ : BufTy).Contents (Elt F) → (⟨S4096x20x64, .f32⟩ : BufTy).Contents (Elt F)),
    unary main_v7 main_v18 (broadcastInDim S4096x1x64 ![0, 2] bcast_S4096x64_S4096x1x64_0_2 : (⟨S4096x64, .f32⟩ : BufTy).Contents (Elt F) → (⟨S4096x1x64, .f32⟩ : BufTy).Contents (Elt F)),
    unary main_v18 main_v19 (broadcastInDim S4096x20x64 ![0, 1, 2] bcast_S4096x1x64_S4096x20x64_0_1_2 : (⟨S4096x1x64, .f32⟩ : BufTy).Contents (Elt F) → (⟨S4096x20x64, .f32⟩ : BufTy).Contents (Elt F)),
    binary main_v19 main_v17 main_v20 (mulf : (⟨S4096x20x64, .f32⟩ : BufTy).Contents (Elt F) → (⟨S4096x20x64, .f32⟩ : BufTy).Contents (Elt F) → (⟨S4096x20x64, .f32⟩ : BufTy).Contents (Elt F)),
    -- a 20 × 20 array of ones
    nullary main_cst (constant S_ .f32 0x3F800000#32),
    unary main_cst main_v21 (broadcastInDim S20x20 ![] bcast_S_S20x20 : (⟨S_, .f32⟩ : BufTy).Contents (Elt F) → (⟨S20x20, .f32⟩ : BufTy).Contents (Elt F)),
    -- @triu on it: zero wherever row ≥ column, so the ones are exactly those above the diagonal
    TRef.nullary main_call0.v0 (iotaInDim S20x20 32 0),
    TRef.nullary main_call0.c (constantI S_ 32 0#32),
    TRef.unary main_call0.c main_call0.v1 (broadcastInDim S20x20 ![] bcast_S_S20x20),
    TRef.binary main_call0.v0 main_call0.v1 main_call0.v2 addi,
    TRef.nullary main_call0.v3 (iotaInDim S20x20 32 1),
    TRef.binary main_call0.v2 main_call0.v3 main_call0.v4 (cmpi .sge),
    TRef.nullary main_call0.cst (constant S_ .f32 0x00000000#32),
    TRef.unary main_call0.cst main_call0.v5 (broadcastInDim S20x20 ![] bcast_S_S20x20),
    TRef.ternary main_call0.v4 main_call0.v5 (.of main_v21 : TRef sig ⟨S20x20, .f32⟩) main_call0.v6 select,
    -- the mask: where that array differs from 0.0
    nullary main_cst_3 (constant S_ .f32 0x00000000#32),
    unary main_cst_3 main_v23 (broadcastInDim S20x20 ![] bcast_S_S20x20 : (⟨S_, .f32⟩ : BufTy).Contents (Elt F) → (⟨S20x20, .f32⟩ : BufTy).Contents (Elt F)),
    binary main_v22 main_v23 main_v24 (cmpf .une : (⟨S20x20, .f32⟩ : BufTy).Contents (Elt F) → (⟨S20x20, .f32⟩ : BufTy).Contents (Elt F) → (⟨S20x20, .i1⟩ : BufTy).Contents (Elt F)),
    -- @cumsum, with the @cumsum_0 it calls: the mask flattened to 400 entries, read as integers, and its running sum — at each
    -- position the sum of a window of 400 ending there, 399 zeros of padding on the left
    TRef.reshape (.of main_v24 : TRef sig ⟨S20x20, .i1⟩) main_call1.v0 rfl shapeCasts_S20x20_S400,
    TRef.unary main_call1.v0 main_call1.v1 (extui 32 · natLt_1_32),
    TRef.nullary main_call1.call0.c (constantI S_ 32 0#32),
    TRef.unary main_call1.call0.c main_call1.call0.v0 (broadcastInDim S_ ![] bcast_S_S_),
    TRef.binary main_call1.v1 main_call1.call0.v0 main_call1.call0.v1 (fun x v => Host.reduceWindow IntOp.addi ![400] ![1] ![399] ![0] x v reduceWindows_S400_S400_w400s1p399_0 h_S_),
    -- 190 zeros, to be added into
    nullary main_c_4 (constantI S_ 32 0#32),
    unary main_c_4 main_v26 (broadcastInDim S190 ![] bcast_S_S190 : (⟨S_, .i32⟩ : BufTy).Contents (Elt F) → (⟨S190, .i32⟩ : BufTy).Contents (Elt F)),
    -- @clip: the running sum bounded below by 0
    nullary main_c_5 (constantI S_ 32 0#32),
    TRef.unary (.of main_c_5 : TRef sig ⟨S_, .i32⟩) main_call2.v0 id,
    TRef.unary main_call2.v0 main_call2.v1 (broadcastInDim S400 ![] bcast_S_S400),
    TRef.binary main_call2.v1 (.of main_v25 : TRef sig ⟨S400, .i32⟩) main_call2.v2 maxsi,
    -- each bounded sum as a position among the 190 (a negative one wrapped by adding 190), laid out as a [400, 1] table of start
    -- indices; and 400 ones
    nullary main_c_6 (constantI S_ 32 0#32),
    unary main_c_6 main_v28 (broadcastInDim S400 ![] bcast_S_S400 : (⟨S_, .i32⟩ : BufTy).Contents (Elt F) → (⟨S400, .i32⟩ : BufTy).Contents (Elt F)),
    binary main_v27 main_v28 main_v29 (cmpi .slt : (⟨S400, .i32⟩ : BufTy).Contents (Elt F) → (⟨S400, .i32⟩ : BufTy).Contents (Elt F) → (⟨S400, .i1⟩ : BufTy).Contents (Elt F)),
    nullary main_c_7 (constantI S_ 32 190#32),
    unary main_c_7 main_v30 (broadcastInDim S400 ![] bcast_S_S400 : (⟨S_, .i32⟩ : BufTy).Contents (Elt F) → (⟨S400, .i32⟩ : BufTy).Contents (Elt F)),
    binary main_v27 main_v30 main_v31 (addi : (⟨S400, .i32⟩ : BufTy).Contents (Elt F) → (⟨S400, .i32⟩ : BufTy).Contents (Elt F) → (⟨S400, .i32⟩ : BufTy).Contents (Elt F)),
    ternary main_v29 main_v31 main_v27 main_v32 (select : (⟨S400, .i1⟩ : BufTy).Contents (Elt F) → (⟨S400, .i32⟩ : BufTy).Contents (Elt F) → (⟨S400, .i32⟩ : BufTy).Contents (Elt F) → (⟨S400, .i32⟩ : BufTy).Contents (Elt F)),
    unary main_v32 main_v33 (broadcastInDim S400x1 ![0] bcast_S400_S400x1_0 : (⟨S400, .i32⟩ : BufTy).Contents (Elt F) → (⟨S400x1, .i32⟩ : BufTy).Contents (Elt F)),
    nullary main_c_8 (constantI S_ 32 1#32),
    unary main_c_8 main_v34 (broadcastInDim S400 ![] bcast_S_S400 : (⟨S_, .i32⟩ : BufTy).Contents (Elt F) → (⟨S400, .i32⟩ : BufTy).Contents (Elt F)),
    -- the ones added into the 190 zeros at those positions
    ternary main_v26 main_v33 main_v34 main_v35 ((fun x i u => Host.scatter scatter_S190_S400x1_S400_n_0_0_1 IntOp.addi x i u) : (⟨S190, .i32⟩ : BufTy).Contents (Elt F) → (⟨S400x1, .i32⟩ : BufTy).Contents (Elt F) → (⟨S400, .i32⟩ : BufTy).Contents (Elt F) → (⟨S190, .i32⟩ : BufTy).Contents (Elt F)),
    -- @cumsum_1, which is the @cumsum_2 it calls: the running sum of that over the 190 entries
    TRef.nullary main_call3.call0.c (constantI S_ 32 0#32),
    TRef.unary main_call3.call0.c main_call3.call0.v0 (broadcastInDim S_ ![] bcast_S_S_),
    TRef.binary (.of main_v35 : TRef sig ⟨S190, .i32⟩) main_call3.call0.v0 main_call3.call0.v1 (fun x v => Host.reduceWindow IntOp.addi ![190] ![1] ![189] ![0] x v reduceWindows_S190_S190_w190s1p189_0 h_S_),
    -- @floor_divide by 20, ending in @_where: the truncated quotient, less one where the signs of dividend and divisor differ and
    -- the truncated remainder is not zero
    nullary main_c_9 (constantI S_ 32 20#32),
    TRef.unary (.of main_c_9 : TRef sig ⟨S_, .i32⟩) main_call4.v0 (broadcastInDim S190 ![] bcast_S_S190),
    TRef.binary (.of main_v36 : TRef sig ⟨S190, .i32⟩) main_call4.v0 main_call4.v1 Host.divsi,
    TRef.unary (.of main_v36 : TRef sig ⟨S190, .i32⟩) main_call4.v2 signi,
    TRef.unary (.of main_c_9 : TRef sig ⟨S_, .i32⟩) main_call4.v3 signi,
    TRef.unary main_call4.v3 main_call4.v4 (broadcastInDim S190 ![] bcast_S_S190),
    TRef.binary main_call4.v2 main_call4.v4 main_call4.v5 (cmpi .ne),
    TRef.unary (.of main_c_9 : TRef sig ⟨S_, .i32⟩) main_call4.v6 (broadcastInDim S190 ![] bcast_S_S190),
    TRef.binary (.of main_v36 : TRef sig ⟨S190, .i32⟩) main_call4.v6 main_call4.v7 Host.remsi,
    TRef.nullary main_call4.c (constantI S_ 32 0#32),
    TRef.unary main_call4.c main_call4.v8 (broadcastInDim S190 ![] bcast_S_S190),
    TRef.binary main_call4.v7 main_call4.v8 main_call4.v9 (cmpi .ne),
    TRef.binary main_call4.v5 main_call4.v9 main_call4.v10 andi,
    TRef.nullary main_call4.c_0 (constantI S_ 32 1#32),
    TRef.unary main_call4.c_0 main_call4.v11 (broadcastInDim S190 ![] bcast_S_S190),
    TRef.binary main_call4.v1 main_call4.v11 main_call4.v12 subi,
    TRef.ternary main_call4.v10 main_call4.v12 main_call4.v1 main_call4.call0.v0 select,
    -- @remainder by 20, with @_where_3 putting 1 for a zero divisor: the truncated remainder, the divisor added to it where it is
    -- not zero and its sign differs from the divisor's — the index the first factor is gathered at
    nullary main_c_10 (constantI S_ 32 20#32),
    TRef.unary (.of main_c_10 : TRef sig ⟨S_, .i32⟩) main_call5.v0 id,
    TRef.nullary main_call5.c (constantI S_ 32 0#32),
    TRef.binary main_call5.v0 main_call5.c main_call5.v1 (cmpi .eq),
    TRef.nullary main_call5.c_0 (constantI S_ 32 1#32),
    TRef.ternary main_call5.v1 main_call5.c_0 main_call5.v0 main_call5.call0.v0 select,
    TRef.unary main_call5.call0.v0 main_call5.v3 (broadcastInDim S190 ![] bcast_S_S190),
    TRef.binary (.of main_v37 : TRef sig ⟨S190, .i32⟩) main_call5.v3 main_call5.v4 Host.remsi,
    TRef.nullary main_call5.c_1 (constantI S_ 32 0#32),
    TRef.unary main_call5.c_1 main_call5.v5 (broadcastInDim S190 ![] bcast_S_S190),
    TRef.binary main_call5.v4 main_call5.v5 main_call5.v6 (cmpi .ne),
    TRef.nullary main_call5.c_2 (constantI S_ 32 0#32),
    TRef.unary main_call5.c_2 main_call5.v7 (broadcastInDim S190 ![] bcast_S_S190),
    TRef.binary main_call5.v4 main_call5.v7 main_call5.v8 (cmpi .slt),
    TRef.nullary main_call5.c_3 (constantI S_ 32 0#32),
    TRef.binary main_call5.call0.v0 main_call5.c_3 main_call5.v9 (cmpi .slt),
    TRef.unary main_call5.v9 main_call5.v10 (broadcastInDim S190 ![] bcast_S_S190),
    TRef.binary main_call5.v8 main_call5.v10 main_call5.v11 (cmpi .ne),
    TRef.binary main_call5.v11 main_call5.v6 main_call5.v12 andi,
    TRef.unary main_call5.call0.v0 main_call5.v13 (broadcastInDim S190 ![] bcast_S_S190),
    TRef.binary main_call5.v4 main_call5.v13 main_call5.v14 addi,
    TRef.ternary main_call5.v12 main_call5.v14 main_call5.v4 main_call5.v15 select,
    -- @floor_divide by 1, the same operations over its own buffers
    nullary main_c_11 (constantI S_ 32 1#32),
    TRef.unary (.of main_c_11 : TRef sig ⟨S_, .i32⟩) main_call6.v0 (broadcastInDim S190 ![] bcast_S_S190),
    TRef.binary (.of main_v36 : TRef sig ⟨S190, .i32⟩) main_call6.v0 main_call6.v1 Host.divsi,
    TRef.unary (.of main_v36 : TRef sig ⟨S190, .i32⟩) main_call6.v2 signi,
    TRef.unary (.of main_c_11 : TRef sig ⟨S_, .i32⟩) main_call6.v3 signi,
    TRef.unary main_call6.v3 main_call6.v4 (broadcastInDim S190 ![] bcast_S_S190),
    TRef.binary main_call6.v2 main_call6.v4 main_call6.v5 (cmpi .ne),
    TRef.unary (.of main_c_11 : TRef sig ⟨S_, .i32⟩) main_call6.v6 (broadcastInDim S190 ![] bcast_S_S190),
    TRef.binary (.of main_v36 : TRef sig ⟨S190, .i32⟩) main_call6.v6 main_call6.v7 Host.remsi,
    TRef.nullary main_call6.c (constantI S_ 32 0#32),
    TRef.unary main_call6.c main_call6.v8 (broadcastInDim S190 ![] bcast_S_S190),
    TRef.binary main_call6.v7 main_call6.v8 main_call6.v9 (cmpi .ne),
    TRef.binary main_call6.v5 main_call6.v9 main_call6.v10 andi,
    TRef.nullary main_call6.c_0 (constantI S_ 32 1#32),
    TRef.unary main_call6.c_0 main_call6.v11 (broadcastInDim S190 ![] bcast_S_S190),
    TRef.binary main_call6.v1 main_call6.v11 main_call6.v12 subi,
    TRef.ternary main_call6.v10 main_call6.v12 main_call6.v1 main_call6.call0.v0 select,
    -- @remainder by 20 of that — the index the second factor is gathered at
    nullary main_c_12 (constantI S_ 32 20#32),
    TRef.unary (.of main_c_12 : TRef sig ⟨S_, .i32⟩) main_call7.v0 id,
    TRef.nullary main_call7.c (constantI S_ 32 0#32),
    TRef.binary main_call7.v0 main_call7.c main_call7.v1 (cmpi .eq),
    TRef.nullary main_call7.c_0 (constantI S_ 32 1#32),
    TRef.ternary main_call7.v1 main_call7.c_0 main_call7.v0 main_call7.call0.v0 select,
    TRef.unary main_call7.call0.v0 main_call7.v3 (broadcastInDim S190 ![] bcast_S_S190),
    TRef.binary (.of main_v39 : TRef sig ⟨S190, .i32⟩) main_call7.v3 main_call7.v4 Host.remsi,
    TRef.nullary main_call7.c_1 (constantI S_ 32 0#32),
    TRef.unary main_call7.c_1 main_call7.v5 (broadcastInDim S190 ![] bcast_S_S190),
    TRef.binary main_call7.v4 main_call7.v5 main_call7.v6 (cmpi .ne),
    TRef.nullary main_call7.c_2 (constantI S_ 32 0#32),
    TRef.unary main_call7.c_2 main_call7.v7 (broadcastInDim S190 ![] bcast_S_S190),
    TRef.binary main_call7.v4 main_call7.v7 main_call7.v8 (cmpi .slt),
    TRef.nullary main_call7.c_3 (constantI S_ 32 0#32),
    TRef.binary main_call7.call0.v0 main_call7.c_3 main_call7.v9 (cmpi .slt),
    TRef.unary main_call7.v9 main_call7.v10 (broadcastInDim S190 ![] bcast_S_S190),
    TRef.binary main_call7.v8 main_call7.v10 main_call7.v11 (cmpi .ne),
    TRef.binary main_call7.v11 main_call7.v6 main_call7.v12 andi,
    TRef.unary main_call7.call0.v0 main_call7.v13 (broadcastInDim S190 ![] bcast_S_S190),
    TRef.binary main_call7.v4 main_call7.v13 main_call7.v14 addi,
    TRef.ternary main_call7.v12 main_call7.v14 main_call7.v4 main_call7.v15 select,
    -- the first index vector as start indices (a negative one wrapped by adding 20), laid out as [190, 1], and `we` gathered at
    -- them along its history axis
    nullary main_c_13 (constantI S_ 32 0#32),
    unary main_c_13 main_v41 (broadcastInDim S190 ![] bcast_S_S190 : (⟨S_, .i32⟩ : BufTy).Contents (Elt F) → (⟨S190, .i32⟩ : BufTy).Contents (Elt F)),
    binary main_v38 main_v41 main_v42 (cmpi .slt : (⟨S190, .i32⟩ : BufTy).Contents (Elt F) → (⟨S190, .i32⟩ : BufTy).Contents (Elt F) → (⟨S190, .i1⟩ : BufTy).Contents (Elt F)),
    nullary main_c_14 (constantI S_ 32 20#32),
    unary main_c_14 main_v43 (broadcastInDim S190 ![] bcast_S_S190 : (⟨S_, .i32⟩ : BufTy).Contents (Elt F) → (⟨S190, .i32⟩ : BufTy).Contents (Elt F)),
    binary main_v38 main_v43 main_v44 (addi : (⟨S190, .i32⟩ : BufTy).Contents (Elt F) → (⟨S190, .i32⟩ : BufTy).Contents (Elt F) → (⟨S190, .i32⟩ : BufTy).Contents (Elt F)),
    ternary main_v42 main_v44 main_v38 main_v45 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    unary main_v45 main_v46 (broadcastInDim S190x1 ![0] bcast_S190_S190x1_0 : (⟨S190, .i32⟩ : BufTy).Contents (Elt F) → (⟨S190x1, .i32⟩ : BufTy).Contents (Elt F)),
    binary main_v17 main_v46 main_v47 ((fun x i => Host.gather gather_S4096x20x64_S190x1_S4096x190x64_02_1_n_n_1_1_4096164 x i) : (⟨S4096x20x64, .f32⟩ : BufTy).Contents (Elt F) → (⟨S190x1, .i32⟩ : BufTy).Contents (Elt F) → (⟨S4096x190x64, .f32⟩ : BufTy).Contents (Elt F)),
    -- the same for the second index vector
    nullary main_c_15 (constantI S_ 32 0#32),
    unary main_c_15 main_v48 (broadcastInDim S190 ![] bcast_S_S190 : (⟨S_, .i32⟩ : BufTy).Contents (Elt F) → (⟨S190, .i32⟩ : BufTy).Contents (Elt F)),
    binary main_v40 main_v48 main_v49 (cmpi .slt : (⟨S190, .i32⟩ : BufTy).Contents (Elt F) → (⟨S190, .i32⟩ : BufTy).Contents (Elt F) → (⟨S190, .i1⟩ : BufTy).Contents (Elt F)),
    nullary main_c_16 (constantI S_ 32 20#32),
    unary main_c_16 main_v50 (broadcastInDim S190 ![] bcast_S_S190 : (⟨S_, .i32⟩ : BufTy).Contents (Elt F) → (⟨S190, .i32⟩ : BufTy).Contents (Elt F)),
    binary main_v40 main_v50 main_v51 (addi : (⟨S190, .i32⟩ : BufTy).Contents (Elt F) → (⟨S190, .i32⟩ : BufTy).Contents (Elt F) → (⟨S190, .i32⟩ : BufTy).Contents (Elt F)),
    ternary main_v49 main_v51 main_v40 main_v52 (select : (⟨S190, .i1⟩ : BufTy).Contents (Elt F) → (⟨S190, .i32⟩ : BufTy).Contents (Elt F) → (⟨S190, .i32⟩ : BufTy).Contents (Elt F) → (⟨S190, .i32⟩ : BufTy).Contents (Elt F)),
    unary main_v52 main_v53 (broadcastInDim S190x1 ![0] bcast_S190_S190x1_0 : (⟨S190, .i32⟩ : BufTy).Contents (Elt F) → (⟨S190x1, .i32⟩ : BufTy).Contents (Elt F)),
    binary main_v17 main_v53 main_v54 ((fun x i => Host.gather gather_S4096x20x64_S190x1_S4096x190x64_02_1_n_n_1_1_4096164 x i) : (⟨S4096x20x64, .f32⟩ : BufTy).Contents (Elt F) → (⟨S190x1, .i32⟩ : BufTy).Contents (Elt F) → (⟨S4096x190x64, .f32⟩ : BufTy).Contents (Elt F)),
    -- the two gathers' product; the user-item block and it set side by side along the history axis (20 + 190 = 210 slots); each
    -- batch row's 210 × 64 block flattened to 13440
    binary main_v47 main_v54 main_v55 (mulf : (⟨S4096x190x64, .f32⟩ : BufTy).Contents (Elt F) → (⟨S4096x190x64, .f32⟩ : BufTy).Contents (Elt F) → (⟨S4096x190x64, .f32⟩ : BufTy).Contents (Elt F)),
    binary main_v20 main_v55 main_v56 ((fun a b => concatenate S4096x210x64 1 [⟨S4096x20x64, a⟩, ⟨S4096x190x64, b⟩] concatenates_S4096x20x64_S4096x190x64_S4096x210x64_d1) : (⟨S4096x20x64, .f32⟩ : BufTy).Contents (Elt F) → (⟨S4096x190x64, .f32⟩ : BufTy).Contents (Elt F) → (⟨S4096x210x64, .f32⟩ : BufTy).Contents (Elt F)),
    reshape main_v56 main_v57 rfl shapeCasts_S4096x210x64_S4096x13440 ]

-- one bind per operation on either side: the unfolding nests as deep as the list is long
set_option maxRecDepth 8192 in
/-- @main is that straight line. Sequencing in a program is grafting onto the leaves of a finite tree, so it re-associates
    by computation: with the two parts, the eight functions and the buffer records unfolded, both sides are the same chain
    of 163 steps ending in the return. -/
theorem main_eq (c : Dev nD) : main (F := F) c = seq ops := by chain_rfl

/-- No TensorCore buffer of the signature is scoped: all 168 are tensor values of @main. -/
theorem scopedRefs_eq : (Finset.univ.filter fun b : Ref sig .tc => b.isScoped) = ∅ := by decide
/-- The signature has no semaphore, so none is scoped. -/
theorem scopedSems_eq : (Finset.univ.filter fun sm : SemLoc sig => sm.isScoped .tc) = ∅ := by decide

-- one conjunct per operation
set_option maxRecDepth 8192 in
/-- Every operation touches TensorCore buffers only: each is built from TensorCore references. -/
theorem ops_sub : (ops : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., unary_bufs_sub .., unary_bufs_sub .., binary_bufs_sub .., nullary_bufs_sub .., unary_bufs_sub .., nullary_bufs_sub .., nullary_bufs_sub .., unary_bufs_sub .., binary_bufs_sub .., nullary_bufs_sub .., binary_bufs_sub .., nullary_bufs_sub .., unary_bufs_sub .., ternary_bufs_sub .., nullary_bufs_sub .., unary_bufs_sub .., binary_bufs_sub .., reshape_bufs_sub .., unary_bufs_sub .., nullary_bufs_sub .., unary_bufs_sub .., binary_bufs_sub .., nullary_bufs_sub .., unary_bufs_sub .., nullary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., reshape_bufs_sub ..⟩

-- one conjunct per operation
set_option maxRecDepth 8192 in
/-- Every operation determines the contents of the buffer it writes. -/
theorem ops_fresh : (ops : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! An argument's buffer is written by none of the 163 operations (each writes one buffer, a value's, and the five
    arguments are not values of the body), so the fold leaves it at what it held: one inequality of references per
    operation, each decided. -/

theorem after_main_arg0 (V : Valuation τ sig (Elt F)) :
    after ops V (Proc.devRef .tc main_arg0) = V (Proc.devRef .tc main_arg0) := by
  after_results_simp

theorem after_main_arg1 (V : Valuation τ sig (Elt F)) :
    after ops V (Proc.devRef .tc main_arg1) = V (Proc.devRef .tc main_arg1) := by
  after_results_simp

theorem after_main_arg2 (V : Valuation τ sig (Elt F)) :
    after ops V (Proc.devRef .tc main_arg2) = V (Proc.devRef .tc main_arg2) := by
  after_results_simp

theorem after_main_arg3 (V : Valuation τ sig (Elt F)) :
    after ops V (Proc.devRef .tc main_arg3) = V (Proc.devRef .tc main_arg3) := by
  after_results_simp

theorem after_main_arg4 (V : Valuation τ sig (Elt F)) :
    after ops V (Proc.devRef .tc main_arg4) = V (Proc.devRef .tc main_arg4) := by
  after_results_simp

/-- On every device, for any float values, from any memory with zero counters: every weakly fair execution of @main
    terminates with the result buffer at the fold of the 163 operations over the launch contents, and the five arguments
    unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v57) = StableHlo.after ops (fun b => m ((c : Dev nD), b)) (Proc.devRef .tc main_v57)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨h c main_v57, (h c main_arg0).trans (after_main_arg0 _), (h c main_arg1).trans (after_main_arg1 _),
      (h c main_arg2).trans (after_main_arg2 _), (h c main_arg3).trans (after_main_arg3 _),
      (h c main_arg4).trans (after_main_arg4 _)⟩)
    (run_seq scopedRefs_eq scopedSems_eq defs main (fun _ => ops) main_eq (fun _ => ops_sub) m ρ
      (fun _ => List.forall_iff_forall_mem.mp ops_fresh))

end Cert.ReferenceIdeal.Hand

end
-- ==== Proof.Ref.Value.lean ====
/-
  The float stages of the reference, read at an index.

  The reference looks up the user's row of the user table and the twenty history rows of the item table, weights
  the history rows (we_n = w_n · e_n), multiplies the user's row into each (twenty blocks u ⊙ we_n), multiplies
  the weighted rows pairwise (190 blocks we_a ⊙ we_b, the pair (a, b) read from two start-index arrays), lays the
  210 blocks side by side and flattens each batch row to 13440 entries.  `refFloat` is that composition as one
  function of the five arguments and the two start-index arrays; `refFloat_eq` says that, when the start-index
  arrays hold the lexicographic pairs a < b of {0, …, 19} and every row index is inside its table, it is the
  specification's array, entry by entry: both sides multiply the same two factors in the same order.
-/
import proofs.«429411_j5592047419689_3_alg».proof.ReferenceIdeal
import proofs.«429411_j5592047419689_3_alg».proof.Proof.Gen.ReferenceIdeal
import proofs.«429411_j5592047419689_3_alg».proof.Proof.Spec
import Idealize.ShloMosaic.Lib.ValueIdx
import Idealize.ShloMosaic.Lib.Pipeline.Value
import Idealize.ShloMosaic.Lib.StableHlo.Predicate

noncomputable section

namespace Cert.ReferenceIdeal.Hand

open Idealize.ShloMosaic Idealize.ShloMosaic.ValueIdx
open Cert.ReferenceIdeal

variable [Facts]
open Facts₀ Facts

local notation "gU" => gather_S100000x64_S4096x1_S4096x64_1_0_n_n_0_1_164
local notation "gI" => gather_S100001x64_S4096x20x1_S4096x20x64_2_0_n_n_0_2_164
local notation "gP" => gather_S4096x20x64_S190x1_S4096x190x64_02_1_n_n_1_1_4096164

/-! ## The three gathers read at an index

Each result element is the operand at the start index — read as a signed integer and clamped so that the slice
fits the axis — on the gathered axis, and at the result's own coordinate on every other axis. -/

/-- The row gather of the user table: result (b, d) is row `idx[b, 0]` (signed, clamped to the last row), column d. -/
theorem gatherU_apply {α : Type} (x : S100000x64.Idx → α) (idx : IVec S4096x1 32) (b : Fin 4096) (d : Fin 64) :
    Host.gather gU x idx (ix2 b d) = x (ix2 ⟨min (idx (ix2 b 0)).toInt.toNat 99999, by omega⟩ d) := by
  unfold Host.gather
  congr 1
  funext a
  refine Fin.ext ?_
  match a with
  | ⟨0, _⟩ =>
    show (gU).start (ix2 b d) idx 0 + (gU).batchCoord (ix2 b d) 0 + (gU).offCoord (ix2 b d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gU).startIndexMap from List.mem_singleton.mpr rfl)]
    have hsi : (gU).siIdx (ix2 b d) ⟨List.idxOf (0 : Fin 2) (gU).startIndexMap,
          List.idxOf_lt_length_iff.2 (List.mem_singleton.mpr rfl)⟩ = ix2 b 0 := by
      funext c; refine Fin.ext ?_
      match c with
      | ⟨0, _⟩ => rfl
      | ⟨1, _⟩ => rfl
    rw [hsi]
    rfl
  | ⟨1, _⟩ =>
    show (gU).start (ix2 b d) idx 1 + (gU).batchCoord (ix2 b d) 1 + (gU).offCoord (ix2 b d) 1 = d.val
    have hs : (gU).start (ix2 b d) idx 1 = 0 := by
      unfold GatherDims.start
      rw [dif_neg (show (1 : Fin 2) ∉ (gU).startIndexMap by decide)]
    have ho : (gU).offCoord (ix2 b d) 1 = d.val := by
      unfold GatherDims.offCoord
      rw [dif_pos ((GatherDims.mem_sKept _ _).2 ⟨by decide, List.not_mem_nil⟩)]
      rfl
    rw [GatherDims.batchCoord_eq_zero _ _ _ List.not_mem_nil, hs, ho]
    omega

/-- The row gather of the item table: result (b, n, d) is row `idx[b, n, 0]` (signed, clamped), column d. -/
theorem gatherI_apply {α : Type} (x : S100001x64.Idx → α) (idx : IVec S4096x20x1 32) (b : Fin 4096) (n : Fin 20) (d : Fin 64) :
    Host.gather gI x idx (ix3 b n d) = x (ix2 ⟨min (idx (ix3 b n 0)).toInt.toNat 100000, by omega⟩ d) := by
  unfold Host.gather
  congr 1
  funext a
  refine Fin.ext ?_
  match a with
  | ⟨0, _⟩ =>
    show (gI).start (ix3 b n d) idx 0 + (gI).batchCoord (ix3 b n d) 0 + (gI).offCoord (ix3 b n d) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gI).startIndexMap from List.mem_singleton.mpr rfl)]
    have hsi : (gI).siIdx (ix3 b n d) ⟨List.idxOf (0 : Fin 2) (gI).startIndexMap,
          List.idxOf_lt_length_iff.2 (List.mem_singleton.mpr rfl)⟩ = ix3 b n 0 := by
      funext c; refine Fin.ext ?_
      match c with
      | ⟨0, _⟩ => rfl
      | ⟨1, _⟩ => rfl
      | ⟨2, _⟩ => rfl
    rw [hsi]
    rfl
  | ⟨1, _⟩ =>
    show (gI).start (ix3 b n d) idx 1 + (gI).batchCoord (ix3 b n d) 1 + (gI).offCoord (ix3 b n d) 1 = d.val
    have hs : (gI).start (ix3 b n d) idx 1 = 0 := by
      unfold GatherDims.start
      rw [dif_neg (show (1 : Fin 2) ∉ (gI).startIndexMap by decide)]
    have ho : (gI).offCoord (ix3 b n d) 1 = d.val := by
      unfold GatherDims.offCoord
      rw [dif_pos ((GatherDims.mem_sKept _ _).2 ⟨by decide, List.not_mem_nil⟩)]
      rfl
    rw [GatherDims.batchCoord_eq_zero _ _ _ List.not_mem_nil, hs, ho]
    omega

/-- The gather along the history axis: result (b, p, d) is the operand at (b, `idx[p, 0]` signed and clamped to
    the last slot, d). -/
theorem gatherP_apply {α : Type} (x : S4096x20x64.Idx → α) (idx : IVec S190x1 32) (b : Fin 4096) (p : Fin 190) (d : Fin 64) :
    Host.gather gP x idx (ix3 b p d) = x (ix3 b ⟨min (idx (ix2 p 0)).toInt.toNat 19, by omega⟩ d) := by
  unfold Host.gather
  congr 1
  funext a
  refine Fin.ext ?_
  match a with
  | ⟨0, _⟩ =>
    show (gP).start (ix3 b p d) idx 0 + (gP).batchCoord (ix3 b p d) 0 + (gP).offCoord (ix3 b p d) 0 = b.val
    have hs : (gP).start (ix3 b p d) idx 0 = 0 := by
      unfold GatherDims.start
      rw [dif_neg (show (0 : Fin 3) ∉ (gP).startIndexMap by decide)]
    have ho : (gP).offCoord (ix3 b p d) 0 = b.val := by
      unfold GatherDims.offCoord
      rw [dif_pos ((GatherDims.mem_sKept _ _).2 ⟨by decide, List.not_mem_nil⟩)]
      rfl
    rw [GatherDims.batchCoord_eq_zero _ _ _ List.not_mem_nil, hs, ho]
    omega
  | ⟨1, _⟩ =>
    show (gP).start (ix3 b p d) idx 1 + (gP).batchCoord (ix3 b p d) 1 + (gP).offCoord (ix3 b p d) 1 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (gP).startIndexMap from List.mem_singleton.mpr rfl)]
    have hsi : (gP).siIdx (ix3 b p d) ⟨List.idxOf (1 : Fin 3) (gP).startIndexMap,
          List.idxOf_lt_length_iff.2 (List.mem_singleton.mpr rfl)⟩ = ix2 p 0 := by
      funext c; refine Fin.ext ?_
      match c with
      | ⟨0, _⟩ => rfl
      | ⟨1, _⟩ => rfl
    rw [hsi]
    rfl
  | ⟨2, _⟩ =>
    show (gP).start (ix3 b p d) idx 2 + (gP).batchCoord (ix3 b p d) 2 + (gP).offCoord (ix3 b p d) 2 = d.val
    have hs : (gP).start (ix3 b p d) idx 2 = 0 := by
      unfold GatherDims.start
      rw [dif_neg (show (2 : Fin 3) ∉ (gP).startIndexMap by decide)]
    have ho : (gP).offCoord (ix3 b p d) 2 = d.val := by
      unfold GatherDims.offCoord
      rw [dif_pos ((GatherDims.mem_sKept _ _).2 ⟨by decide, List.not_mem_nil⟩)]
      rfl
    rw [GatherDims.batchCoord_eq_zero _ _ _ List.not_mem_nil, hs, ho]
    omega

/-- The same three, with the gathered coordinate named by the caller. -/
theorem gatherU_apply_of {α : Type} (x : S100000x64.Idx → α) (idx : IVec S4096x1 32) (b : Fin 4096) (d : Fin 64)
    (r : Fin 100000) (hr : r.val = min (idx (ix2 b 0)).toInt.toNat 99999) :
    Host.gather gU x idx (ix2 b d) = x (ix2 r d) :=
  (gatherU_apply x idx b d).trans (congrArg (fun r => x (ix2 r d)) (Fin.ext hr.symm))

theorem gatherI_apply_of {α : Type} (x : S100001x64.Idx → α) (idx : IVec S4096x20x1 32) (b : Fin 4096) (n : Fin 20) (d : Fin 64)
    (r : Fin 100001) (hr : r.val = min (idx (ix3 b n 0)).toInt.toNat 100000) :
    Host.gather gI x idx (ix3 b n d) = x (ix2 r d) :=
  (gatherI_apply x idx b n d).trans (congrArg (fun r => x (ix2 r d)) (Fin.ext hr.symm))

theorem gatherP_apply_of {α : Type} (x : S4096x20x64.Idx → α) (idx : IVec S190x1 32) (b : Fin 4096) (p : Fin 190) (d : Fin 64)
    (r : Fin 20) (hr : r.val = min (idx (ix2 p 0)).toInt.toNat 19) :
    Host.gather gP x idx (ix3 b p d) = x (ix3 b r d) :=
  (gatherP_apply x idx b p d).trans (congrArg (fun r => x (ix3 b r d)) (Fin.ext hr.symm))

/-! ## Words: a row index inside its table is a small non-negative word -/

/-- The negative-index wrap (add the axis length to a negative word) leaves a non-negative word alone. -/
theorem wrap_id (x N : BitVec 32) (h : x.toNat < 2 ^ 31) :
    Scalar.select (IntOp.cmpi .slt x 0#32) (IntOp.addi x N) x = x := by
  have hc : ¬ IntOp.cmpi .slt x 0#32 = 1#1 := by
    rw [StableHlo.Predicate.slt_iff_toNat h (by decide)]
    simp
  rw [eq_zero_of_ne_one hc]
  exact select_zero _ _

/-- A non-negative word read as a signed integer is its value. -/
theorem toInt_toNat_of_lt (x : BitVec 32) (h : x.toNat < 2 ^ 31) : x.toInt.toNat = x.toNat := by
  rw [StableHlo.Predicate.toInt_eq_toNat_of_lt h]
  exact Int.toNat_natCast _

/-- The word of a history slot, read signed and clamped to the last slot, is the slot. -/
theorem slot_val (k : Nat) (hk : k < 20) : min (BitVec.ofNat 32 k).toInt.toNat 19 = k := by
  rw [StableHlo.Predicate.toInt_ofNat_small k (by omega), Int.toNat_natCast]
  omega

/-! ## The broadcasts read at an index

Each reads the operand at the coordinates it keeps. -/

section Broadcasts
variable {α : Type}

/-- A vector as a [4096, 1] column. -/
theorem bcast_col_apply (v : S4096.Idx → α) (b : Fin 4096) :
    broadcastInDim S4096x1 ![0] bcast_S4096_S4096x1_0 v (ix2 b 0) = v (ix1 b) :=
  broadcastInDim_apply ![0] bcast_S4096_S4096x1_0 v (ix2 b 0) (ix1 b) (fun a => match a with | ⟨0, _⟩ => rfl)

/-- A [4096, 20] array with a trailing unit axis. -/
theorem bcast_unit_apply (v : S4096x20.Idx → α) (b : Fin 4096) (n : Fin 20) :
    broadcastInDim S4096x20x1 ![0, 1] bcast_S4096x20_S4096x20x1_0_1 v (ix3 b n 0) = v (ix2 b n) :=
  broadcastInDim_apply ![0, 1] bcast_S4096x20_S4096x20x1_0_1 v (ix3 b n 0) (ix2 b n)
    (fun a => match a with | ⟨0, _⟩ => rfl | ⟨1, _⟩ => rfl)

/-- The weights along the history axis of a [1, 20, 1] array. -/
theorem bcast_w1_apply (v : S20.Idx → α) (n : Fin 20) :
    broadcastInDim S1x20x1 ![1] bcast_S20_S1x20x1_1 v (ix3 (0 : Fin 1) n (0 : Fin 1)) = v (ix1 n) :=
  broadcastInDim_apply ![1] bcast_S20_S1x20x1_1 v (ix3 (0 : Fin 1) n (0 : Fin 1)) (ix1 n)
    (fun a => match a with | ⟨0, _⟩ => rfl)

/-- A [1, 20, 1] array stretched over the batch rows and the columns. -/
theorem bcast_w2_apply (v : S1x20x1.Idx → α) (b : Fin 4096) (n : Fin 20) (d : Fin 64) :
    broadcastInDim S4096x20x64 ![0, 1, 2] bcast_S1x20x1_S4096x20x64_0_1_2 v (ix3 b n d) = v (ix3 (0 : Fin 1) n (0 : Fin 1)) :=
  broadcastInDim_apply ![0, 1, 2] bcast_S1x20x1_S4096x20x64_0_1_2 v (ix3 b n d) (ix3 (0 : Fin 1) n (0 : Fin 1))
    (fun a => match a with | ⟨0, _⟩ => rfl | ⟨1, _⟩ => rfl | ⟨2, _⟩ => rfl)

/-- A [4096, 64] array with a unit history axis. -/
theorem bcast_u1_apply (v : S4096x64.Idx → α) (b : Fin 4096) (d : Fin 64) :
    broadcastInDim S4096x1x64 ![0, 2] bcast_S4096x64_S4096x1x64_0_2 v (ix3 b (0 : Fin 1) d) = v (ix2 b d) :=
  broadcastInDim_apply ![0, 2] bcast_S4096x64_S4096x1x64_0_2 v (ix3 b (0 : Fin 1) d) (ix2 b d)
    (fun a => match a with | ⟨0, _⟩ => rfl | ⟨1, _⟩ => rfl)

/-- A [4096, 1, 64] array stretched over the history slots. -/
theorem bcast_u2_apply (v : S4096x1x64.Idx → α) (b : Fin 4096) (n : Fin 20) (d : Fin 64) :
    broadcastInDim S4096x20x64 ![0, 1, 2] bcast_S4096x1x64_S4096x20x64_0_1_2 v (ix3 b n d) = v (ix3 b (0 : Fin 1) d) :=
  broadcastInDim_apply ![0, 1, 2] bcast_S4096x1x64_S4096x20x64_0_1_2 v (ix3 b n d) (ix3 b (0 : Fin 1) d)
    (fun a => match a with | ⟨0, _⟩ => rfl | ⟨1, _⟩ => rfl | ⟨2, _⟩ => rfl)

end Broadcasts

/-! ## The stages, as functions of the arguments -/

/-- %0 … %5: the user words as a vector, a negative word wrapped by the user table's row count. -/
def wrapU (a0 : IVec S4096x1 32) : IVec S4096 32 :=
  select
    (cmpi .slt (shapeCast S4096 a0 shapeCasts_S4096x1_S4096) (broadcastInDim S4096 ![] bcast_S_S4096 (constantI S_ 32 0#32)))
    (addi (shapeCast S4096 a0 shapeCasts_S4096x1_S4096) (broadcastInDim S4096 ![] bcast_S_S4096 (constantI S_ 32 100000#32)))
    (shapeCast S4096 a0 shapeCasts_S4096x1_S4096)

/-- %6, %7: each batch row's row of the user table. -/
def userEmb (a0 : IVec S4096x1 32) (a2 : FVec Ideal S100000x64 .f32) : FVec Ideal S4096x64 .f32 :=
  Host.gather gU a2 (broadcastInDim S4096x1 ![0] bcast_S4096_S4096x1_0 (wrapU a0))

/-- %8 … %12: the history words, a negative word wrapped by the item table's row count. -/
def wrapI (a1 : IVec S4096x20 32) : IVec S4096x20 32 :=
  select
    (cmpi .slt a1 (broadcastInDim S4096x20 ![] bcast_S_S4096x20 (constantI S_ 32 0#32)))
    (addi a1 (broadcastInDim S4096x20 ![] bcast_S_S4096x20 (constantI S_ 32 100001#32)))
    a1

/-- %13, %14: each history slot's row of the item table. -/
def itemEmb (a1 : IVec S4096x20 32) (a3 : FVec Ideal S100001x64 .f32) : FVec Ideal S4096x20x64 .f32 :=
  Host.gather gI a3 (broadcastInDim S4096x20x1 ![0, 1] bcast_S4096x20_S4096x20x1_0_1 (wrapI a1))

/-- %15 … %17: the weighted history rows, we = w · item. -/
def weRef (a1 : IVec S4096x20 32) (a3 : FVec Ideal S100001x64 .f32) (a4 : FVec Ideal S20 .f32) : FVec Ideal S4096x20x64 .f32 :=
  mulf
    (broadcastInDim S4096x20x64 ![0, 1, 2] bcast_S1x20x1_S4096x20x64_0_1_2 (broadcastInDim S1x20x1 ![1] bcast_S20_S1x20x1_1 a4))
    (itemEmb a1 a3)

/-- %18 … %20: the user's row times each weighted history row. -/
def userItem (a0 : IVec S4096x1 32) (a1 : IVec S4096x20 32) (a2 : FVec Ideal S100000x64 .f32) (a3 : FVec Ideal S100001x64 .f32)
    (a4 : FVec Ideal S20 .f32) : FVec Ideal S4096x20x64 .f32 :=
  mulf
    (broadcastInDim S4096x20x64 ![0, 1, 2] bcast_S4096x1x64_S4096x20x64_0_1_2
      (broadcastInDim S4096x1x64 ![0, 2] bcast_S4096x64_S4096x1x64_0_2 (userEmb a0 a2)))
    (weRef a1 a3 a4)

/-- %47, %54, %55: the weighted rows at the pairs' first members times the weighted rows at their second members. -/
def pairProd (a1 : IVec S4096x20 32) (a3 : FVec Ideal S100001x64 .f32) (a4 : FVec Ideal S20 .f32) (iA iB : IVec S190x1 32) :
    FVec Ideal S4096x190x64 .f32 :=
  mulf (Host.gather gP (weRef a1 a3 a4) iA) (Host.gather gP (weRef a1 a3 a4) iB)

/-- The reference's result as a pure function of its arguments and of the two [190,1] start-index arrays of the pair
    gathers: %0 … %20 (the index wraps, the two table gathers, the weights' broadcasts, we = w · item, user_item = user · we),
    %47 and %54 (the gathers of we along the history axis at iA, iB), %55 … %57 (product, concatenation along the block
    axis, flattening of each batch row), composed. -/
def refFloat (a0 : IVec S4096x1 32) (a1 : IVec S4096x20 32) (a2 : FVec Ideal S100000x64 .f32) (a3 : FVec Ideal S100001x64 .f32)
    (a4 : FVec Ideal S20 .f32) (iA iB : IVec S190x1 32) : FVec Ideal S4096x13440 .f32 :=
  shapeCast S4096x13440
    (concatenate S4096x210x64 1 [⟨S4096x20x64, userItem a0 a1 a2 a3 a4⟩, ⟨S4096x190x64, pairProd a1 a3 a4 iA iB⟩]
      concatenates_S4096x20x64_S4096x190x64_S4096x210x64_d1)
    shapeCasts_S4096x210x64_S4096x13440

/-! ## The stages read at an index -/

/-- A user word inside the table passes the wrap unchanged. -/
theorem wrapU_apply (a0 : IVec S4096x1 32) (b : Fin 4096) (h : (a0 (ix2 b 0)).toNat < 2 ^ 31) :
    wrapU a0 (ix1 b) = a0 (ix2 b 0) := by
  have hv : shapeCast S4096 a0 shapeCasts_S4096x1_S4096 (ix1 b) = a0 (ix2 b 0) :=
    shapeCast_apply _ _ _ _ (by
      rw [Shape.rowMajor_val_two, Shape.rowMajor_val_one]
      show b.val * 1 + 0 = b.val
      omega)
  show Scalar.select (IntOp.cmpi .slt (shapeCast S4096 a0 shapeCasts_S4096x1_S4096 (ix1 b)) 0#32)
      (IntOp.addi (shapeCast S4096 a0 shapeCasts_S4096x1_S4096 (ix1 b)) 100000#32)
      (shapeCast S4096 a0 shapeCasts_S4096x1_S4096 (ix1 b)) = _
  rw [hv]
  exact wrap_id _ _ h

/-- The user's row is the user table's row the specification names. -/
theorem userEmb_apply (a0 : IVec S4096x1 32) (a2 : FVec Ideal S100000x64 .f32) (b : Fin 4096) (d : Fin 64)
    (h : (a0 (ix2 b 0)).toNat < 100000) :
    userEmb a0 a2 (ix2 b d) = a2 (ix2 (Cert.Proof.Spec.rowU a0 b) d) := by
  refine gatherU_apply_of a2 _ b d (Cert.Proof.Spec.rowU a0 b) ?_
  rw [bcast_col_apply, wrapU_apply a0 b (by omega), toInt_toNat_of_lt _ (by omega)]
  rfl

/-- A history word inside the table passes the wrap unchanged. -/
theorem wrapI_apply (a1 : IVec S4096x20 32) (b : Fin 4096) (n : Fin 20) (h : (a1 (ix2 b n)).toNat < 2 ^ 31) :
    wrapI a1 (ix2 b n) = a1 (ix2 b n) :=
  wrap_id _ _ h

/-- A history slot's row is the item table's row the specification names. -/
theorem itemEmb_apply (a1 : IVec S4096x20 32) (a3 : FVec Ideal S100001x64 .f32) (b : Fin 4096) (n : Fin 20) (d : Fin 64)
    (h : (a1 (ix2 b n)).toNat < 100001) :
    itemEmb a1 a3 (ix3 b n d) = a3 (ix2 (Cert.Proof.Spec.rowI a1 b n) d) := by
  refine gatherI_apply_of a3 _ b n d (Cert.Proof.Spec.rowI a1 b n) ?_
  rw [bcast_unit_apply, wrapI_apply a1 b n (by omega), toInt_toNat_of_lt _ (by omega)]
  rfl

/-- The weighted history row is the specification's. -/
theorem weRef_apply (a1 : IVec S4096x20 32) (a3 : FVec Ideal S100001x64 .f32) (a4 : FVec Ideal S20 .f32)
    (b : Fin 4096) (n : Fin 20) (d : Fin 64) (h : (a1 (ix2 b n)).toNat < 100001) :
    weRef a1 a3 a4 (ix3 b n d) = Cert.Proof.Spec.we a1 a3 a4 b n d := by
  unfold weRef
  rw [mulf_apply, bcast_w2_apply, bcast_w1_apply, itemEmb_apply a1 a3 b n d h]
  rfl

/-- A user-item block entry: the user's row times the weighted history row, both the specification's. -/
theorem userItem_apply (a0 : IVec S4096x1 32) (a1 : IVec S4096x20 32) (a2 : FVec Ideal S100000x64 .f32)
    (a3 : FVec Ideal S100001x64 .f32) (a4 : FVec Ideal S20 .f32) (b : Fin 4096) (n : Fin 20) (d : Fin 64)
    (hU : (a0 (ix2 b 0)).toNat < 100000) (hI : (a1 (ix2 b n)).toNat < 100001) :
    userItem a0 a1 a2 a3 a4 (ix3 b n d)
      = a2 (ix2 (Cert.Proof.Spec.rowU a0 b) d) * Cert.Proof.Spec.we a1 a3 a4 b n d := by
  unfold userItem
  rw [mulf_apply, bcast_u2_apply, bcast_u1_apply, userEmb_apply a0 a2 b d hU, weRef_apply a1 a3 a4 b n d hI]

/-- A pair block entry: the weighted rows at the two slots the start-index arrays name (read signed and clamped). -/
theorem pairProd_apply (a1 : IVec S4096x20 32) (a3 : FVec Ideal S100001x64 .f32) (a4 : FVec Ideal S20 .f32)
    (iA iB : IVec S190x1 32) (b : Fin 4096) (p : Fin 190) (d : Fin 64) (ra rb : Fin 20)
    (hA : ra.val = min (iA (ix2 p 0)).toInt.toNat 19) (hB : rb.val = min (iB (ix2 p 0)).toInt.toNat 19)
    (hIa : (a1 (ix2 b ra)).toNat < 100001) (hIb : (a1 (ix2 b rb)).toNat < 100001) :
    pairProd a1 a3 a4 iA iB (ix3 b p d)
      = Cert.Proof.Spec.we a1 a3 a4 b ra d * Cert.Proof.Spec.we a1 a3 a4 b rb d := by
  unfold pairProd
  rw [mulf_apply, gatherP_apply_of _ iA b p d ra hA, gatherP_apply_of _ iB b p d rb hB,
    weRef_apply a1 a3 a4 b ra d hIa, weRef_apply a1 a3 a4 b rb d hIb]

/-! ## The whole result -/

/-- With the pair tables in the start-index arrays and every row index inside its table, the reference's float
    stages compute the specification's array. -/
theorem refFloat_eq (a0 : IVec S4096x1 32) (a1 : IVec S4096x20 32) (a2 : FVec Ideal S100000x64 .f32)
    (a3 : FVec Ideal S100001x64 .f32) (a4 : FVec Ideal S20 .f32)
    (hU : ∀ i, (a0 i).toNat < 100000) (hI : ∀ i, (a1 i).toNat < 100001) :
    refFloat a0 a1 a2 a3 a4 (fun i => BitVec.ofNat 32 (Cert.Proof.Spec.pairA (i 0).val))
        (fun i => BitVec.ofNat 32 (Cert.Proof.Spec.pairB (i 0).val))
      = Cert.Proof.Spec.out a0 a1 a2 a3 a4 := by
  funext j
  obtain ⟨b, q, rfl⟩ : ∃ (b : Fin 4096) (q : Fin 13440), j = ix2 b q := ⟨j 0, j 1, eq_ix2 j⟩
  have hq : q.val < 13440 := q.isLt
  have hr : q.val / 64 < 210 := by omega
  have hd : q.val % 64 < 64 := Nat.mod_lt _ (by decide)
  show refFloat a0 a1 a2 a3 a4 _ _ (ix2 b q)
    = Cert.Proof.Spec.blockAt a0 a1 a2 a3 a4 b ⟨q.val / 64, hr⟩ ⟨q.val % 64, hd⟩
  unfold refFloat
  -- flat column q of batch row b is block q / 64, column q % 64
  rw [shapeCast_apply _ shapeCasts_S4096x210x64_S4096x13440 (ix2 b q) (ix3 b ⟨q.val / 64, hr⟩ ⟨q.val % 64, hd⟩) (by
    rw [Shape.rowMajor_val_three, Shape.rowMajor_val_two]
    show (b.val * 210 + q.val / 64) * 64 + q.val % 64 = b.val * 13440 + q.val
    omega)]
  by_cases h : q.val / 64 < 20
  · -- a user-item block
    rw [concatenate_pair_apply_left (1 : Fin 3) _ _ concatenates_S4096x20x64_S4096x190x64_S4096x210x64_d1
      (ix3 b ⟨q.val / 64, hr⟩ ⟨q.val % 64, hd⟩) rfl (ix3 b ⟨q.val / 64, h⟩ ⟨q.val % 64, hd⟩)
      (fun c => match c with | ⟨0, _⟩ => rfl | ⟨1, _⟩ => rfl | ⟨2, _⟩ => rfl)]
    rw [userItem_apply a0 a1 a2 a3 a4 b ⟨q.val / 64, h⟩ ⟨q.val % 64, hd⟩ (hU _) (hI _)]
    unfold Cert.Proof.Spec.blockAt
    rw [dif_pos h]
  · -- a pair block
    have hp : q.val / 64 - 20 < 190 := by omega
    rw [concatenate_pair_apply_right (1 : Fin 3) _ _ concatenates_S4096x20x64_S4096x190x64_S4096x210x64_d1
      (ix3 b ⟨q.val / 64, hr⟩ ⟨q.val % 64, hd⟩) rfl rfl (ix3 b ⟨q.val / 64 - 20, hp⟩ ⟨q.val % 64, hd⟩)
      (fun c => match c with
        | ⟨0, _⟩ => fun _ => rfl
        | ⟨1, _⟩ => fun hne => absurd rfl hne
        | ⟨2, _⟩ => fun _ => rfl)
      (by show q.val / 64 - 20 + 20 = q.val / 64; omega)]
    rw [pairProd_apply a1 a3 a4 (fun i => BitVec.ofNat 32 (Cert.Proof.Spec.pairA (i 0).val))
      (fun i => BitVec.ofNat 32 (Cert.Proof.Spec.pairB (i 0).val)) b ⟨q.val / 64 - 20, hp⟩ ⟨q.val % 64, hd⟩
      ⟨Cert.Proof.Spec.pairA (q.val / 64 - 20), Cert.Proof.Spec.pairA_lt _ hp⟩
      ⟨Cert.Proof.Spec.pairB (q.val / 64 - 20), Cert.Proof.Spec.pairB_lt _ hp⟩
      (slot_val _ (Cert.Proof.Spec.pairA_lt _ hp)).symm (slot_val _ (Cert.Proof.Spec.pairB_lt _ hp)).symm (hI _) (hI _)]
    unfold Cert.Proof.Spec.blockAt
    rw [dif_neg h]

end Cert.ReferenceIdeal.Hand

end
-- ==== Proof.Ref.Pairs.lean ====
/-
  The integer stages of the reference, evaluated.

  The reference computes `jnp.triu_indices(20, k = 1)` at run time.  It builds the 20×20 mask of the strict upper
  triangle (through floats: one above the diagonal, zero elsewhere, compared with zero), flattens it row-major to 400
  words and takes its running sum, so that flat position `n` holds the number of set bits at positions `0 … n`.  It
  scatters a one for each flat position into the slot named by that running count — slot `j` then holds how many flat
  positions have running count `j`, and the positions whose count is 190 (those at or after the last set bit) fall
  outside the 190 slots and are dropped — and takes the running sum of the slots: slot `p` now holds the number of flat
  positions whose running count is at most `p`, which is the flat position of the `p`-th set bit.  A floor division
  and a remainder by 20 split that position into the row `a` and the column `b` of the `p`-th pair `a < b`.

  Each stage is a definition over the operations the program prints, and each has a closed form proved from the closed
  form of the stage before: the two running sums through a general statement about this shape of windowed sum
  (`cumsum_apply`), the scatter through a general statement about a scatter by addition (`scatter_addi_apply`), the
  rest element by element.  The last step compares with the specification's tables `pairA` and `pairB`.
-/
import proofs.«429411_j5592047419689_3_alg».proof.ReferenceIdeal
import proofs.«429411_j5592047419689_3_alg».proof.Proof.Gen.ReferenceIdeal
import proofs.«429411_j5592047419689_3_alg».proof.Proof.Spec
import Idealize.ShloMosaic.Lib.IdealHost
import Idealize.ShloMosaic.Lib.ValueIdx
import Mathlib.Algebra.BigOperators.Fin
import Mathlib.Algebra.BigOperators.Intervals
import Mathlib.Data.BitVec

noncomputable section

namespace Cert.ReferenceIdeal.Hand

open Idealize.ShloMosaic Idealize.ShloMosaic.ValueIdx
open Cert.ReferenceIdeal

/-! ## The closed forms -/

/-- The mask's word at flat position `q`: one where the row `q / 20` is less than the column `q % 20`. -/
def maskAt (q : Nat) : BitVec 32 := if q / 20 < q % 20 then 1#32 else 0#32

/-- The number of pairs `a < b` below 20 with `20 a + b ≤ n`: the full rows before row `n / 20` (row `a` has `19 - a`
    of them) and the columns `n / 20 < b ≤ n % 20` of that row. -/
def countTo (n : Nat) : Nat := 19 * (n / 20) - (n / 20) * (n / 20 - 1) / 2 + (n % 20 - n / 20)

/-- How many of the 400 flat positions have the running count `j`. -/
def gapAt (j : Nat) : Nat := ((List.finRange 400).filter fun n => decide (countTo n.val = j)).length

/-- The number of pairs in the rows before row `a`: `19 + 18 + … + (20 - a)`. -/
def startOf (a : Nat) : Nat := 19 * a - a * (a - 1) / 2

/-- The row of the `p`-th pair: how many of the rows 1 … 19 start at or before `p`. -/
def rowAt (p : Nat) : Nat := ((List.range 19).filter fun a => decide (startOf (a + 1) ≤ p)).length

/-- The flat position of the `p`-th pair: its row's first pair has the column `row + 1`. -/
def posOf (p : Nat) : Nat := 20 * rowAt p + (rowAt p + 1 + (p - startOf (rowAt p)))

/-! ## A windowed sum that is a running sum -/

/-- A left fold that adds `g m` onto the running value adds the sum of the `g m`. -/
theorem foldl_addi_eq {ι : Type} (g : ι → BitVec 32) (l : List ι) (v : BitVec 32) :
    l.foldl (fun r m => IntOp.addi r (g m)) v = v + (l.map g).sum := by
  induction l generalizing v with
  | nil => simp
  | cons a l ih =>
    rw [List.foldl_cons, ih, List.map_cons, List.sum_cons]
    show (v + g a) + _ = _
    rw [BitVec.add_assoc]

/-- A vector's one-axis shape has as many elements as the axis is long. -/
theorem numel_vec (n : Nat) : (⟨1, ![n]⟩ : Shape).numel = n := by
  simp [Shape.numel]

/-- Over a vector of length `n`, the sum by addition of a window of `n` elements, padded `n - 1` low and none high
    with zero, at stride one: the window at `j` covers the padded positions `j … j + n - 1`, of which the first
    `n - 1 - j` are padding and the rest are the elements `0 … j`. So it is the running sum. -/
theorem cumsum_apply {n lo : Nat} (hlo : lo + 1 = n) (x : (⟨1, ![n]⟩ : Shape).Idx → BitVec 32) (x' : Nat → BitVec 32)
    (hx : ∀ k : Fin n, x (ix1 k) = x' k.val) (init : (⟨0, ![]⟩ : Shape).Idx → BitVec 32)
    (h : (⟨1, ![n]⟩ : Shape).ReduceWindows ![n] ![1] ![lo] ![0] ⟨1, ![n]⟩) (hu : 0 < (⟨0, ![]⟩ : Shape).numel)
    (h0 : init (Shape.Idx.first hu) = 0#32) (j : Fin n) :
    Host.reduceWindow IntOp.addi ![n] ![1] ![lo] ![0] x init h hu (ix1 j) = ∑ i ∈ Finset.range (j.val + 1), x' i := by
  -- what the window's position `m` contributes
  let G : Nat → BitVec 32 := fun q => if lo ≤ q ∧ q - lo < n then x' (q - lo) else 0#32
  have hj := j.isLt
  unfold Host.reduceWindow
  simp only []
  have hstep : ∀ (r : BitVec 32) (m : Fin (⟨(⟨1, ![n]⟩ : Shape).rank, ![n]⟩ : Shape).numel),
      IntOp.addi r (if hin : ∀ a : Fin (⟨1, ![n]⟩ : Shape).rank, (![lo] : Fin 1 → Nat) a ≤
            ((ix1 j) (a.cast h.1.symm)).val * (![1] : Fin 1 → Nat) a
              + ((⟨(⟨1, ![n]⟩ : Shape).rank, ![n]⟩ : Shape).rowMajor.symm m a).val ∧
          ((ix1 j) (a.cast h.1.symm)).val * (![1] : Fin 1 → Nat) a
              + ((⟨(⟨1, ![n]⟩ : Shape).rank, ![n]⟩ : Shape).rowMajor.symm m a).val - (![lo] : Fin 1 → Nat) a
            < (⟨1, ![n]⟩ : Shape).size a
        then x (fun a => ⟨((ix1 j) (a.cast h.1.symm)).val * (![1] : Fin 1 → Nat) a
              + ((⟨(⟨1, ![n]⟩ : Shape).rank, ![n]⟩ : Shape).rowMajor.symm m a).val - (![lo] : Fin 1 → Nat) a, (hin a).2⟩)
        else init (Shape.Idx.first hu))
      = IntOp.addi r (G (j.val + m.val)) := by
    intro r m
    congr 1
    have hm : (((⟨(⟨1, ![n]⟩ : Shape).rank, ![n]⟩ : Shape).rowMajor.symm m) 0).val = m.val := by
      have := Shape.rowMajor_val_one (d := ![n]) ((⟨1, ![n]⟩ : Shape).rowMajor.symm m)
      rw [Equiv.apply_symm_apply] at this
      exact this.symm
    have key : ∀ a : Fin (⟨1, ![n]⟩ : Shape).rank,
        ((ix1 j) (a.cast h.1.symm)).val * (![1] : Fin 1 → Nat) a
          + ((⟨(⟨1, ![n]⟩ : Shape).rank, ![n]⟩ : Shape).rowMajor.symm m a).val = j.val + m.val := by
      intro a
      have ha : a = 0 := Subsingleton.elim _ _
      subst ha
      show j.val * 1 + _ = _
      rw [hm, Nat.mul_one]
    by_cases hc : lo ≤ j.val + m.val ∧ j.val + m.val - lo < n
    · have hin : ∀ a : Fin (⟨1, ![n]⟩ : Shape).rank, (![lo] : Fin 1 → Nat) a ≤
            ((ix1 j) (a.cast h.1.symm)).val * (![1] : Fin 1 → Nat) a
              + ((⟨(⟨1, ![n]⟩ : Shape).rank, ![n]⟩ : Shape).rowMajor.symm m a).val ∧
          ((ix1 j) (a.cast h.1.symm)).val * (![1] : Fin 1 → Nat) a
              + ((⟨(⟨1, ![n]⟩ : Shape).rank, ![n]⟩ : Shape).rowMajor.symm m a).val - (![lo] : Fin 1 → Nat) a
            < (⟨1, ![n]⟩ : Shape).size a := by
        intro a
        rw [key a]
        have ha : a = 0 := Subsingleton.elim _ _
        subst ha
        exact hc
      rw [dif_pos hin]
      show _ = if lo ≤ j.val + m.val ∧ j.val + m.val - lo < n then x' (j.val + m.val - lo) else 0#32
      rw [if_pos hc, ← hx ⟨j.val + m.val - lo, hc.2⟩]
      congr 1
      funext a
      have ha : a = 0 := Subsingleton.elim _ _
      subst ha
      apply Fin.ext
      show _ - lo = j.val + m.val - lo
      rw [key 0]
    · have hin : ¬ ∀ a : Fin (⟨1, ![n]⟩ : Shape).rank, (![lo] : Fin 1 → Nat) a ≤
            ((ix1 j) (a.cast h.1.symm)).val * (![1] : Fin 1 → Nat) a
              + ((⟨(⟨1, ![n]⟩ : Shape).rank, ![n]⟩ : Shape).rowMajor.symm m a).val ∧
          ((ix1 j) (a.cast h.1.symm)).val * (![1] : Fin 1 → Nat) a
              + ((⟨(⟨1, ![n]⟩ : Shape).rank, ![n]⟩ : Shape).rowMajor.symm m a).val - (![lo] : Fin 1 → Nat) a
            < (⟨1, ![n]⟩ : Shape).size a := by
        intro hall
        have := hall 0
        rw [key 0] at this
        exact hc this
      rw [dif_neg hin, h0]
      show _ = if lo ≤ j.val + m.val ∧ j.val + m.val - lo < n then x' (j.val + m.val - lo) else 0#32
      rw [if_neg hc]
  refine (List.foldl_ext _ (fun r m => IntOp.addi r (G (j.val + m.val))) _ (fun r m _ => hstep r m)).trans ?_
  rw [foldl_addi_eq, h0, BitVec.zero_add, ← Fin.sum_univ_def (fun m => G (j.val + m.val)),
    Fin.sum_univ_eq_sum_range (fun m => G (j.val + m))]
  have hN : (⟨(⟨1, ![n]⟩ : Shape).rank, ![n]⟩ : Shape).numel = n := numel_vec n
  rw [hN]
  have e : Finset.range n = Finset.range ((lo - j.val) + (j.val + 1)) := by congr 1; omega
  rw [e, Finset.sum_range_add]
  have z : ∑ m ∈ Finset.range (lo - j.val), G (j.val + m) = 0 := by
    refine Finset.sum_eq_zero fun m hm => ?_
    have hm' := Finset.mem_range.1 hm
    show (if lo ≤ j.val + m ∧ j.val + m - lo < n then x' (j.val + m - lo) else 0#32) = 0
    rw [if_neg (by omega)]
    rfl
  rw [z, zero_add]
  refine Finset.sum_congr rfl fun i hi => ?_
  have hi' := Finset.mem_range.1 hi
  show (if lo ≤ j.val + (lo - j.val + i) ∧ j.val + (lo - j.val + i) - lo < n
    then x' (j.val + (lo - j.val + i) - lo) else 0#32) = x' i
  rw [if_pos (by omega)]
  congr 1
  omega

/-- If a table starts at the first element and each next entry adds the next element, it is the running sum. -/
theorem sum_range_of_step (x' T : Nat → BitVec 32) (n : Nat) (h0 : T 0 = x' 0)
    (hs : ∀ j, j + 1 < n → T (j + 1) = T j + x' (j + 1)) :
    ∀ j, j < n → ∑ i ∈ Finset.range (j + 1), x' i = T j := by
  intro j
  induction j with
  | zero => intro _; simp [h0]
  | succ j ih =>
    intro hj
    rw [Finset.sum_range_succ, ih (by omega), hs j hj]

/-! ## A scatter by addition -/

/-- A scatter by addition reads, at `j`, the operand's element plus the updates that land at `j`: each step of the
    fold changes the element an update lands at and no other. -/
theorem scatter_addi_apply {s si u : Shape} {w : Nat} (d : ScatterDims s si u) (x : s.Idx → BitVec 32) (idx : IVec si w)
    (upd : u.Idx → BitVec 32) (j : s.Idx) :
    Host.scatter d IntOp.addi x idx upd j
      = x j + ((List.finRange u.numel).map fun n =>
          if d.resultIdx? (u.rowMajor.symm n) idx = some j then upd (u.rowMajor.symm n) else 0#32).sum := by
  unfold Host.scatter
  generalize List.finRange u.numel = l
  induction l generalizing x with
  | nil => simp
  | cons a l ih =>
    rw [List.foldl_cons, ih, List.map_cons, List.sum_cons, ← BitVec.add_assoc]
    congr 1
    cases hr : d.resultIdx? (u.rowMajor.symm a) idx with
    | none => simp
    | some i =>
      by_cases hji : j = i
      · subst hji
        simp [IntOp.addi]
      · have hne : ¬ (some i = some j) := fun h => hji (Option.some.inj h).symm
        simp [hji, hne]

/-- A sum of zeros and ones is the number of ones. -/
theorem sum_indicator {ι : Type} (P : ι → Prop) [DecidablePred P] (l : List ι) :
    (l.map fun n => if P n then 1#32 else 0#32).sum = BitVec.ofNat 32 (l.filter fun n => decide (P n)).length := by
  induction l with
  | nil => rfl
  | cons a l ih =>
    rw [List.map_cons, List.sum_cons, ih, List.filter_cons]
    by_cases h : P a
    · simp only [h, if_true, decide_true, List.length_cons]
      rw [BitVec.add_comm, ← BitVec.ofNat_add]
    · simp [h]

section Stages

-- the side conditions the operations take are the fields of the program's facts, proved in the generated module
open Facts₀ Facts

/-! ## The stages, as the program prints them -/

/-- %21: the 20×20 array of ones. -/
def onesF : FVec Ideal S20x20 .f32 :=
  broadcastInDim S20x20 ![] bcast_S_S20x20 (constant S_ .f32 0x3F800000#32)

/-- @triu's %4: the row index (plus the diagonal offset 0) is at least the column index. -/
def lowerB : IVec S20x20 1 :=
  cmpi .sge (addi (iotaInDim S20x20 32 0) (broadcastInDim S20x20 ![] bcast_S_S20x20 (constantI S_ 32 0#32)))
    (iotaInDim S20x20 32 1)

/-- %22: zero on and below the diagonal, one above it. -/
def triuF : FVec Ideal S20x20 .f32 :=
  select lowerB (broadcastInDim S20x20 ![] bcast_S_S20x20 (constant S_ .f32 0x00000000#32)) onesF

/-- %24: the strict upper triangle as bits. -/
def maskB : IVec S20x20 1 :=
  cmpf .une triuF (broadcastInDim S20x20 ![] bcast_S_S20x20 (constant S_ .f32 0x00000000#32))

/-- @cumsum's %1: the mask flattened row-major to 400 words. -/
def mask32 : IVec S400 32 :=
  extui 32 (shapeCast S400 maskB shapeCasts_S20x20_S400) natLt_1_32

/-- %25: the running count of set bits. -/
def csum400 : IVec S400 32 :=
  Host.reduceWindow IntOp.addi ![400] ![1] ![399] ![0] mask32
    (broadcastInDim S_ ![] bcast_S_S_ (constantI S_ 32 0#32)) reduceWindows_S400_S400_w400s1p399_0 h_S_

/-- %27: clipped below at zero. -/
def clip400 : IVec S400 32 :=
  maxsi (broadcastInDim S400 ![] bcast_S_S400 (id (constantI S_ 32 0#32))) csum400

/-- %32: a negative index wrapped by the length 190. -/
def wrap400 : IVec S400 32 :=
  select (cmpi .slt clip400 (broadcastInDim S400 ![] bcast_S_S400 (constantI S_ 32 0#32)))
    (addi clip400 (broadcastInDim S400 ![] bcast_S_S400 (constantI S_ 32 190#32))) clip400

/-- %35: how many flat positions have each running count. -/
def hist190 : IVec S190 32 :=
  Host.scatter scatter_S190_S400x1_S400_n_0_0_1 IntOp.addi
    (broadcastInDim S190 ![] bcast_S_S190 (constantI S_ 32 0#32))
    (broadcastInDim S400x1 ![0] bcast_S400_S400x1_0 wrap400)
    (broadcastInDim S400 ![] bcast_S_S400 (constantI S_ 32 1#32))

/-- %36: the flat positions (row-major in the 20×20 mask) of the 190 set bits, in order. -/
def flatPos : IVec S190 32 :=
  Host.reduceWindow IntOp.addi ![190] ![1] ![189] ![0] hist190
    (broadcastInDim S_ ![] bcast_S_S_ (constantI S_ 32 0#32)) reduceWindows_S190_S190_w190s1p189_0 h_S_

/-- @floor_divide's %1: the quotient rounded toward zero. -/
def fdQuot (x : IVec S190 32) (c : IVec S_ 32) : IVec S190 32 :=
  Host.divsi x (broadcastInDim S190 ![] bcast_S_S190 c)

/-- @floor_divide's %10: the signs differ and the remainder is not zero. -/
def fdAdjust (x : IVec S190 32) (c : IVec S_ 32) : IVec S190 1 :=
  andi (cmpi .ne (signi x) (broadcastInDim S190 ![] bcast_S_S190 (signi c)))
    (cmpi .ne (Host.remsi x (broadcastInDim S190 ![] bcast_S_S190 c))
      (broadcastInDim S190 ![] bcast_S_S190 (constantI S_ 32 0#32)))

/-- @floor_divide's %13: the quotient rounded toward minus infinity. -/
def floorDiv (x : IVec S190 32) (c : IVec S_ 32) : IVec S190 32 :=
  select (fdAdjust x c) (subi (fdQuot x c) (broadcastInDim S190 ![] bcast_S_S190 (constantI S_ 32 1#32))) (fdQuot x c)

/-- @remainder's %2: the divisor, a zero divisor replaced by one. -/
def remDivisor (c : IVec S_ 32) : IVec S_ 32 :=
  select (cmpi .eq (id c) (constantI S_ 32 0#32)) (constantI S_ 32 1#32) (id c)

/-- @remainder's %4: the remainder with the dividend's sign. -/
def remTrunc (x : IVec S190 32) (c : IVec S_ 32) : IVec S190 32 :=
  Host.remsi x (broadcastInDim S190 ![] bcast_S_S190 (remDivisor c))

/-- @remainder's %12: the remainder is not zero and its sign is not the divisor's. -/
def remAdjust (x : IVec S190 32) (c : IVec S_ 32) : IVec S190 1 :=
  andi
    (cmpi .ne (cmpi .slt (remTrunc x c) (broadcastInDim S190 ![] bcast_S_S190 (constantI S_ 32 0#32)))
      (broadcastInDim S190 ![] bcast_S_S190 (cmpi .slt (remDivisor c) (constantI S_ 32 0#32))))
    (cmpi .ne (remTrunc x c) (broadcastInDim S190 ![] bcast_S_S190 (constantI S_ 32 0#32)))

/-- @remainder's %15: the remainder with the divisor's sign. -/
def floorRem (x : IVec S190 32) (c : IVec S_ 32) : IVec S190 32 :=
  select (remAdjust x c) (addi (remTrunc x c) (broadcastInDim S190 ![] bcast_S_S190 (remDivisor c))) (remTrunc x c)

/-- %41 … %46 and %48 … %53: a negative index wrapped by the length 20, as a [190,1] array of start indices. -/
def startIdx (r : IVec S190 32) : IVec S190x1 32 :=
  broadcastInDim S190x1 ![0] bcast_S190_S190x1_0
    (select (cmpi .slt r (broadcastInDim S190 ![] bcast_S_S190 (constantI S_ 32 0#32)))
      (addi r (broadcastInDim S190 ![] bcast_S_S190 (constantI S_ 32 20#32))) r)

/-- %38: the row of each set bit. -/
def rowOf : IVec S190 32 := floorRem (floorDiv flatPos (constantI S_ 32 20#32)) (constantI S_ 32 20#32)

/-- %40: the column of each set bit. -/
def colOf : IVec S190 32 := floorRem (floorDiv flatPos (constantI S_ 32 1#32)) (constantI S_ 32 20#32)

/-- %46: the [190,1] start indices of the first gather. -/
def idxA : IVec S190x1 32 := startIdx rowOf

/-- %53: the [190,1] start indices of the second gather. -/
def idxB : IVec S190x1 32 := startIdx colOf

/-! ## The mask -/

/-- Below 20 the signed comparison of words is the comparison of the numbers. -/
theorem lower_word : ∀ a b : Fin 20,
    IntOp.cmpi .sge (IntOp.addi (BitVec.ofNat 32 a.val) 0#32) (BitVec.ofNat 32 b.val)
      = if a.val < b.val then 0#1 else 1#1 := by decide

/-- The mask is the strict upper triangle: the float detour (one above the diagonal, zero elsewhere, compared
    with zero) changes nothing, since one is not zero. -/
theorem maskB_eq : maskB = fun i => if (i 0).val < (i 1).val then 1#1 else 0#1 := by
  funext i
  have hl : lowerB i = if (i 0).val < (i 1).val then 0#1 else 1#1 := lower_word (i 0) (i 1)
  have h1 : maskB i = Ideal.cmp .une (Scalar.select (lowerB i) (Ideal.ofBits .f32 0x00000000#32)
      (Ideal.ofBits .f32 0x3F800000#32)) (Ideal.ofBits .f32 0x00000000#32) := rfl
  rw [h1, hl, Ideal.ofBits_zero_f32, Ideal.ofBits_one_f32]
  split <;> simp [Scalar.select, Ideal.cmp]

/-- Flat position `n` of the 20×20 array is row `n / 20`, column `n % 20`. -/
theorem unflatten : ∀ n : Fin 400,
    ((Shape.reshapeEquiv (s := S20x20) (s' := S400) (by decide) (ix1 n)) 0).val = n.val / 20
      ∧ ((Shape.reshapeEquiv (s := S20x20) (s' := S400) (by decide) (ix1 n)) 1).val = n.val % 20 := by
  decide +kernel

/-- The flattened mask as words. -/
theorem mask32_eq : mask32 = fun k => maskAt (k 0).val := by
  funext k
  obtain ⟨n, rfl⟩ : ∃ n, k = ix1 n := ⟨k 0, eq_ix1 k⟩
  have h1 : mask32 (ix1 n) = (maskB (Shape.reshapeEquiv shapeCasts_S20x20_S400 (ix1 n))).setWidth 32 := rfl
  rw [h1, maskB_eq]
  have h := unflatten n
  show (if ((Shape.reshapeEquiv shapeCasts_S20x20_S400 (ix1 n)) 0).val
      < ((Shape.reshapeEquiv shapeCasts_S20x20_S400 (ix1 n)) 1).val then 1#1 else 0#1).setWidth 32
    = if n.val / 20 < n.val % 20 then 1#32 else 0#32
  rw [h.1, h.2]
  split <;> rfl

/-! ## The running count -/

/-- The count at the next flat position adds that position's bit. -/
theorem count_step : ∀ j : Fin 399,
    BitVec.ofNat 32 (countTo (j.val + 1)) = BitVec.ofNat 32 (countTo j.val) + maskAt (j.val + 1) := by
  decide +kernel

theorem csum400_eq : csum400 = fun k => BitVec.ofNat 32 (countTo (k 0).val) := by
  funext k
  obtain ⟨n, rfl⟩ : ∃ n, k = ix1 n := ⟨k 0, eq_ix1 k⟩
  have h1 : csum400 (ix1 n) = ∑ i ∈ Finset.range (n.val + 1), maskAt i :=
    cumsum_apply (n := 400) (lo := 399) rfl mask32 maskAt (fun k => congrFun mask32_eq (ix1 k)) _
      reduceWindows_S400_S400_w400s1p399_0 h_S_ rfl n
  rw [h1]
  exact sum_range_of_step maskAt (fun q => BitVec.ofNat 32 (countTo q)) 400 (by decide)
    (fun j hj => count_step ⟨j, by omega⟩) n.val n.isLt

/-- A count between 0 and 190 is not negative: the clip at zero and the wrap of a negative index leave it. -/
theorem wrap_word : ∀ n : Fin 400,
    Scalar.select (IntOp.cmpi .slt (IntOp.maxsi 0#32 (BitVec.ofNat 32 (countTo n.val))) 0#32)
      (IntOp.addi (IntOp.maxsi 0#32 (BitVec.ofNat 32 (countTo n.val))) 190#32)
      (IntOp.maxsi 0#32 (BitVec.ofNat 32 (countTo n.val))) = BitVec.ofNat 32 (countTo n.val) := by
  decide +kernel

theorem wrap400_eq : wrap400 = fun k => BitVec.ofNat 32 (countTo (k 0).val) := by
  funext k
  have h1 : wrap400 k = Scalar.select (IntOp.cmpi .slt (IntOp.maxsi 0#32 (csum400 k)) 0#32)
      (IntOp.addi (IntOp.maxsi 0#32 (csum400 k)) 190#32) (IntOp.maxsi 0#32 (csum400 k)) := rfl
  rw [h1, csum400_eq]
  exact wrap_word (k 0)

/-! ## The slots -/

/-- The one written for flat position `n` lands in the slot its running count names, and nowhere when the count is 190. -/
theorem land_at : ∀ n : Fin S400.numel,
    (⟨[], [0], [0], 1, by decide⟩ : ScatterDims S190 S400x1 S400).resultIdx? (S400.rowMajor.symm n)
        (broadcastInDim S400x1 ![0] (by decide) (fun k : S400.Idx => BitVec.ofNat 32 (countTo (k 0).val)))
      = if h : countTo n.val < 190 then some (ix1 ⟨countTo n.val, h⟩) else none := by
  decide +kernel

theorem hist190_eq : hist190 = fun j => BitVec.ofNat 32 (gapAt (j 0).val) := by
  funext j
  obtain ⟨p, rfl⟩ : ∃ p, j = ix1 p := ⟨j 0, eq_ix1 j⟩
  refine (scatter_addi_apply scatter_S190_S400x1_S400_n_0_0_1 _ _ _ (ix1 p)).trans ?_
  rw [wrap400_eq]
  have hx : (broadcastInDim S190 ![] bcast_S_S190 (constantI S_ 32 0#32)) (ix1 p) = 0#32 := rfl
  rw [hx, BitVec.zero_add]
  have hmap : ∀ n : Fin S400.numel,
      (if scatter_S190_S400x1_S400_n_0_0_1.resultIdx? (S400.rowMajor.symm n)
            (broadcastInDim S400x1 ![0] bcast_S400_S400x1_0 fun k : S400.Idx => BitVec.ofNat 32 (countTo (k 0).val)) = some (ix1 p)
        then (broadcastInDim S400 ![] bcast_S_S400 (constantI S_ 32 1#32)) (S400.rowMajor.symm n) else 0#32)
      = if countTo n.val = p.val then 1#32 else 0#32 := by
    intro n
    rw [show scatter_S190_S400x1_S400_n_0_0_1.resultIdx? (S400.rowMajor.symm n)
            (broadcastInDim S400x1 ![0] bcast_S400_S400x1_0 fun k : S400.Idx => BitVec.ofNat 32 (countTo (k 0).val)) = _ from land_at n]
    by_cases hc : countTo n.val = p.val
    · have hlt : countTo n.val < 190 := by rw [hc]; exact p.isLt
      have hp : (⟨countTo n.val, hlt⟩ : Fin 190) = p := Fin.ext hc
      rw [dif_pos hlt, hp, if_pos rfl, if_pos hc]
      rfl
    · rw [if_neg hc]
      by_cases hlt : countTo n.val < 190
      · rw [dif_pos hlt, if_neg]
        intro h
        exact hc (congrArg Fin.val (congrFun (Option.some.inj h) 0))
      · rw [dif_neg hlt]
        exact if_neg (fun h => nomatch h)
  refine (congrArg List.sum (List.map_congr_left fun n _ => hmap n)).trans ?_
  exact sum_indicator (fun n : Fin 400 => countTo n.val = p.val) (List.finRange 400)

/-! ## The positions -/

/-- The position of the next pair is further by the number of flat positions with that running count. -/
theorem pos_step : ∀ j : Fin 189,
    BitVec.ofNat 32 (posOf (j.val + 1)) = BitVec.ofNat 32 (posOf j.val) + BitVec.ofNat 32 (gapAt (j.val + 1)) := by
  decide +kernel

theorem flatPos_eq : flatPos = fun p => BitVec.ofNat 32 (posOf (p 0).val) := by
  funext k
  obtain ⟨n, rfl⟩ : ∃ n, k = ix1 n := ⟨k 0, eq_ix1 k⟩
  have h1 : flatPos (ix1 n) = ∑ i ∈ Finset.range (n.val + 1), (fun j => BitVec.ofNat 32 (gapAt j)) i :=
    cumsum_apply (n := 190) (lo := 189) rfl hist190 (fun j => BitVec.ofNat 32 (gapAt j))
      (fun k => congrFun hist190_eq (ix1 k)) _ reduceWindows_S190_S190_w190s1p189_0 h_S_ rfl n
  rw [h1]
  exact sum_range_of_step (fun j => BitVec.ofNat 32 (gapAt j)) (fun q => BitVec.ofNat 32 (posOf q)) 190
    (by decide +kernel) (fun j hj => pos_step ⟨j, by omega⟩) n.val n.isLt

/-! ## Rows and columns -/

/-- The floor division and the remainder by 20 of the `p`-th pair's flat position are its smaller and larger member. -/
theorem idxA_word : ∀ p : Fin 190,
    startIdx (floorRem (floorDiv (fun q : S190.Idx => BitVec.ofNat 32 (posOf (q 0).val))
      (constantI S_ 32 20#32)) (constantI S_ 32 20#32)) (ix2 p 0)
      = BitVec.ofNat 32 (Cert.Proof.Spec.pairA p.val) := by
  decide +kernel

theorem idxB_word : ∀ p : Fin 190,
    startIdx (floorRem (floorDiv (fun q : S190.Idx => BitVec.ofNat 32 (posOf (q 0).val))
      (constantI S_ 32 1#32)) (constantI S_ 32 20#32)) (ix2 p 0)
      = BitVec.ofNat 32 (Cert.Proof.Spec.pairB p.val) := by
  decide +kernel

/-- An index of a [190,1] array is its row and the column zero. -/
theorem eq_col0 (i : S190x1.Idx) : i = ix2 (i 0) 0 :=
  have h : @Eq (Fin 1) (i 1) 0 := Subsingleton.elim _ _
  (eq_ix2 i).trans (congrArg (ix2 (i 0)) h)

theorem idxA_eq : idxA = fun i => BitVec.ofNat 32 (Cert.Proof.Spec.pairA (i 0).val) := by
  funext i
  obtain ⟨p, rfl⟩ : ∃ p : Fin 190, i = ix2 p 0 := ⟨i 0, eq_col0 i⟩
  have h1 : idxA = startIdx (floorRem (floorDiv flatPos (constantI S_ 32 20#32)) (constantI S_ 32 20#32)) := rfl
  rw [h1, flatPos_eq]
  exact idxA_word p

theorem idxB_eq : idxB = fun i => BitVec.ofNat 32 (Cert.Proof.Spec.pairB (i 0).val) := by
  funext i
  obtain ⟨p, rfl⟩ : ∃ p : Fin 190, i = ix2 p 0 := ⟨i 0, eq_col0 i⟩
  have h1 : idxB = startIdx (floorRem (floorDiv flatPos (constantI S_ 32 1#32)) (constantI S_ 32 20#32)) := rfl
  rw [h1, flatPos_eq]
  exact idxB_word p

end Stages

end Cert.ReferenceIdeal.Hand

end
-- ==== Proof.Ref.Glue.lean ====
/-
  The reference's result as the specification's array.

  The run of the reference is a fold of 163 operations over the launch contents. Read at the result buffer it is
  the composition of the float stages (the two table lookups, the weighted history rows, the user-item blocks, the
  pairwise products at two index vectors, the concatenation and the flattening) applied to the five arguments and to
  the two index vectors the integer stages compute from no argument at all (the mask above the diagonal, its running
  sum, the scatter of ones, the second running sum, the floor quotient and remainder by 20, the wrap and the layout as
  start indices). The fold is read off in stretches, cut where one stage ends: the buffers a stretch reads hold what
  the stretches before wrote — one equation per buffer still to be read, carried past the stretches that do not write
  it — so that no stage's term is ever written out more than once, however many later operations read it.
  With the two index vectors identified with the table of pairs a < a' below 20 and every row index inside its table,
  the float stages are the specification's array entry by entry; with the run of the reference this is its value claim.
-/
import proofs.«429411_j5592047419689_3_alg».proof.Proof.Ref.Run
import proofs.«429411_j5592047419689_3_alg».proof.Proof.Ref.Value
import proofs.«429411_j5592047419689_3_alg».proof.Proof.Ref.Pairs
import Idealize.ShloMosaic.Lib.Pipeline.Frame
import Idealize.ShloMosaic.PureOps.Ideal

noncomputable section

namespace Cert.ReferenceIdeal.Hand

open Cert.ReferenceIdeal Cert.ReferenceIdeal.Gen Idealize.ShloMosaic Idealize.ShloMosaic.TcCoe Idealize.SL.Sem Idealize.ShloMosaic.StableHlo

/-! ## A line run in pieces -/

/-- The first `i + j` operations of a line are its first `i`, then the next `j` from what those left. -/
theorem after_take_cut (l : List (HloOp τ sig (Elt Ideal))) (i j k : Nat) (h : i + j = k) (V : Valuation τ sig (Elt Ideal)) :
    after (l.take k) V = after ((l.drop i).take j) (after (l.take i) V) := by
  subst h; rw [List.take_add, StableHlo.after_append]

/-- A line is its first `i` operations, then the rest from what those left. -/
theorem after_cut (l : List (HloOp τ sig (Elt Ideal))) (i : Nat) (V : Valuation τ sig (Elt Ideal)) :
    after l V = after (l.drop i) (after (l.take i) V) := by
  conv_lhs => rw [← List.take_append_drop i l]
  exact StableHlo.after_append _ _ _

/- One stretch read at a buffer: the stretch's operations taken out of the list; each operation's result at the buffer
   it writes is its function of the buffers it reads, and at any other buffer what was there; a callee's function moved
   to its buffers' own types is the function; the buffers the stretch reads from before it hold the given values; what
   is left is the stage's definition. -/
local syntax "read_stretch" " [" (Lean.Parser.Tactic.simpStar <|> Lean.Parser.Tactic.simpErase <|> Lean.Parser.Tactic.simpLemma),* "]" : tactic
local macro_rules
  | `(tactic| read_stretch [$hs,*]) =>
    `(tactic| (simp only [ops, List.drop_succ_cons, List.drop_zero, List.take_succ_cons, List.take_zero]
               after_results_simp
               (try simp only [TRef.ofBuf, TRef.toBuf, cast_eq])
               (try simp only [$hs,*])
               (try rfl)))

/-! ## The float stages before the pairs -/

set_option maxRecDepth 8192 in
/-- The first 25 operations — the two index wraps and table lookups, the weights' broadcasts and the two products — leave
    the weighted history rows in %17's buffer and the user-item blocks in %20's, as functions of the five arguments. -/
theorem at25 (V : Valuation τ sig (Elt Ideal)) :
    after (ops.take 25) V (Proc.devRef .tc main_v17) = weRef (V (Proc.devRef .tc main_arg1)) (V (Proc.devRef .tc main_arg3)) (V (Proc.devRef .tc main_arg4))
      ∧ after (ops.take 25) V (Proc.devRef .tc main_v20)
          = userItem (V (Proc.devRef .tc main_arg0)) (V (Proc.devRef .tc main_arg1)) (V (Proc.devRef .tc main_arg2)) (V (Proc.devRef .tc main_arg3)) (V (Proc.devRef .tc main_arg4)) := by
  refine ⟨?_, ?_⟩ <;>
    (simp only [ops, List.take_succ_cons, List.take_zero]; after_results_simp; rfl)

set_option maxRecDepth 8192 in
/-- The next 125 operations, which compute the first index vector, write neither buffer. -/
theorem at150f (V : Valuation τ sig (Elt Ideal)) :
    after (ops.take 150) V (Proc.devRef .tc main_v17) = weRef (V (Proc.devRef .tc main_arg1)) (V (Proc.devRef .tc main_arg3)) (V (Proc.devRef .tc main_arg4))
      ∧ after (ops.take 150) V (Proc.devRef .tc main_v20)
          = userItem (V (Proc.devRef .tc main_arg0)) (V (Proc.devRef .tc main_arg1)) (V (Proc.devRef .tc main_arg2)) (V (Proc.devRef .tc main_arg3)) (V (Proc.devRef .tc main_arg4)) := by
  rw [after_take_cut ops 25 125 150 rfl V]
  generalize hW : after (ops.take 25) V = W
  have h0 : W (Proc.devRef .tc main_v17) = weRef (V (Proc.devRef .tc main_arg1)) (V (Proc.devRef .tc main_arg3)) (V (Proc.devRef .tc main_arg4)) := hW ▸ (at25 V).1
  have h1 : W (Proc.devRef .tc main_v20)
      = userItem (V (Proc.devRef .tc main_arg0)) (V (Proc.devRef .tc main_arg1)) (V (Proc.devRef .tc main_arg2)) (V (Proc.devRef .tc main_arg3)) (V (Proc.devRef .tc main_arg4)) := hW ▸ (at25 V).2
  refine ⟨?_, ?_⟩ <;> read_stretch [h0, h1]

/-! ## The integer stages: the two index vectors

Each stretch ends where a stage's value is written; the stage definitions are the neighbouring module's. -/

set_option maxRecDepth 8192 in
/-- Operations 26, 27 write %21: the 20 × 20 array of ones. -/
theorem at27 (V : Valuation τ sig (Elt Ideal)) :
    after (ops.take 27) V (Proc.devRef .tc main_v21) = onesF := by
  rw [after_take_cut ops 25 2 27 rfl V]
  generalize hW : after (ops.take 25) V = W
  read_stretch []

set_option maxRecDepth 8192 in
/-- @triu's nine operations write %22: those ones kept above the diagonal, zero on and below it. -/
theorem at36 (V : Valuation τ sig (Elt Ideal)) :
    after (ops.take 36) V (Proc.devRef .tc main_v22) = triuF := by
  rw [after_take_cut ops 27 9 36 rfl V]
  generalize hW : after (ops.take 27) V = W
  have h0 : W (Proc.devRef .tc main_v21) = onesF := hW ▸ at27 V
  read_stretch [h0]

set_option maxRecDepth 8192 in
/-- Operations 37 … 39 write %24: where that array differs from 0.0 — the strict upper triangle as bits. -/
theorem at39 (V : Valuation τ sig (Elt Ideal)) :
    after (ops.take 39) V (Proc.devRef .tc main_v24) = maskB := by
  rw [after_take_cut ops 36 3 39 rfl V]
  generalize hW : after (ops.take 36) V = W
  have h0 : W (Proc.devRef .tc main_v22) = triuF := hW ▸ at36 V
  read_stretch [h0]

set_option maxRecDepth 8192 in
/-- @cumsum's five operations write %25: the mask flattened to 400 words and its running sum. -/
theorem at44 (V : Valuation τ sig (Elt Ideal)) :
    after (ops.take 44) V (Proc.devRef .tc main_v25) = csum400 := by
  rw [after_take_cut ops 39 5 44 rfl V]
  generalize hW : after (ops.take 39) V = W
  have h0 : W (Proc.devRef .tc main_v24) = maskB := hW ▸ at39 V
  read_stretch [h0]

set_option maxRecDepth 8192 in
/-- @clip's three operations write %27, the running sum bounded below by zero; before them operations 45, 46 write
    %26, the 190 zeros the ones will be added into. -/
theorem at50 (V : Valuation τ sig (Elt Ideal)) :
    after (ops.take 50) V (Proc.devRef .tc main_v27) = clip400
      ∧ after (ops.take 50) V (Proc.devRef .tc main_v26) = broadcastInDim S190 ![] bcast_S_S190 (constantI S_ 32 0#32) := by
  rw [after_take_cut ops 44 6 50 rfl V]
  generalize hW : after (ops.take 44) V = W
  have h0 : W (Proc.devRef .tc main_v25) = csum400 := hW ▸ at44 V
  refine ⟨?_, ?_⟩ <;> read_stretch [h0]

set_option maxRecDepth 8192 in
/-- Operations 51 … 61 write %35: each bounded sum wrapped by 190 and laid out as a start index, and a one added into
    the 190 zeros at each. -/
theorem at61 (V : Valuation τ sig (Elt Ideal)) :
    after (ops.take 61) V (Proc.devRef .tc main_v35) = hist190 := by
  rw [after_take_cut ops 50 11 61 rfl V]
  generalize hW : after (ops.take 50) V = W
  have h0 : W (Proc.devRef .tc main_v27) = clip400 := hW ▸ (at50 V).1
  have h1 : W (Proc.devRef .tc main_v26) = broadcastInDim S190 ![] bcast_S_S190 (constantI S_ 32 0#32) := hW ▸ (at50 V).2
  read_stretch [h0, h1]

set_option maxRecDepth 8192 in
/-- @cumsum_1's three operations write %36: the running sum of that. -/
theorem at64 (V : Valuation τ sig (Elt Ideal)) :
    after (ops.take 64) V (Proc.devRef .tc main_v36) = flatPos := by
  rw [after_take_cut ops 61 3 64 rfl V]
  generalize hW : after (ops.take 61) V = W
  have h0 : W (Proc.devRef .tc main_v35) = hist190 := hW ▸ at61 V
  read_stretch [h0]

set_option maxRecDepth 8192 in
/-- @floor_divide's sixteen operations (after its divisor 20) write %37: the quotient of %36 by 20 rounded toward minus
    infinity. They do not write %36. -/
theorem at81 (V : Valuation τ sig (Elt Ideal)) :
    after (ops.take 81) V (Proc.devRef .tc main_v37) = floorDiv flatPos (constantI S_ 32 20#32)
      ∧ after (ops.take 81) V (Proc.devRef .tc main_v36) = flatPos := by
  rw [after_take_cut ops 64 17 81 rfl V]
  generalize hW : after (ops.take 64) V = W
  have h0 : W (Proc.devRef .tc main_v36) = flatPos := hW ▸ at64 V
  refine ⟨?_, ?_⟩ <;> read_stretch [h0]

set_option maxRecDepth 8192 in
/-- @remainder's twenty-one operations (after its divisor 20) write %38: the remainder of %37 by 20 with the divisor's
    sign — the first index vector before its wrap. They do not write %36. -/
theorem at103 (V : Valuation τ sig (Elt Ideal)) :
    after (ops.take 103) V (Proc.devRef .tc main_v38) = rowOf
      ∧ after (ops.take 103) V (Proc.devRef .tc main_v36) = flatPos := by
  rw [after_take_cut ops 81 22 103 rfl V]
  generalize hW : after (ops.take 81) V = W
  have h0 : W (Proc.devRef .tc main_v37) = floorDiv flatPos (constantI S_ 32 20#32) := hW ▸ (at81 V).1
  have h1 : W (Proc.devRef .tc main_v36) = flatPos := hW ▸ (at81 V).2
  refine ⟨?_, ?_⟩ <;> read_stretch [h0, h1]

set_option maxRecDepth 8192 in
/-- The second @floor_divide (after its divisor 1) writes %39: the quotient of %36 by 1 rounded toward minus infinity.
    It does not write %38. -/
theorem at120 (V : Valuation τ sig (Elt Ideal)) :
    after (ops.take 120) V (Proc.devRef .tc main_v39) = floorDiv flatPos (constantI S_ 32 1#32)
      ∧ after (ops.take 120) V (Proc.devRef .tc main_v38) = rowOf := by
  rw [after_take_cut ops 103 17 120 rfl V]
  generalize hW : after (ops.take 103) V = W
  have h0 : W (Proc.devRef .tc main_v38) = rowOf := hW ▸ (at103 V).1
  have h1 : W (Proc.devRef .tc main_v36) = flatPos := hW ▸ (at103 V).2
  refine ⟨?_, ?_⟩ <;> read_stretch [h0, h1]

set_option maxRecDepth 8192 in
/-- The second @remainder (after its divisor 20) writes %40: the remainder of %39 by 20 with the divisor's sign — the
    second index vector before its wrap. It does not write %38. -/
theorem at142 (V : Valuation τ sig (Elt Ideal)) :
    after (ops.take 142) V (Proc.devRef .tc main_v40) = colOf
      ∧ after (ops.take 142) V (Proc.devRef .tc main_v38) = rowOf := by
  rw [after_take_cut ops 120 22 142 rfl V]
  generalize hW : after (ops.take 120) V = W
  have h0 : W (Proc.devRef .tc main_v39) = floorDiv flatPos (constantI S_ 32 1#32) := hW ▸ (at120 V).1
  have h1 : W (Proc.devRef .tc main_v38) = rowOf := hW ▸ (at120 V).2
  refine ⟨?_, ?_⟩ <;> read_stretch [h0, h1]

set_option maxRecDepth 8192 in
/-- Operations 143 … 150 write %46: the first index vector, a negative entry wrapped by 20, laid out as a [190, 1] array
    of start indices. They do not write %40. -/
theorem at150 (V : Valuation τ sig (Elt Ideal)) :
    after (ops.take 150) V (Proc.devRef .tc main_v46) = idxA
      ∧ after (ops.take 150) V (Proc.devRef .tc main_v40) = colOf := by
  rw [after_take_cut ops 142 8 150 rfl V]
  generalize hW : after (ops.take 142) V = W
  have h0 : W (Proc.devRef .tc main_v40) = colOf := hW ▸ (at142 V).1
  have h1 : W (Proc.devRef .tc main_v38) = rowOf := hW ▸ (at142 V).2
  refine ⟨?_, ?_⟩ <;> read_stretch [h0, h1]

/-! ## The result -/

set_option maxRecDepth 8192 in
/-- The fold read at the result buffer. The last thirteen operations — the gather of the weighted rows at %46, the second
    index vector wrapped and laid out (%48 … %53), the gather there, the product, the concatenation after the user-item
    blocks and the flattening — over what the first 150 left in the buffers of %17, %20, %46 and %40: the float stages at
    the five arguments and the two index vectors. The two operands of the concatenation stand inside a list of pairs, so
    this stretch is read by rewriting, one operation's result at a time. -/
theorem result_eq (V : Valuation τ sig (Elt Ideal)) :
    after ops V (Proc.devRef .tc main_v57)
      = refFloat (V (Proc.devRef .tc main_arg0)) (V (Proc.devRef .tc main_arg1)) (V (Proc.devRef .tc main_arg2))
          (V (Proc.devRef .tc main_arg3)) (V (Proc.devRef .tc main_arg4)) idxA idxB := by
  rw [after_cut ops 150 V]
  generalize hW : after (ops.take 150) V = W
  have h17 : W (Proc.devRef .tc main_v17) = weRef (V (Proc.devRef .tc main_arg1)) (V (Proc.devRef .tc main_arg3)) (V (Proc.devRef .tc main_arg4)) := hW ▸ (at150f V).1
  have h20 : W (Proc.devRef .tc main_v20)
      = userItem (V (Proc.devRef .tc main_arg0)) (V (Proc.devRef .tc main_arg1)) (V (Proc.devRef .tc main_arg2)) (V (Proc.devRef .tc main_arg3)) (V (Proc.devRef .tc main_arg4)) := hW ▸ (at150f V).2
  have h46 : W (Proc.devRef .tc main_v46) = idxA := hW ▸ (at150 V).1
  have h40 : W (Proc.devRef .tc main_v40) = colOf := hW ▸ (at150 V).2
  simp only [ops, List.drop_succ_cons, List.drop_zero]
  after_results
  rw [h20, h17, h46, h40]
  rfl

/-- The reference's value claim: at the ideal instance, from any memory with zero counters in which every user index is
    below the user table's 100000 rows and every history entry below the item table's 100001, every weakly fair execution
    of @main terminates with the result buffer at the specification's array of the five arguments, and the arguments
    unchanged. The run gives the fold; the fold is the float stages at the two computed index vectors (`result_eq`); those
    are the table of pairs (`idxA_eq`, `idxB_eq`); and the float stages at that table are the specification
    (`refFloat_eq`). -/
theorem run_value (m : (ℓ : Loc nD τ sig) → Buf (Elt Ideal) ℓ) (ρ : Dev nD → PrngReg)
    (hU : ∀ (c : Dev nD) i, ((m ((c.tc : Thread nD τ).loc main_arg0)) i).toNat < 100000)
    (hI : ∀ (c : Dev nD) i, ((m ((c.tc : Thread nD τ).loc main_arg1)) i).toNat < 100001) :
    θ_run (defs (F := Ideal)) (onTc (τ := τ) (main (F := Ideal))) ⟨m, fun _ => 0, ρ⟩ (fun r => ∀ c : Dev nD,
      r.2.mem ((c.tc : Thread nD τ).loc main_v57)
        = Cert.Proof.Spec.out (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono
    (fun _ h c => ⟨(h c).1.trans (by
        rw [result_eq, idxA_eq, idxB_eq]
        exact refFloat_eq _ _ _ _ _ (hU c) (hI c)), (h c).2⟩)
    (run (F := Ideal) m ρ)

end Cert.ReferenceIdeal.Hand

end
-- ==== Proof.lean ====
/-
  The certificate's claims, assembled.

  The kernel gathers, for every batch row, the user's row of the user table and the twenty history rows of the item
  table by row copies, weights the history rows, and writes the twenty products user ⊙ (w_n · item_n) followed by the
  190 products (w_a · item_a) ⊙ (w_b · item_b), a < b; the reference computes the same array with two table gathers
  and two gathers along the history axis at index lists it computes at run time.  Both are the one function
  `Cert.Proof.Spec.out` of the argument arrays — no law of the extended reals is used: the two sides multiply the same
  factors in the same order, and only the indexing differs.

  The precondition's index ranges (every user index a row of the user table, every history index a row of the item
  table) are what the kernel's row copies need — each assumes its source row inside its table — and what makes the
  reference's clamped, wrapped gathers read the rows the indices name.  The three frames: the two kernel programs by
  the run of their one call between two stretches of reshapes; the reference by its run.  The idealization rewrote
  no operation, so there is nothing to preserve.
-/
import proofs.«429411_j5592047419689_3_alg».proof.Defs
import proofs.«429411_j5592047419689_3_alg».proof.Proof.Gen.Kernel
import proofs.«429411_j5592047419689_3_alg».proof.Proof.Gen.KernelIdeal
import proofs.«429411_j5592047419689_3_alg».proof.Proof.Gen.ReferenceIdeal
import proofs.«429411_j5592047419689_3_alg».proof.Proof.Gen.Pre_finite_inputs
import proofs.«429411_j5592047419689_3_alg».proof.Proof.PreDecode
import proofs.«429411_j5592047419689_3_alg».proof.Proof.K.Frame
import proofs.«429411_j5592047419689_3_alg».proof.Proof.KI.Value
import proofs.«429411_j5592047419689_3_alg».proof.Proof.Ref.Glue

noncomputable section

namespace Cert.Proof

open Idealize.ShloMosaic Idealize.SL.Sem

/-! ## The frames -/

/-- The arguments and the result of `Kernel` are unscoped buffers of the core. -/
theorem uc_K : ∀ b ∈ [Cert.Kernel.main_arg0, Cert.Kernel.main_arg1, Cert.Kernel.main_arg2, Cert.Kernel.main_arg3, Cert.Kernel.main_arg4, Cert.Kernel.main_v4],
    Proc.devRef (τ := Cert.Kernel.τ) .tc b ∈ Pipeline.ucRefs Cert.Kernel.τ Cert.Kernel.sig := by decide

/-- The arguments and the result of `KernelIdeal` are unscoped buffers of the core. -/
theorem uc_KI : ∀ b ∈ [Cert.KernelIdeal.main_arg0, Cert.KernelIdeal.main_arg1, Cert.KernelIdeal.main_arg2, Cert.KernelIdeal.main_arg3, Cert.KernelIdeal.main_arg4, Cert.KernelIdeal.main_v4],
    Proc.devRef (τ := Cert.KernelIdeal.τ) .tc b ∈ Pipeline.ucRefs Cert.KernelIdeal.τ Cert.KernelIdeal.sig := by decide

/-- The word-level kernel program runs and leaves its arguments as they were. -/
theorem frame_K : Cert.frame_Kernel := fun m g hpre => by
  have hU : ∀ (c : Dev Cert.Kernel.nD) i, ((m ((c.tc : Thread Cert.Kernel.nD Cert.Kernel.τ).loc Cert.Kernel.main_arg0)) i).toNat < 100000 :=
    fun c => (Cert.Proof.PreDecode.ranges (F := Bits) _ _ _ _ _ (hpre c)).1
  have hI : ∀ (c : Dev Cert.Kernel.nD) i, ((m ((c.tc : Thread Cert.Kernel.nD Cert.Kernel.τ).loc Cert.Kernel.main_arg1)) i).toNat < 100001 :=
    fun c => (Cert.Proof.PreDecode.ranges (F := Bits) _ _ _ _ _ (hpre c)).2
  have hR := Cert.Kernel.Hand.ranges_of_bounds m g hU hI
  refine (θ_run (Cert.Kernel.defs (F := Bits)) _ _).mono (fun r h c => ?_) (Cert.Kernel.Hand.run_main (F := Bits) m g hR)
  obtain ⟨h0, h1, h2, h3, h4⟩ := Cert.Kernel.Hand.final_args m g hR c
  exact ⟨(h c _ (uc_K Cert.Kernel.main_arg0 (by decide))).trans h0, (h c _ (uc_K Cert.Kernel.main_arg1 (by decide))).trans h1, (h c _ (uc_K Cert.Kernel.main_arg2 (by decide))).trans h2, (h c _ (uc_K Cert.Kernel.main_arg3 (by decide))).trans h3, (h c _ (uc_K Cert.Kernel.main_arg4 (by decide))).trans h4⟩

/-- So does the idealized one. -/
theorem frame_KI : Cert.frame_KernelIdeal := fun m g hpre => by
  have hU : ∀ (c : Dev Cert.KernelIdeal.nD) i, ((m ((c.tc : Thread Cert.KernelIdeal.nD Cert.KernelIdeal.τ).loc Cert.KernelIdeal.main_arg0)) i).toNat < 100000 :=
    fun c => (Cert.Proof.PreDecode.ranges (F := Ideal) _ _ _ _ _ (hpre c)).1
  have hI : ∀ (c : Dev Cert.KernelIdeal.nD) i, ((m ((c.tc : Thread Cert.KernelIdeal.nD Cert.KernelIdeal.τ).loc Cert.KernelIdeal.main_arg1)) i).toNat < 100001 :=
    fun c => (Cert.Proof.PreDecode.ranges (F := Ideal) _ _ _ _ _ (hpre c)).2
  have hR := Cert.KernelIdeal.Hand.ranges_of_bounds m g hU hI
  refine (θ_run (Cert.KernelIdeal.defs (F := Ideal)) _ _).mono (fun r h c => ?_) (Cert.KernelIdeal.Hand.run_main (F := Ideal) m g hR)
  obtain ⟨h0, h1, h2, h3, h4⟩ := Cert.KernelIdeal.Hand.final_args m g hR c
  exact ⟨(h c _ (uc_KI Cert.KernelIdeal.main_arg0 (by decide))).trans h0, (h c _ (uc_KI Cert.KernelIdeal.main_arg1 (by decide))).trans h1, (h c _ (uc_KI Cert.KernelIdeal.main_arg2 (by decide))).trans h2, (h c _ (uc_KI Cert.KernelIdeal.main_arg3 (by decide))).trans h3, (h c _ (uc_KI Cert.KernelIdeal.main_arg4 (by decide))).trans h4⟩

/-- The reference runs and leaves its arguments as they were: its run with the result dropped. -/
theorem frame_R : Cert.frame_ReferenceIdeal := fun m g _ =>
  (θ_run (Cert.ReferenceIdeal.defs (F := Ideal)) _ _).mono (fun _ h c => (h c).2) (Cert.ReferenceIdeal.Hand.run (F := Ideal) m g)

/-! ## The two idealized programs compute one function -/

theorem algebraic : Cert.algebraic_KernelIdeal_ReferenceIdeal := by
  intro m g m' g' hpre hagree
  have hU : ∀ (c : Dev Cert.KernelIdeal.nD) i, ((m ((c.tc : Thread Cert.KernelIdeal.nD Cert.KernelIdeal.τ).loc Cert.KernelIdeal.main_arg0)) i).toNat < 100000 :=
    fun c => (Cert.Proof.PreDecode.ranges (F := Ideal) _ _ _ _ _ (hpre c)).1
  have hI : ∀ (c : Dev Cert.KernelIdeal.nD) i, ((m ((c.tc : Thread Cert.KernelIdeal.nD Cert.KernelIdeal.τ).loc Cert.KernelIdeal.main_arg1)) i).toNat < 100001 :=
    fun c => (Cert.Proof.PreDecode.ranges (F := Ideal) _ _ _ _ _ (hpre c)).2
  have hR := Cert.KernelIdeal.Hand.ranges_of_bounds m g hU hI
  refine ⟨fun c => Cert.Proof.Spec.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · refine (θ_run (Cert.KernelIdeal.defs (F := Ideal)) _ _).mono (fun r h c => ?_) (Cert.KernelIdeal.Hand.run_main (F := Ideal) m g hR)
    obtain ⟨h0, h1, h2, h3, h4⟩ := Cert.KernelIdeal.Hand.final_args m g hR c
    exact ⟨(h c _ (uc_KI Cert.KernelIdeal.main_v4 (by decide))).trans (Cert.KernelIdeal.Hand.final_value m g hR hU hI c), (h c _ (uc_KI Cert.KernelIdeal.main_arg0 (by decide))).trans h0, (h c _ (uc_KI Cert.KernelIdeal.main_arg1 (by decide))).trans h1, (h c _ (uc_KI Cert.KernelIdeal.main_arg2 (by decide))).trans h2, (h c _ (uc_KI Cert.KernelIdeal.main_arg3 (by decide))).trans h3, (h c _ (uc_KI Cert.KernelIdeal.main_arg4 (by decide))).trans h4⟩
  · have hU' : ∀ (c : Dev Cert.ReferenceIdeal.nD) i, ((m' ((c.tc : Thread Cert.ReferenceIdeal.nD Cert.ReferenceIdeal.τ).loc Cert.ReferenceIdeal.main_arg0)) i).toNat < 100000 :=
      fun c i => by rw [(hagree c).1]; exact hU c i
    have hI' : ∀ (c : Dev Cert.ReferenceIdeal.nD) i, ((m' ((c.tc : Thread Cert.ReferenceIdeal.nD Cert.ReferenceIdeal.τ).loc Cert.ReferenceIdeal.main_arg1)) i).toNat < 100001 :=
      fun c i => by rw [(hagree c).2.1]; exact hI c i
    refine (θ_run (Cert.ReferenceIdeal.defs (F := Ideal)) _ _).mono (fun r h c => ⟨(h c).1.trans ?_, (h c).2⟩)
      (Cert.ReferenceIdeal.Hand.run_value m' g' hU' hI')
    rw [(hagree c).1, (hagree c).2.1, (hagree c).2.2.1, (hagree c).2.2.2.1, (hagree c).2.2.2.2]

/-! ## The claim -/

theorem claim : Cert.Claim :=
  ⟨Cert.Kernel.Gen.facts, Cert.KernelIdeal.Gen.facts, Cert.ReferenceIdeal.Gen.facts, Cert.Pre_finite_inputs.Gen.facts,
    frame_K, frame_KI, frame_R, trivial, algebraic⟩

end Cert.Proof

end
